-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x128 : Shape := ⟨2, ![32, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S2x128 : Shape := ⟨2, ![2, 128]⟩
abbrev S128x1 : Shape := ⟨2, ![128, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S2x128 : S_.BroadcastsInDim S2x128 (![] : Fin 0 → Fin S2x128.rank)
  reducesTo_S2x128_S_d0_1 : S2x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg1 : IVec S2x1600000 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : IVec S1x1600000 32 := (extractStridedSlice S1x1600000 ![0, 0] · slices_S2x1600000_S1x1600000_0_0) main_arg1
  let main_v90 : IVec S1600000 32 := shapeCast S1600000 main_v89 shapeCasts_S1x1600000_S1600000
  let main_c_34 : IVec S_ 32 := constantI S_ 32 4294867296#32
  let main_v91 : IVec S1600000 32 := broadcastInDim S1600000 ![] bcast_S_S1600000 main_c_34
  let main_v92 : IVec S1600000 1 := cmpi .sge main_v90 main_v91
  let main_v93 : IVec S1x1600000 32 := (extractStridedSlice S1x1600000 ![0, 0] · slices_S2x1600000_S1x1600000_0_0) main_arg1
  let main_v94 : IVec S1600000 32 := shapeCast S1600000 main_v93 shapeCasts_S1x1600000_S1600000
  let main_c_35 : IVec S_ 32 := constantI S_ 32 100000#32
  let main_v95 : IVec S1600000 32 := broadcastInDim S1600000 ![] bcast_S_S1600000 main_c_35
  let main_v96 : IVec S1600000 1 := cmpi .slt main_v94 main_v95
  let main_v97 : IVec S1600000 1 := andi main_v92 main_v96
  let main_c_36 : IVec S_ 1 := constantI S_ 1 1#1
  let main_v98 : IVec S_ 1 := (fun x v => Host.reduce IntOp.andi x v reducesTo_S1600000_S_d0 h_S_) main_v97 main_c_36
  let main_v99 : IVec S_ 1 := andi main_v88 main_v98
  main_v99

def fn_part4 {F : FTy → Type} [FloatOps F] (main_arg1 : IVec S2x1600000 32) (main_arg16 : FVec F S128x128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg18
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_arg1 main_v83 main_v84 main_cst_32

def fn_part3 {F : FTy → Type} [FloatOps F] (main_arg1 : IVec S2x1600000 32) (main_arg13 : FVec F S3 .f32) (main_arg14 : FVec F S2x128 .f32) (main_arg15 : FVec F S128 .f32) (main_arg16 : FVec F S128x128 .f32) (main_arg17 : FVec F S128 .f32) (main_arg18 : FVec F S128x1 .f32) (main_arg19 : FVec F S1 .f32) (main_v48 : IVec S_ 1) (main_v49 : FVec F S128x3 .f32) (main_v50 : FVec F S128x3 .f32) : IVec S_ 1 :=
  let main_v51 : IVec S128x3 1 := cmpf .olt main_v49 main_v50
  let main_c_19 : IVec S_ 1 := constantI S_ 1 1#1
  let main_v52 : IVec S_ 1 := (fun x v => Host.reduce IntOp.andi x v reducesTo_S128x3_S_d0_1 h_S_) main_v51 main_c_19
  let main_v53 : IVec S_ 1 := andi main_v48 main_v52
  let main_v54 : FVec F S3 .f32 := Host.absf main_arg13
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : FVec F S2x128 .f32 := Host.absf main_arg14
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg16 main_arg17 main_arg18 main_arg19 main_v63 main_v67

def fn_part2 {F : FTy → Type} [FloatOps F] (main_arg1 : IVec S2x1600000 32) (main_arg9 : FVec F S128x128 .f32) (main_arg10 : FVec F S128 .f32) (main_arg11 : FVec F S128x128 .f32) (main_arg12 : FVec F S128x3 .f32) (main_arg13 : FVec F S3 .f32) (main_arg14 : FVec F S2x128 .f32) (main_arg15 : FVec F S128 .f32) (main_arg16 : FVec F S128x128 .f32) (main_arg17 : FVec F S128 .f32) (main_arg18 : FVec F S128x1 .f32) (main_arg19 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x3 .f32 := Host.absf main_arg12
  let main_cst_18 : FVec F S_ .f32 := constant S_ .f32 0x7F800000#32
  let main_v50 : FVec F S128x3 .f32 := broadcastInDim S128x3 ![] bcast_S_S128x3 main_cst_18
  fn_part3 (F := F) main_arg1 main_arg13 main_arg14 main_arg15 main_arg16 main_arg17 main_arg18 main_arg19 main_v48 main_v49 main_v50

def fn_part1 {F : FTy → Type} [FloatOps F] (main_arg1 : IVec S2x1600000 32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x3 .f32) (main_arg13 : FVec F S3 .f32) (main_arg14 : FVec F S2x128 .f32) (main_arg15 : FVec F S128 .f32) (main_arg16 : FVec F S128x128 .f32) (main_arg17 : FVec F S128 .f32) (main_arg18 : FVec F S128x1 .f32) (main_arg19 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_v33

def fn {F : FTy → Type} [FloatOps F] (main_arg0 : FVec F S100000x32 .f32) (main_arg1 : IVec S2x1600000 32) (main_arg2 : IVec S100000 32) (main_arg3 : FVec F S32x128 .f32) (main_arg4 : FVec F S128 .f32) (main_arg5 : FVec F S32x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x3 .f32) (main_arg13 : FVec F S3 .f32) (main_arg14 : FVec F S2x128 .f32) (main_arg15 : FVec F S128 .f32) (main_arg16 : FVec F S128x128 .f32) (main_arg17 : FVec F S128 .f32) (main_arg18 : FVec F S128x1 .f32) (main_arg19 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg3
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg5
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x128 : Shape := ⟨2, ![32, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S2x128 : Shape := ⟨2, ![2, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1x1 : Shape := ⟨2, ![1, 1]⟩
abbrev S1600000x32 : Shape := ⟨2, ![1600000, 32]⟩
abbrev S100000x128 : Shape := ⟨2, ![100000, 128]⟩
abbrev S2000x32 : Shape := ⟨2, ![2000, 32]⟩
abbrev S2000x128 : Shape := ⟨2, ![2000, 128]⟩
abbrev S1x128 : Shape := ⟨2, ![1, 128]⟩
abbrev S1600000x128 : Shape := ⟨2, ![1600000, 128]⟩
abbrev S100000x3 : Shape := ⟨2, ![100000, 3]⟩
abbrev S2000x3 : Shape := ⟨2, ![2000, 3]⟩
abbrev S1x3 : Shape := ⟨2, ![1, 3]⟩
abbrev S2000x1 : Shape := ⟨2, ![2000, 1]⟩
abbrev S2000x2 : Shape := ⟨2, ![2000, 2]⟩
abbrev S64x3 : Shape := ⟨2, ![64, 3]⟩
abbrev S64x4 : Shape := ⟨2, ![64, 4]⟩
abbrev S2000x64 : Shape := ⟨2, ![2000, 64]⟩
abbrev S2000x4 : Shape := ⟨2, ![2000, 4]⟩
abbrev S64x1 : Shape := ⟨2, ![64, 1]⟩

abbrev nBuf : Space → Nat
  | .hbm => 147
  | .vmem => 45
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x128, .f32⟩
  | 4 => ⟨S128, .f32⟩
  | 5 => ⟨S32x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x3, .f32⟩
  | 13 => ⟨S3, .f32⟩
  | 14 => ⟨S2x128, .f32⟩
  | 15 => ⟨S128, .f32⟩
  | 16 => ⟨S128x128, .f32⟩
  | 17 => ⟨S128, .f32⟩
  | 18 => ⟨S128x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S100000x1, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1, .i32⟩
  | 34 => ⟨S_, .i32⟩
  | 35 => ⟨S1600000x1, .i32⟩
  | 36 => ⟨S1600000x1, .i1⟩
  | 37 => ⟨S1x1, .i32⟩
  | 38 => ⟨S1600000x1, .i32⟩
  | 39 => ⟨S1600000x1, .i1⟩
  | 40 => ⟨S1600000x1, .i1⟩
  | 41 => ⟨S_, .i1⟩
  | 42 => ⟨S1600000, .i1⟩
  | 43 => ⟨S1600000x32, .f32⟩
  | 44 => ⟨S1600000x32, .i1⟩
  | 45 => ⟨S_, .f32⟩
  | 46 => ⟨S1600000x32, .f32⟩
  | 47 => ⟨S1600000x32, .f32⟩
  | 48 => ⟨S_, .f32⟩
  | 49 => ⟨S100000x32, .f32⟩
  | 50 => ⟨S1600000x1, .i32⟩
  | 51 => ⟨S100000x32, .f32⟩
  | 52 => ⟨S_, .f32⟩
  | 53 => ⟨S1600000, .f32⟩
  | 54 => ⟨S_, .f32⟩
  | 55 => ⟨S100000, .f32⟩
  | 56 => ⟨S1600000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x32, .f32⟩
  | 63 => ⟨S100000x32, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1, .i32⟩
  | 74 => ⟨S_, .i32⟩
  | 75 => ⟨S1600000x1, .i32⟩
  | 76 => ⟨S1600000x1, .i1⟩
  | 77 => ⟨S1x1, .i32⟩
  | 78 => ⟨S1600000x1, .i32⟩
  | 79 => ⟨S1600000x1, .i1⟩
  | 80 => ⟨S1600000x1, .i1⟩
  | 81 => ⟨S_, .i1⟩
  | 82 => ⟨S1600000, .i1⟩
  | 83 => ⟨S1600000x128, .f32⟩
  | 84 => ⟨S1600000x128, .i1⟩
  | 85 => ⟨S_, .f32⟩
  | 86 => ⟨S1600000x128, .f32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S_, .f32⟩
  | 93 => ⟨S1600000, .f32⟩
  | 94 => ⟨S_, .f32⟩
  | 95 => ⟨S100000, .f32⟩
  | 96 => ⟨S1600000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x128, .f32⟩
  | 103 => ⟨S100000x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1, .i32⟩
  | 114 => ⟨S_, .i32⟩
  | 115 => ⟨S1600000x1, .i32⟩
  | 116 => ⟨S1600000x1, .i1⟩
  | 117 => ⟨S1x1, .i32⟩
  | 118 => ⟨S1600000x1, .i32⟩
  | 119 => ⟨S1600000x1, .i1⟩
  | 120 => ⟨S1600000x1, .i1⟩
  | 121 => ⟨S_, .i1⟩
  | 122 => ⟨S1600000, .i1⟩
  | 123 => ⟨S1600000x128, .f32⟩
  | 124 => ⟨S1600000x128, .i1⟩
  | 125 => ⟨S_, .f32⟩
  | 126 => ⟨S1600000x128, .f32⟩
  | 127 => ⟨S1600000x128, .f32⟩
  | _ => ⟨S100000x32, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S_, .f32⟩
  | 5 => ⟨S1600000, .f32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S100000x128, .f32⟩
  | 17 => ⟨S100000x3, .f32⟩
  | 18 => ⟨S64x3, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S32x128, .f32⟩
  | .local _ .vmem, ⟨5, _⟩ => ⟨S32x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x3, .f32⟩
  | .local _ .vmem, ⟨30, _⟩ => ⟨S3, .f32⟩
  | .local _ .vmem, ⟨31, _⟩ => ⟨S2x128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S128x1, .f32⟩
  | .local _ .vmem, ⟨36, _⟩ => ⟨S1, .f32⟩
  | .local _ .vmem, ⟨37, _⟩ => ⟨S2000x3, .f32⟩
  | .local _ .vmem, ⟨38, _⟩ => ⟨S2000x3, .f32⟩
  | .local _ .vmem, ⟨39, _⟩ => ⟨S2000x3, .f32⟩
  | .local _ .vmem, ⟨40, _⟩ => ⟨S2000x3, .f32⟩
  | .local _ .vmem, ⟨41, _⟩ => ⟨S2000x1, .i32⟩
  | .local _ .vmem, ⟨42, _⟩ => ⟨S2000x1, .i32⟩
  | .local _ .vmem, ⟨43, _⟩ => ⟨S64x3, .f32⟩
  | .local _ .vmem, ⟨44, _⟩ => ⟨S64x4, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_cst_0 : Ref sig .tc := ⟨.hbm, 52, rfl⟩
abbrev main_v9 : Ref sig .tc := ⟨.hbm, 53, rfl⟩
abbrev main_cst_1 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_cst_2 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v19 : Ref sig .tc := ⟨.hbm, 87, rfl⟩
abbrev main_cst_3 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_cst_4 : Ref sig .tc := ⟨.hbm, 92, rfl⟩
abbrev main_v23 : Ref sig .tc := ⟨.hbm, 93, rfl⟩
abbrev main_cst_5 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_cst_6 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_call2_cst : Ref sig .tc := ⟨.hbm, 125, rfl⟩
abbrev main_call2_v15 : Ref sig .tc := ⟨.hbm, 126, rfl⟩
abbrev main_v33 : Ref sig .tc := ⟨.hbm, 127, rfl⟩
abbrev main_cst_7 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_cst_8 : Ref sig .tc := ⟨.hbm, 132, rfl⟩
abbrev main_v37 : Ref sig .tc := ⟨.hbm, 133, rfl⟩
abbrev main_cst_9 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_cst_10 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg9_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem9_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x3 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v22 : BitVec 1 := Scalar.cmpi .eq arg0 c49_i32
  let v23 : BitVec 32 := Scalar.extui v22
  let c0_i32_9 : BitVec 32 := 0#32
  let v24 : BitVec 1 := Scalar.cmpi .ne v23 c0_i32_9
  v24

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x3 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  slices_S2000x3_o0_0_S2000x1 : S2000x3.Slices ![0, 0] S2000x1
  slices_S2000x3_o0_2_S2000x1 : S2000x3.Slices ![0, 2] S2000x1
  concatenates_S2000x1_S2000x1_S2000x2_d1 : Shape.Concatenates [S2000x1, S2000x1] S2000x2 1
  inb_S2x128_S2x128_0_0 : ∀ a, (![0, 0] : Fin 2 → Nat) a + S2x128.size a ≤ S2x128.size a
  h_S2x128 : 0 < S2x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  concatenates_S2000x1_S2000x1_S2000x1_S2000x3_d1 : Shape.Concatenates [S2000x1, S2000x1, S2000x1] S2000x3 1
  inb_S2000x3_S2000x3_0_0 : ∀ a, (![0, 0] : Fin 2 → Nat) a + S2000x3.size a ≤ S2000x3.size a
  h_S2000x3 : 0 < S2000x3.numel
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  shapeCasts_S2000x3_S2000x3 : S2000x3.ShapeCasts S2000x3
  concatenates_S2000x3_S2000x1_S2000x4_d1 : Shape.Concatenates [S2000x3, S2000x1] S2000x4 1
  inb_S64x4_S64x3_0_0 : ∀ a, (![0, 0] : Fin 2 → Nat) a + S64x3.size a ≤ S64x4.size a
  h_S64x3 : 0 < S64x3.numel
  inb_S64x4_S64x1_0_3 : ∀ a, (![0, 3] : Fin 2 → Nat) a + S64x1.size a ≤ S64x4.size a
  h_S64x1 : 0 < S64x1.numel
  broadcasts_S64x1_S64x3 : S64x1.Broadcasts S64x3
  inb_S64x3_S64x3_0_0 : ∀ a, (![0, 0] : Fin 2 → Nat) a + S64x3.size a ≤ S64x3.size a
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S2000x32_S32x128_S2000x128_1_0_0_1_n_n_wf : DotDims.WF S2000x32 S32x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []
  dot_S2000x2_S2x128_S2000x128_1_0_0_1_n_n_wf : DotDims.WF S2000x2 S2x128 S2000x128 [1] [0] [0] [1] [] []
  dot_S2000x128_S128x1_S2000x1_1_0_0_1_n_n_wf : DotDims.WF S2000x128 S128x1 S2000x1 [1] [0] [0] [1] [] []
  dot_S2000x64_S2000x4_S64x4_0_0_1_1_n_n_wf : DotDims.WF S2000x64 S2000x4 S64x4 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S100000x32.size a
  hwx0_1 : ∀ i : grid0.Coords, EltTy.bits .f32 = 32 ∨ (Rect.block (s := S100000x32) S2000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x3.size a ≤ S128x3.size a
  hwx3_1 : ∀ i : grid3.Coords, EltTy.bits .f32 = 32 ∨ (Rect.block (s := S128x3) S128x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3.size a ≤ S3.size a
  hwx3_2 : ∀ i : grid3.Coords, EltTy.bits .f32 = 32 ∨ (Rect.block (s := S3) S3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x128.size a ≤ S2x128.size a
  hwx3_3 : ∀ i : grid3.Coords, EltTy.bits .f32 = 32 ∨ (Rect.block (s := S2x128) S2x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x1.size a ≤ S128x1.size a
  hwx3_7 : ∀ i : grid3.Coords, EltTy.bits .f32 = 32 ∨ (Rect.block (s := S128x1) S128x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1.size a ≤ S1.size a
  hwx3_8 : ∀ i : grid3.Coords, EltTy.bits .f32 = 32 ∨ (Rect.block (s := S1) S1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x3.size a ≤ S100000x3.size a
  hwx3_9 : ∀ i : grid3.Coords, EltTy.bits .f32 = 32 ∨ (Rect.block (s := S100000x3) S2000x3.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x3.size a ≤ S100000x3.size a
  hwx4_0 : ∀ i : grid4.Coords, EltTy.bits .f32 = 32 ∨ (Rect.block (s := S100000x3) S2000x3.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .i32 = 32 ∨ (Rect.block (s := S100000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x3.size a ≤ S64x3.size a
  hwx4_2 : ∀ i : grid4.Coords, EltTy.bits .f32 = 32 ∨ (Rect.block (s := S64x3) S64x3.size (cc4_transform_2 i) (hinb4_2 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf
def dot_S2000x2_S2x128_S2000x128_1_0_0_1_n_n : DotDims S2000x2 S2x128 S2000x128 where
  lhsContracting := [1]
  rhsContracting := [0]
  lhsNonContracting := [0]
  rhsNonContracting := [1]
  lhsBatch := []
  rhsBatch := []
  wf := dot_S2000x2_S2x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S2000x64_S2000x4_S64x4_0_0_1_1_n_n : DotDims S2000x64 S2000x4 S64x4 where
  lhsContracting := [0]
  rhsContracting := [0]
  lhsNonContracting := [1]
  rhsNonContracting := [1]
  lhsBatch := []
  rhsBatch := []
  wf := dot_S2000x64_S2000x4_S64x4_0_0_1_1_n_n_wf

abbrev win0_0 : Pipeline.Window sig grid0 :=
  Pipeline.Window.ofSpec (Memref.whole main_v17) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S2x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg16) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg17) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg18) S128x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg19) S1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v47) S2000x3.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v47) S2000x3.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S64x3.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x128 : Shape := ⟨2, ![32, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S2x128 : Shape := ⟨2, ![2, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x3 : Shape := ⟨2, ![100000, 3]⟩
abbrev S1x3 : Shape := ⟨2, ![1, 3]⟩
abbrev S100000x2 : Shape := ⟨2, ![100000, 2]⟩
abbrev S1x1 : Shape := ⟨2, ![1, 1]⟩
abbrev S64x3 : Shape := ⟨2, ![64, 3]⟩
abbrev S64 : Shape := ⟨1, ![64]⟩
abbrev S64x1 : Shape := ⟨2, ![64, 1]⟩

abbrev nBuf : Space → Nat
  | .hbm => 176
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x128, .f32⟩
  | 4 => ⟨S128, .f32⟩
  | 5 => ⟨S32x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x3, .f32⟩
  | 13 => ⟨S3, .f32⟩
  | 14 => ⟨S2x128, .f32⟩
  | 15 => ⟨S128, .f32⟩
  | 16 => ⟨S128x128, .f32⟩
  | 17 => ⟨S128, .f32⟩
  | 18 => ⟨S128x1, .f32⟩
  | 19 => ⟨S1, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x32, .f32⟩
  | 33 => ⟨S_, .f32⟩
  | 34 => ⟨S100000x32, .f32⟩
  | 35 => ⟨S1600000x1, .i32⟩
  | 36 => ⟨S100000x32, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x32, .f32⟩
  | 48 => ⟨S100000x32, .f32⟩
  | 49 => ⟨S100000x128, .f32⟩
  | 50 => ⟨S1x128, .f32⟩
  | 51 => ⟨S100000x128, .f32⟩
  | 52 => ⟨S100000x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S_, .f32⟩
  | 106 => ⟨S1600000, .f32⟩
  | 107 => ⟨S_, .f32⟩
  | 108 => ⟨S100000, .f32⟩
  | 109 => ⟨S1600000x1, .i32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x3, .f32⟩
  | 127 => ⟨S1x3, .f32⟩
  | _ => ⟨S100000x32, .f32⟩

abbrev hbmTy0_1 (i : Nat) : BufTy := match i % 128 with
  | 0 => ⟨S100000x3, .f32⟩
  | 1 => ⟨S100000x3, .f32⟩
  | 2 => ⟨S100000x1, .f32⟩
  | 3 => ⟨S100000, .f32⟩
  | 4 => ⟨S100000x1, .f32⟩
  | 5 => ⟨S100000, .f32⟩
  | 6 => ⟨S100000x1, .f32⟩
  | 7 => ⟨S100000x1, .f32⟩
  | 8 => ⟨S100000x2, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x1, .f32⟩
  | 24 => ⟨S1x1, .f32⟩
  | 25 => ⟨S100000x1, .f32⟩
  | 26 => ⟨S100000x1, .f32⟩
  | 27 => ⟨S100000, .f32⟩
  | 28 => ⟨S100000x1, .f32⟩
  | 29 => ⟨S100000x1, .f32⟩
  | 30 => ⟨S100000x1, .f32⟩
  | 31 => ⟨S100000x3, .f32⟩
  | 32 => ⟨S_, .f32⟩
  | 33 => ⟨S64x3, .f32⟩
  | 34 => ⟨S100000x1, .i32⟩
  | 35 => ⟨S64x3, .f32⟩
  | 36 => ⟨S_, .f32⟩
  | 37 => ⟨S100000, .f32⟩
  | 38 => ⟨S_, .f32⟩
  | 39 => ⟨S64, .f32⟩
  | 40 => ⟨S100000x1, .i32⟩
  | 41 => ⟨S64, .f32⟩
  | 42 => ⟨S_, .f32⟩
  | 43 => ⟨S64, .f32⟩
  | 44 => ⟨S64, .f32⟩
  | 45 => ⟨S64x1, .f32⟩
  | 46 => ⟨S64x3, .f32⟩
  | 47 => ⟨S64x3, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call0_cst : Ref sig .tc := ⟨.hbm, 55, rfl⟩
abbrev main_call0_v0 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_call1_cst : Ref sig .tc := ⟨.hbm, 89, rfl⟩
abbrev main_call1_v0 : Ref sig .tc := ⟨.hbm, 90, rfl⟩
abbrev main_v55 : Ref sig .tc := ⟨.hbm, 91, rfl⟩
abbrev main_c_10 : Ref sig .tc := ⟨.hbm, 92, rfl⟩
abbrev main_v56 : Ref sig .tc := ⟨.hbm, 93, rfl⟩
abbrev main_v57 : Ref sig .tc := ⟨.hbm, 94, rfl⟩
abbrev main_c_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_13 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call2_cst : Ref sig .tc := ⟨.hbm, 123, rfl⟩
abbrev main_call2_v0 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call3_cst : Ref sig .tc := ⟨.hbm, 141, rfl⟩
abbrev main_call3_v0 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_call4_cst : Ref sig .tc := ⟨.hbm, 148, rfl⟩
abbrev main_call4_v0 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_16 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_17 : Ref sig .tc := ⟨.hbm, 164, rfl⟩
abbrev main_v115 : Ref sig .tc := ⟨.hbm, 165, rfl⟩
abbrev main_cst_18 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_19 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  slices_S100000x3_S100000x1_0_0 : S100000x3.Slices ![0, 0] S100000x1
  shapeCasts_S100000x1_S100000 : S100000x1.ShapeCasts S100000
  slices_S100000x3_S100000x1_0_2 : S100000x3.Slices ![0, 2] S100000x1
  concatenates_S100000x1_S100000x1_S100000x2_d1 : Shape.Concatenates [S100000x1, S100000x1] S100000x2 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  concatenates_S100000x1_S100000x1_S100000x1_S100000x3_d1 : Shape.Concatenates [S100000x1, S100000x1, S100000x1] S100000x3 1
  bcast_S_S64x3 : S_.BroadcastsInDim S64x3 (![] : Fin 0 → Fin S64x3.rank)
  bcast_S_S64 : S_.BroadcastsInDim S64 (![] : Fin 0 → Fin S64.rank)
  bcast_S64_S64x1_0 : S64.BroadcastsInDim S64x1 (![0] : Fin 1 → Fin S64x1.rank)
  bcast_S64x1_S64x3_0_1 : S64x1.BroadcastsInDim S64x3 (![0, 1] : Fin 2 → Fin S64x3.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x128_S100000x128_1_0_0_1_n_n_wf : DotDims.WF S100000x32 S32x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []
  dot_S100000x2_S2x128_S100000x128_1_0_0_1_n_n_wf : DotDims.WF S100000x2 S2x128 S100000x128 [1] [0] [0] [1] [] []
  dot_S100000x128_S128x1_S100000x1_1_0_0_1_n_n_wf : DotDims.WF S100000x128 S128x1 S100000x1 [1] [0] [0] [1] [] []
  scatter_S64x3_S100000x1_S100000x3_1_0_0_1_wf : ScatterDims.WF S64x3 S100000x1 S100000x3 [1] [0] [0] 1
  scatter_S64_S100000x1_S100000_n_0_0_1_wf : ScatterDims.WF S64 S100000x1 S100000 [] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def dot_S100000x2_S2x128_S100000x128_1_0_0_1_n_n : DotDims S100000x2 S2x128 S100000x128 where
  lhsContracting := [1]
  rhsContracting := [0]
  lhsNonContracting := [0]
  rhsNonContracting := [1]
  lhsBatch := []
  rhsBatch := []
  wf := dot_S100000x2_S2x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S64x3_S100000x1_S100000x3_1_0_0_1 : ScatterDims S64x3 S100000x1 S100000x3 where
  updateWindowDims := [1]
  insertedWindowDims := [0]
  scatterDimsToOperandDims := [0]
  indexVectorDim := 1
  wf := scatter_S64x3_S100000x1_S100000x3_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.HandKernelIdeal.Sage0.lean ====
/-
  One neighbour-mean layer's dense half, relu(mean · Wl + x · Wr + bl), as the pipeline runs it: 50 grid
  points, point t taking rows 2000 t … 2000 t + 1999 of the mean array and of the feature array, the two weight
  matrices and the bias whole at every point, and writing the same rows of the result.  Stated at an arbitrary
  valuation `V` of the core's buffers on entry: what each window's staging buffer holds when the body runs
  (its block of the array), what the body leaves in the result's buffer (one store of the whole 2000 × 128 block,
  its value a function of the five blocks loaded), and from these the obligation the pipeline asks of the body at
  every grid point.
-/
import proofs.«418012_j44109314130143_1_alg».proof.Proof.Gen.KernelIdeal.Launch
import proofs.«418012_j44109314130143_1_alg».proof.Proof.Gen.KernelIdeal.Skeleton
import proofs.«418012_j44109314130143_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array (as the region finds it) that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle the body stores through: the whole 2000 × 128 block. -/
abbrev rOut0 : Rect S2000x128 := Rect.unit (s := S2000x128) ![0, 0] S2000x128.size inb_S2000x128_S2000x128_0_0

/-- The rectangles the body loads through: each input block whole. -/
abbrev rRows0 : Rect S2000x32 := Rect.unit (s := S2000x32) ![0, 0] S2000x32.size inb_S2000x32_S2000x32_0_0
abbrev rMat0 : Rect S32x128 := Rect.unit (s := S32x128) ![0, 0] S32x128.size inb_S32x128_S32x128_0_0
abbrev rBias0 : Rect S128 := Rect.unit (s := S128) ![0] S128.size inb_S128_S128_0

/-- What the body leaves in the result's staging buffer, from the five blocks it loads. -/
def out0_5 (x0 : Vec F S2000x32 .f32) (x1 : Vec F S2000x32 .f32) (x2 : Vec F S32x128 .f32) (x3 : Vec F S32x128 .f32) (x4 : Vec F S128 .f32) :
    Vec F S2000x128 .f32 :=
  View.canon [⟨rOut0, k0_pay1 (View.ld x0 rRows0) (View.ld x1 rRows0) (View.ld x2 rMat0) (View.ld x3 rMat0) (View.ld x4 rBias0)⟩]

/-- The single store covers the block. -/
theorem cover0_5 (p0 : Vec F S2000x128 .f32) (y : S2000x128.Idx) :
    ∃ pc ∈ ([⟨rOut0, p0⟩] : List (View.Piece (Elt F) S2000x128 .f32)), y ∈ pc.1.set :=
  View.cover_of_tiled [⟨rOut0, p0⟩] S2000x128.size (by rfl) y

set_option maxHeartbeats 2000000 in
/-- The body on whole staging memrefs: the five inputs' buffers are returned as found, the result's holds `out0_5`. -/
theorem sound_kernel0 (c : Dev nD) (E : Set ℕ) (i : grid0.Coords)
    (arg1 : Memref sig .tc .vmem S2000x32 .f32) (harg1 : arg1.IsWhole) (arg2 : Memref sig .tc .vmem S2000x32 .f32) (harg2 : arg2.IsWhole)
    (arg3 : Memref sig .tc .vmem S32x128 .f32) (harg3 : arg3.IsWhole) (arg4 : Memref sig .tc .vmem S32x128 .f32) (harg4 : arg4.IsWhole)
    (arg5 : Memref sig .tc .vmem S128 .f32) (harg5 : arg5.IsWhole) (arg6 : Memref sig .tc .vmem S2000x128 .f32) (harg6 : arg6.IsWhole)
    (x0 : Vec F S2000x32 .f32) (x1 : Vec F S2000x32 .f32) (x2 : Vec F S32x128 .f32) (x3 : Vec F S32x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage_dense_kernel i arg1 harg1 arg2 harg2 arg3 harg3 arg4 harg4 arg5 harg5 arg6 harg6) K := by
  simp only [cc0__sage_dense_kernel_eq_skeleton]; unfold cc0__sage_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  exact View.read_writes_eq_canon _ _ _ (cover0_5 (F := F) _)

/-- The pipeline's proof data for this region on core `c`: the arrays as found; after the body at point `t` each
    input's buffer still at its block, the result's at `out0_5` of the five blocks; the invariant the scoped
    buffers no window stages and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- An input window's staging buffer holds its block at every point, whether the pipeline fetched it there or the
    block index had not moved since the last fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- What the pipeline hands the body at point `t`, the six windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it asks back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.HandKernelIdeal.Head.lean ====
/-
  The output head and its small perceptron, fused, as the pipeline runs them: 50 grid points, point t taking rows
  2000 t … 2000 t + 1999 of the hidden-feature array, the eight parameter arrays (head weight and bias, the
  perceptron's three weight matrices and three biases) whole at every point, and writing the same rows of the
  2000 × 3 result: columns 0 and 2 are the head's own columns 0 and 2, column 1 is the perceptron's scalar output
  on those two columns plus its last bias.  Stated at an arbitrary valuation `V` of the core's buffers on entry:
  what each window's staging buffer holds when the body runs (its block of the array), what the body leaves in the
  result's buffer (one store of the whole 2000 × 3 block, its value a function of the nine blocks loaded), and
  from these the obligation the pipeline asks of the body at every grid point.
-/
import proofs.«418012_j44109314130143_1_alg».proof.Proof.Gen.KernelIdeal.Launch
import proofs.«418012_j44109314130143_1_alg».proof.Proof.Gen.KernelIdeal.Skeleton
import proofs.«418012_j44109314130143_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array (as the region finds it) that the point works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The one rectangle the body stores through: the whole 2000 × 3 block. -/
abbrev rOut3 : Rect S2000x3 := Rect.unit (s := S2000x3) ![0, 0] S2000x3.size inb_S2000x3_S2000x3_0_0

/-- The rectangles the body loads through: each input block whole. -/
abbrev rHid3 : Rect S2000x128 := Rect.unit (s := S2000x128) ![0, 0] S2000x128.size inb_S2000x128_S2000x128_0_0
abbrev rW13 : Rect S128x3 := Rect.unit (s := S128x3) ![0, 0] S128x3.size inb_S128x3_S128x3_0_0
abbrev rB13 : Rect S3 := Rect.unit (s := S3) ![0] S3.size inb_S3_S3_0
abbrev rW23 : Rect S2x128 := Rect.unit (s := S2x128) ![0, 0] S2x128.size inb_S2x128_S2x128_0_0
abbrev rVec3 : Rect S128 := Rect.unit (s := S128) ![0] S128.size inb_S128_S128_0
abbrev rW33 : Rect S128x128 := Rect.unit (s := S128x128) ![0, 0] S128x128.size inb_S128x128_S128x128_0_0
abbrev rW43 : Rect S128x1 := Rect.unit (s := S128x1) ![0, 0] S128x1.size inb_S128x1_S128x1_0_0
abbrev rB43 : Rect S1 := Rect.unit (s := S1) ![0] S1.size inb_S1_S1_0

/-- What the body leaves in the result's staging buffer, from the nine blocks it loads: the head's columns 0 and 2
    around the perceptron's column. -/
def out3_9 (x0 : Vec F S2000x128 .f32) (x1 : Vec F S128x3 .f32) (x2 : Vec F S3 .f32) (x3 : Vec F S2x128 .f32) (x4 : Vec F S128 .f32) (x5 : Vec F S128x128 .f32) (x6 : Vec F S128 .f32) (x7 : Vec F S128x1 .f32) (x8 : Vec F S1 .f32) :
    Vec F S2000x3 .f32 :=
  View.canon [⟨rOut3, k3_pay1 (k3_pay3 (View.ld x0 rHid3) (View.ld x1 rW13) (View.ld x2 rB13)) (k3_pay4 (View.ld x0 rHid3) (View.ld x1 rW13) (View.ld x2 rB13))
    (k3_pay5 (View.ld x0 rHid3) (View.ld x1 rW13) (View.ld x2 rB13) (View.ld x3 rW23) (View.ld x4 rVec3) (View.ld x5 rW33) (View.ld x6 rVec3) (View.ld x7 rW43))
    (k3_pay6 (View.ld x8 rB43))⟩]

/-- The single store covers the block. -/
theorem cover3_9 (p0 : Vec F S2000x3 .f32) (y : S2000x3.Idx) :
    ∃ pc ∈ ([⟨rOut3, p0⟩] : List (View.Piece (Elt F) S2000x3 .f32)), y ∈ pc.1.set :=
  View.cover_of_tiled [⟨rOut3, p0⟩] S2000x3.size (by rfl) y

set_option maxHeartbeats 4000000 in
/-- The body on whole staging memrefs: the nine inputs' buffers are returned as found, the result's holds `out3_9`. -/
theorem sound_kernel3 (c : Dev nD) (E : Set ℕ) (i : grid3.Coords)
    (arg1 : Memref sig .tc .vmem S2000x128 .f32) (harg1 : arg1.IsWhole)
    (arg2 : Memref sig .tc .vmem S128x3 .f32) (harg2 : arg2.IsWhole)
    (arg3 : Memref sig .tc .vmem S3 .f32) (harg3 : arg3.IsWhole)
    (arg4 : Memref sig .tc .vmem S2x128 .f32) (harg4 : arg4.IsWhole)
    (arg5 : Memref sig .tc .vmem S128 .f32) (harg5 : arg5.IsWhole)
    (arg6 : Memref sig .tc .vmem S128x128 .f32) (harg6 : arg6.IsWhole)
    (arg7 : Memref sig .tc .vmem S128 .f32) (harg7 : arg7.IsWhole)
    (arg8 : Memref sig .tc .vmem S128x1 .f32) (harg8 : arg8.IsWhole)
    (arg9 : Memref sig .tc .vmem S1 .f32) (harg9 : arg9.IsWhole)
    (arg10 : Memref sig .tc .vmem S2000x3 .f32) (harg10 : arg10.IsWhole)
    (x0 : Vec F S2000x128 .f32) (x1 : Vec F S128x3 .f32) (x2 : Vec F S3 .f32) (x3 : Vec F S2x128 .f32) (x4 : Vec F S128 .f32) (x5 : Vec F S128x128 .f32) (x6 : Vec F S128 .f32) (x7 : Vec F S128x1 .f32) (x8 : Vec F S1 .f32)
    (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out3_9 x0 x1 x2 x3 x4 x5 x6 x7 x8)) -∗ K ⟨⟩))
      ⊢ wp frame (wpE (defs₀ (F := F)) Variants.none c none) E (cc3__head_kernel i arg1 harg1 arg2 harg2 arg3 harg3 arg4 harg4 arg5 harg5 arg6 harg6 arg7 harg7 arg8 harg8 arg9 harg9 arg10 harg10) K := by
  simp only [cc3__head_kernel_eq_skeleton]; unfold cc3__head_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  iexists _; isplitr
  swap; · iexact H9
  ipureintro
  exact View.read_writes_eq_canon _ _ _ (cover3_9 (F := F) _)

/-- The pipeline's proof data for this region on core `c`: the arrays as found; after the body at point `t` each
    input's buffer still at its block, the result's at `out3_9` of the nine blocks; the invariant the scoped
    buffers no window stages and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) :
    (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- An input window's staging buffer holds its block at every point, whether the pipeline fetched it there or the
    block index had not moved since the last fetch. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)

/-- What the pipeline hands the body at point `t`, the ten windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it asks back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on the body, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.HandKernelIdeal.Pool.lean ====
/-
  The mean pool over graph ids as the pipeline runs it: 50 grid points, point t taking rows 2000 t … 2000 t + 1999
  of the per-node outputs (2000 × 3) and of the graph ids (2000 × 1), and adding into a 64 × 4 accumulator — a scoped
  buffer of the call's own, carried from point to point — the product of the one-hot matrix of the ids (2000 × 64,
  transposed) with the block extended by a column of ones: columns 0 … 2 collect each graph's sums, column 3 its
  node count.  The first point zeroes the accumulator before adding; the last point, after adding, divides the sums
  by the counts (at least one) and stores the 64 × 3 quotient into the result's buffer, which the pipeline writes
  back there and only there; at every other point the body leaves the result's buffer as it found it.
  Stated at an arbitrary valuation `V` of the core's buffers on entry: the accumulator's contents after each point
  (a recursion over the points), what the last point stores, the invariant that names the accumulator from the
  second point on, and from these the obligation the pipeline asks of the body at every grid point — by cases on
  the point: the first, the last, and the points between.
-/
import proofs.«418012_j44109314130143_1_alg».proof.Proof.Gen.KernelIdeal.Launch
import proofs.«418012_j44109314130143_1_alg».proof.Proof.Gen.KernelIdeal.Skeleton
import proofs.«418012_j44109314130143_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first branch's condition (the point is the first of the grid), from the grid coordinate as the body computes it. -/
abbrev cond4_0 (i : grid4.Coords) : Prop :=
  (Scalar.cmpi .ne (Scalar.extui (Scalar.cmpi .eq (BitVec.ofNat 32 (i 0).val) 0#32)) 0#32) = 1#1
/-- The second branch's condition (the point is the last of the grid). -/
abbrev cond4_1 (i : grid4.Coords) : Prop := k4_cond2 i = 1#1

/-- The rectangles the body loads and stores through: the accumulator whole, the two input blocks whole, the result
    block whole, and the accumulator's first three columns (the sums) and its fourth (the counts). -/
abbrev rAcc4 : Rect S64x4 := Rect.unit (s := S64x4) ![0, 0] S64x4.size inb_S64x4_S64x4_0_0
abbrev rIds4 : Rect S2000x1 := Rect.unit (s := S2000x1) ![0, 0] S2000x1.size inb_S2000x1_S2000x1_0_0
abbrev rFeat4 : Rect S2000x3 := Rect.unit (s := S2000x3) ![0, 0] S2000x3.size inb_S2000x3_S2000x3_0_0
abbrev rOut4 : Rect S64x3 := Rect.unit (s := S64x3) ![0, 0] S64x3.size inb_S64x3_S64x3_0_0
abbrev rSum4 : Rect S64x4 := Rect.unit (s := S64x4) ![0, 0] S64x3.size inb_S64x4_S64x3_0_0
abbrev rCnt4 : Rect S64x4 := Rect.unit (s := S64x4) ![0, 3] S64x1.size inb_S64x4_S64x1_0_3

/-- The accumulator after the first point's zeroing store. -/
def zero4 : Vec F S64x4 .f32 := View.canon [⟨rAcc4, k4_pay1 (F := F)⟩]

/-- One point's accumulating store: the accumulator `a` plus the one-hot product of the graph-id block and the feature
    block (with its column of ones). -/
def step4 (a : Vec F S64x4 .f32) (ids : Vec F S2000x1 .i32) (feats : Vec F S2000x3 .f32) : Vec F S64x4 .f32 :=
  View.canon [⟨rAcc4, k4_pay2 (View.ld ids rIds4) (View.ld feats rFeat4) (View.ld a rAcc4)⟩]

/-- What the last point stores into the result's buffer from the final accumulator: the sums over the counts
    (at least one). -/
def out4_2 (a : Vec F S64x4 .f32) : Vec F S64x3 .f32 :=
  View.canon [⟨rOut4, k4_pay3 (View.ld a rSum4) (View.ld a rCnt4)⟩]

/-- A store through the whole accumulator covers it, whatever was stored before; -/
theorem coverAcc4 (p0 : Vec F S64x4 .f32) (L : List (View.Piece (Elt F) S64x4 .f32)) (y : S64x4.Idx) :
    ∃ pc ∈ ((⟨rAcc4, p0⟩ :: L : List (View.Piece (Elt F) S64x4 .f32))), y ∈ pc.1.set := by
  obtain ⟨pc, hm, hy⟩ := View.cover_of_tiled [(⟨rAcc4, p0⟩ : View.Piece (Elt F) S64x4 .f32)] S64x4.size (by rfl) y
  exact ⟨pc, List.mem_cons.mpr (.inl (List.mem_singleton.mp hm)), hy⟩

/-- and what it leaves does not depend on the earlier stores: its payload either way. -/
theorem canon_acc4_cons (w : Vec F S64x4 .f32) (L : List (View.Piece (Elt F) S64x4 .f32)) :
    View.canon ((⟨rAcc4, w⟩ : View.Piece (Elt F) S64x4 .f32) :: L) = View.canon [(⟨rAcc4, w⟩ : View.Piece (Elt F) S64x4 .f32)] := by
  have hz : (![0, 0] : Fin S64x4.rank → Nat) = fun _ => 0 := funext fun a => by fin_cases a <;> rfl
  exact (View.canon_cons_unit_zero hz _ w L).trans (View.canon_unit_zero hz _ w).symm

/-- The single store through the whole result block covers it. -/
theorem coverOut4 (p0 : Vec F S64x3 .f32) (y : S64x3.Idx) :
    ∃ pc ∈ ([⟨rOut4, p0⟩] : List (View.Piece (Elt F) S64x3 .f32)), y ∈ pc.1.set :=
  View.cover_of_tiled [⟨rOut4, p0⟩] S64x3.size (by rfl) y

/-- The first branch is taken at the first point only, the second at the last only: decided over the grid. -/
theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ t.val = 49 :=
  (by decide +kernel : ∀ t : Fin grid4.N, cond4_1 (grid4.coords t) ↔ t.val = 49)

/-- The inputs are never idle; the result's window is idle at every point but the last, and is not written back there. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem idleAt4_2 : ∀ t : Fin cfg4.N, t.val ≠ 49 → cfg4.idle 2 (grid4.coords t) = true :=
  (by decide +kernel : ∀ t : Fin grid4.N, t.val ≠ 49 → idle4 2 (grid4.coords t) = true)
theorem liveAt4_2 : ∀ t : Fin cfg4.N, t.val = 49 → cfg4.idle 2 (grid4.coords t) = false :=
  (by decide +kernel : ∀ t : Fin grid4.N, t.val = 49 → idle4 2 (grid4.coords t) = false)
theorem noFlush4_2 : ∀ t : Fin cfg4.N, t.val ≠ 49 → (cfg4.win 2).flush t = false :=
  (by decide +kernel : ∀ t : Fin grid4.N, t.val ≠ 49 → win4_2.flush t = false)

theorem N4_pos : 0 < cfg4.N := by rw [show cfg4.N = 50 from N_4]; omega

/-- Window `w`'s block at grid point `t`: the rows of its array (as the region finds it) that the point works on. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The feature block and the graph-id block of point `n` (past the grid, the first point's: never read). -/
def feats4 (c : Dev nD) (n : ℕ) : Vec F S2000x3 .f32 :=
  if h : n < cfg4.N then iblk4 V c 0 ⟨n, h⟩ else iblk4 V c 0 ⟨0, N4_pos⟩
def ids4 (c : Dev nD) (n : ℕ) : Vec F S2000x1 .i32 :=
  if h : n < cfg4.N then iblk4 V c 1 ⟨n, h⟩ else iblk4 V c 1 ⟨0, N4_pos⟩

theorem feats4_at (c : Dev nD) (t : Fin cfg4.N) : feats4 V c t.val = iblk4 V c 0 t := by
  unfold feats4; rw [dif_pos t.isLt]
theorem ids4_at (c : Dev nD) (t : Fin cfg4.N) : ids4 V c t.val = iblk4 V c 1 t := by
  unfold ids4; rw [dif_pos t.isLt]

/-- THE ACCUMULATION: the accumulator's contents after point `n` — the first point's product added to zeros, each later
    point's added to what the point before left. -/
def acc4 (c : Dev nD) : ℕ → Vec F S64x4 .f32
  | 0 => step4 (zero4 (F := F)) (ids4 V c 0) (feats4 V c 0)
  | n + 1 => step4 (acc4 c n) (ids4 V c (n + 1)) (feats4 V c (n + 1))

theorem acc4_first (c : Dev nD) (t : Fin cfg4.N) (ht : t.val = 0) :
    acc4 V c t.val = step4 (zero4 (F := F)) (iblk4 V c 1 t) (iblk4 V c 0 t) := by
  rw [← ids4_at, ← feats4_at, ht]; rfl

theorem acc4_next (c : Dev nD) (t : Fin cfg4.N) (ht : t.val ≠ 0) :
    acc4 V c t.val = step4 (acc4 V c (t.val - 1)) (iblk4 V c 1 t) (iblk4 V c 0 t) := by
  obtain ⟨n, hn⟩ := Nat.exists_eq_succ_of_ne_zero ht
  rw [← ids4_at, ← feats4_at, hn]; rfl

/-- The invariant before point `n`: before the first the class's (every scoped buffer that is no staging buffer at
    some contents, the generator register at some state); afterwards the same with the accumulator named: whole, at what
    the point before left in it. -/
def Phi4 (c : Dev nD) : ℕ → sProp 𝕄
  | 0 => Pipeline.ΦA spec4 c
  | n + 1 => iprop(owns (c : Thread nD τ) (Memref.whole cc4_scratch0) fullShare (acc4 V c n)
      ∗ Pipeline.scopedRestBut (Ix := Unit) (Name := ℕ) (U := UR sig nD τ) (Lvl := ℕ) (Val := Elt F) spec4 c [cc4_scratch0]
      ∗ ∃ r, prngReg c r)

theorem Phi4_succ (c : Dev nD) (n : ℕ) :
    Phi4 V c (n + 1) = iprop(owns (c : Thread nD τ) (Memref.whole cc4_scratch0) fullShare (acc4 V c n)
      ∗ Pipeline.scopedRestBut (Ix := Unit) (Name := ℕ) (U := UR sig nD τ) (Lvl := ℕ) (Val := Elt F) spec4 c [cc4_scratch0]
      ∗ ∃ r, prngReg c r) := rfl

theorem Phi4_pos (c : Dev nD) (n : ℕ) (hn : n ≠ 0) :
    Phi4 V c n = iprop(owns (c : Thread nD τ) (Memref.whole cc4_scratch0) fullShare (acc4 V c (n - 1))
      ∗ Pipeline.scopedRestBut (Ix := Unit) (Name := ℕ) (U := UR sig nD τ) (Lvl := ℕ) (Val := Elt F) spec4 c [cc4_scratch0]
      ∗ ∃ r, prngReg c r) := by
  cases n with
  | zero => exact absurd rfl hn
  | succ n => rfl

/-- The class's invariant with the accumulator set apart, owned whole at some contents. -/
theorem PhiA4_eq (c : Dev nD) :
    (Pipeline.ΦA spec4 c : sProp 𝕄)
      = iprop(iprop((∃ d, owns (c : Thread nD τ) (Memref.whole cc4_scratch0) fullShare d)
          ∗ Pipeline.scopedRestBut (Ix := Unit) (Name := ℕ) (U := UR sig nD τ) (Lvl := ℕ) (Val := Elt F) spec4 c [cc4_scratch0])
          ∗ ∃ r, prngReg c r) := by
  unfold Pipeline.ΦA; rw [scopedRest4_split]; simp only [owns_whole]; try rfl

/-- The pipeline's proof data for this region on core `c`: the arrays as found; after the body at point `t` each
    input's buffer still at its block, the result's at the quotient of the accumulator as point `t` leaves it (read at
    the last point only); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (acc4 V c t.val)
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (acc4 V c t.val) := by dsimp only [dat4]

theorem phi4_first (c : Dev nD) : (dat4 V c).Φ 0 = Pipeline.ΦA spec4 c := rfl

theorem Phi4_castSucc (c : Dev nD) (t : Fin cfg4.N) : (dat4 V c).Φ t.castSucc = Phi4 V c t.val := by
  dsimp only [dat4]; simp only [Fin.coe_castSucc]
theorem Phi4_succ_pt (c : Dev nD) (t : Fin cfg4.N) : (dat4 V c).Φ t.succ = Phi4 V c (t.val + 1) := by
  dsimp only [dat4]; simp only [Fin.val_succ]

/-- After the last point the invariant gives the class's back: the accumulator's named contents are forgotten. -/
theorem phi4_last (c : Dev nD) : (dat4 V c).Φ (Fin.last cfg4.N) ⊢ Pipeline.ΦA spec4 c := by
  rw [show (dat4 V c).Φ (Fin.last cfg4.N) = Phi4 V c (49 + 1) from rfl, Phi4_succ, PhiA4_eq]
  iintro ⟨HS, HR, Hg⟩
  isplitl [HS HR]
  · isplitl [HS]
    · iexists _; iexact HS
    iexact HR
  iexact Hg

/-- An input window is fetched at every point: its staging buffer holds its block when the body runs. -/
theorem before4_0 (c : Dev nD) (t : Fin cfg4.N) (d) : (dat4 V c).before 0 t d = iblk4 V c 0 t :=
  ((dat4 V c).before_fetched 0 t (fetch4_0 t) d).trans
    (by unfold Dat.fetched Dat.blockOf iblk4; rw [A_eq4]; try rfl)
theorem before4_1 (c : Dev nD) (t : Fin cfg4.N) (d) : (dat4 V c).before 1 t d = iblk4 V c 1 t :=
  ((dat4 V c).before_fetched 1 t (fetch4_1 t) d).trans
    (by unfold Dat.fetched Dat.blockOf iblk4; rw [A_eq4]; try rfl)

/-- What the obligation asks back of the inputs' buffers: their blocks, untouched. -/
theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]

/-- What the pipeline hands the body at point `t`, the three windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it asks back. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 2000000 in
/-- The body at a point between the first and the last, on whole memrefs: neither branch is taken; the inputs' and
    the result's buffers are returned as found, the accumulator holds one more step. -/
theorem run4_M (c : Dev nD) (E : Set ℕ) (i : grid4.Coords) (hc0 : ¬cond4_0 i) (hc1 : ¬cond4_1 i)
    (arg1 : Memref sig .tc .vmem S2000x3 .f32) (harg1 : arg1.IsWhole) (arg2 : Memref sig .tc .vmem S2000x1 .i32) (harg2 : arg2.IsWhole)
    (arg3 : Memref sig .tc .vmem S64x3 .f32) (harg3 : arg3.IsWhole) (arg4 : Memref sig .tc .vmem S64x4 .f32) (harg4 : arg4.IsWhole)
    (x0 : Vec F S2000x3 .f32) (x1 : Vec F S2000x1 .i32) (x2 : Vec F S64x3 .f32) (a : Vec F S64x4 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare a
        ∗ (iprop(owns (c : Thread nD τ) arg1 fullShare x0 ∗ owns (c : Thread nD τ) arg2 fullShare x1 ∗ owns (c : Thread nD τ) arg3 fullShare x2
            ∗ owns (c : Thread nD τ) arg4 fullShare (step4 a x1 x0)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (coverAcc4 (F := F) _ _)

set_option maxHeartbeats 2000000 in
/-- The body at the first point: the first branch zeroes the accumulator, whatever it held; then one step from zeros. -/
theorem run4_F (c : Dev nD) (E : Set ℕ) (i : grid4.Coords) (hc0 : cond4_0 i) (hc1 : ¬cond4_1 i)
    (arg1 : Memref sig .tc .vmem S2000x3 .f32) (harg1 : arg1.IsWhole) (arg2 : Memref sig .tc .vmem S2000x1 .i32) (harg2 : arg2.IsWhole)
    (arg3 : Memref sig .tc .vmem S64x3 .f32) (harg3 : arg3.IsWhole) (arg4 : Memref sig .tc .vmem S64x4 .f32) (harg4 : arg4.IsWhole)
    (x0 : Vec F S2000x3 .f32) (x1 : Vec F S2000x1 .i32) (x2 : Vec F S64x3 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (step4 (zero4 (F := F)) x1 x0)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  sl_unfold_run_names
  rw [View.readCov_eq_canon_ld _ _ rAcc4 (coverAcc4 (F := F) _ _), View.read_writes_eq_canon _ _ _ (coverAcc4 (F := F) _ _)]
  exact canon_acc4_cons _ _

set_option maxHeartbeats 2000000 in
/-- The body at the last point: one more step, then the second branch reads the sums and the counts back from the
    accumulator and stores their quotient through the whole result block. -/
theorem run4_L (c : Dev nD) (E : Set ℕ) (i : grid4.Coords) (hc0 : ¬cond4_0 i) (hc1 : cond4_1 i)
    (arg1 : Memref sig .tc .vmem S2000x3 .f32) (harg1 : arg1.IsWhole) (arg2 : Memref sig .tc .vmem S2000x1 .i32) (harg2 : arg2.IsWhole)
    (arg3 : Memref sig .tc .vmem S64x3 .f32) (harg3 : arg3.IsWhole) (arg4 : Memref sig .tc .vmem S64x4 .f32) (harg4 : arg4.IsWhole)
    (x0 : Vec F S2000x3 .f32) (x1 : Vec F S2000x1 .i32) (a : Vec F S64x4 .f32)
    (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (out4_2 (step4 a x1 x0))
            ∗ owns (c : Thread nD τ) arg4 fullShare (step4 a x1 x0)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]
  · iexists _; isplitr
    swap; · iexact H2
    ipureintro
    sl_unfold_run_names
    rw [View.readCov_eq_canon_ld _ _ rSum4 (coverAcc4 (F := F) _ _), View.readCov_eq_canon_ld _ _ rCnt4 (coverAcc4 (F := F) _ _)]
    exact View.read_writes_eq_canon _ _ _ (coverOut4 (F := F) _)
  iexists _; isplitr
  swap; · iexact H3
  ipureintro
  sl_unfold_run_names
  exact View.read_writes_eq_canon _ _ _ (coverAcc4 (F := F) _ _)

set_option maxHeartbeats 1000000 in
/-- The obligation at the first point: the class's invariant hands the accumulator over at unknown contents, the
    body zeroes it and adds the first product; the result's buffer goes back as found. -/
theorem sound_body4_first (c : Dev nD) (t : Fin cfg4.N) (ht : t.val = 0) :
    bodyPre4 V c t ⊢ wp frame (wpE (defs₀ (F := F)) Variants.none c none) Set.univ (bodyAt4 t) (fun _ => bodyPost4 V c t) := by
  have h49 : t.val ≠ 49 := by omega
  unfold bodyPre4 bodyPost4 bodyAt4
  simp only [before4_0, before4_1]
  rw [show (dat4 V c).owesAt () t.succ = (dat4 V c).owesAt () t.castSucc from rfl,
    Phi4_castSucc, Phi4_succ_pt, Phi4_succ, leaves4_0, leaves4_1,
    Dat.leavesExact_idle (dat4 V c) 2 t (idleAt4_2 t h49) (noFlush4_2 t h49),
    acc4_first V c t ht, ht, show Phi4 V c 0 = Pipeline.ΦA spec4 c from rfl, PhiA4_eq]
  iintro ⟨⟨⟨HS, HR⟩, Hg⟩, Ho, ⟨%d0, H0⟩, ⟨%d1, H1⟩, ⟨%d2, H2⟩⟩
  iapply (run4_F c Set.univ (grid4.coords t) ((hcond4_0 t).mpr ht) (fun h => h49 ((hcond4_1 t).mp h))
    _ _ _ _ _ _ _ _ (iblk4 V c 0 t) (iblk4 V c 1 t) ((dat4 V c).before 2 t d2) _)
  isplitl [H0]; · iexact H0
  isplitl [H1]; · iexact H1
  isplitl [H2]; · iexact H2
  isplitl [HS]; · iexact HS
  iintro ⟨H0, H1, H2, HS⟩
  isplitl [HS HR Hg]
  · isplitl [HS]; · iexact HS
    isplitl [HR]; · iexact HR
    iexact Hg
  isplitl [Ho]; · iexact Ho
  isplitl [H0]; · iexact H0
  isplitl [H1]; · iexact H1
  iexists d2; iexact H2

set_option maxHeartbeats 1000000 in
/-- The obligation at a point between: the invariant hands the accumulator over at what the point before left and
    takes it back one step on; the result's buffer goes back as found. -/
theorem sound_body4_mid (c : Dev nD) (t : Fin cfg4.N) (h0 : t.val ≠ 0) (h49 : t.val ≠ 49) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    Phi4_castSucc, Phi4_succ_pt, Phi4_succ, leaves4_0, leaves4_1,
    Dat.leavesExact_idle (dat4 V c) 2 t (idleAt4_2 t h49) (noFlush4_2 t h49),
    acc4_next V c t h0, Phi4_pos V c t.val h0]
  iintro ⟨⟨HS, HR, Hg⟩, Ho, ⟨%d0, H0⟩, ⟨%d1, H1⟩, ⟨%d2, H2⟩⟩
  iapply (run4_M c Set.univ (grid4.coords t) (fun h => h0 ((hcond4_0 t).mp h)) (fun h => h49 ((hcond4_1 t).mp h))
    _ _ _ _ _ _ _ _ (iblk4 V c 0 t) (iblk4 V c 1 t) ((dat4 V c).before 2 t d2) (acc4 V c (t.val - 1)) _)
  isplitl [H0]; · iexact H0
  isplitl [H1]; · iexact H1
  isplitl [H2]; · iexact H2
  isplitl [HS]; · iexact HS
  iintro ⟨H0, H1, H2, HS⟩
  isplitl [HS HR Hg]
  · isplitl [HS]; · iexact HS
    isplitl [HR]; · iexact HR
    iexact Hg
  isplitl [Ho]; · iexact Ho
  isplitl [H0]; · iexact H0
  isplitl [H1]; · iexact H1
  iexists d2; iexact H2

set_option maxHeartbeats 1000000 in
/-- The obligation at the last point: one more step, and the result's buffer is left at the quotient of the final
    accumulator — what the pipeline writes back. -/
theorem sound_body4_last (c : Dev nD) (t : Fin cfg4.N) (ht : t.val = 49) :
    bodyPre4 V c t ⊢ wp frame (wpE (defs₀ (F := F)) Variants.none c none) Set.univ (bodyAt4 t) (fun _ => bodyPost4 V c t) := by
  have h0 : t.val ≠ 0 := by omega
  unfold bodyPre4 bodyPost4 bodyAt4
  simp only [before4_0, before4_1]
  rw [show (dat4 V c).owesAt () t.succ = (dat4 V c).owesAt () t.castSucc from rfl,
    Phi4_castSucc, Phi4_succ_pt, Phi4_succ, leaves4_0, leaves4_1,
    show (dat4 V c).leavesExact 2 t = owns (c : Thread nD τ) (st4_2 t) fullShare ((dat4 V c).after 2 t) from by
      unfold Dat.leavesExact; rw [liveAt4_2 t ht],
    after4_2, acc4_next V c t h0, Phi4_pos V c t.val h0]
  iintro ⟨⟨HS, HR, Hg⟩, Ho, ⟨%d0, H0⟩, ⟨%d1, H1⟩, ⟨%d2, H2⟩⟩
  iapply (run4_L c Set.univ (grid4.coords t) (fun h => h0 ((hcond4_0 t).mp h)) ((hcond4_1 t).mpr ht)
    _ _ _ _ _ _ _ _ (iblk4 V c 0 t) (iblk4 V c 1 t) (acc4 V c (t.val - 1)) _)
  isplitl [H0]; · iexact H0
  isplitl [H1]; · iexact H1
  isplitl [H2]; · iexists _; iexact H2
  isplitl [HS]; · iexact HS
  iintro ⟨H0, H1, H2, HS⟩
  isplitl [HS HR Hg]
  · isplitl [HS]; · iexact HS
    isplitl [HR]; · iexact HR
    iexact Hg
  isplitl [Ho]; · iexact Ho
  isplitl [H0]; · iexact H0
  isplitl [H1]; · iexact H1
  iexact H2

/-- The body at any point, by the point's place in the grid. -/
theorem sound_body4 (c : Dev nD) (t : Fin cfg4.N) :
    bodyPre4 V c t ⊢ wp frame (wpE (defs₀ (F := F)) Variants.none c none) Set.univ (bodyAt4 t) (fun _ => bodyPost4 V c t) := by
  by_cases h0 : t.val = 0
  · exact sound_body4_first V c t h0
  · by_cases h49 : t.val = 49
    · exact sound_body4_last V c t h49
    · exact sound_body4_mid V c t h0 h49

/-- The pipeline's obligation on the body, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.HandKernelIdeal.Run.lean ====
/-
  The whole program as the launch runs it: @main is twelve items — host stretches and the five kernel regions —
  and between two items every unscoped buffer of the core holds a definite array.  Those arrays are named here one
  after the other (each region's result is what its write-backs leave, `Dat.arrAt` at the last grid point, of the
  arrays the region found), each region is given its record over them, and the launch theorem then says that every
  weakly fair execution ends, with every unscoped buffer at the last of these valuations.  The three SAGE regions
  and the head region share one kind of record; the pooling region differs only in its invariant, which names the
  scratch accumulator from the second grid point on.
-/
import proofs.«418012_j44109314130143_1_alg».proof.Proof.Gen.KernelIdeal.Regions
import proofs.«418012_j44109314130143_1_alg».proof.Proof.HandKernelIdeal.Sage0
import proofs.«418012_j44109314130143_1_alg».proof.Proof.HandKernelIdeal.Sage1
import proofs.«418012_j44109314130143_1_alg».proof.Proof.HandKernelIdeal.Sage2
import proofs.«418012_j44109314130143_1_alg».proof.Proof.HandKernelIdeal.Head
import proofs.«418012_j44109314130143_1_alg».proof.Proof.HandKernelIdeal.Pool
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, named one after the other -/

/-- A table of region results with one more entry. -/
def setOut (o : Outs (F := F)) (J : ℕ) (r₀ : Ref sig .tc) (v : (c : Dev nD) → Buf (Elt F) ((c : Thread nD τ).loc r₀)) : Outs (F := F) :=
  fun J' r c => if J' = J then Function.update (fun r => o J' r c) r₀ (v c) r else o J' r c

theorem setOut_self (o : Outs (F := F)) (J : ℕ) (r₀ : Ref sig .tc) (v) (c : Dev nD) : setOut o J r₀ v J r₀ c = v c := by
  unfold setOut; rw [if_pos rfl]; exact Function.update_self ..
theorem setOut_other (o : Outs (F := F)) (J : ℕ) (r₀ : Ref sig .tc) (v) {J' : ℕ} (h : J' ≠ J) (r : Ref sig .tc) (c : Dev nD) :
    setOut o J r₀ v J' r c = o J' r c := by
  unfold setOut; rw [if_neg h]

/-- The empty table. -/
def outs0 : Outs (F := F) := fun _ _ _ => fun _ => Classical.arbitrary _

abbrev En0 : (c : Dev nD) → (b : Ref sig .tc) → Buf (Elt F) ((c : Thread nD τ).loc b) := fun c b => V3 m c b
/-- The first layer's result. -/
def o4 (c : Dev nD) : Buf (Elt F) ((c : Thread nD τ).loc main_v18) := (dat0 (En0 m) c).arrAt 5 cfg0.N
theorem o4_def (c : Dev nD) : o4 m c = (dat0 (En0 m) c).arrAt 5 cfg0.N := rfl
def outs1 : Outs (F := F) := setOut outs0 4 main_v18 (o4 m)

abbrev En1 : (c : Dev nD) → (b : Ref sig .tc) → Buf (Elt F) ((c : Thread nD τ).loc b) := fun c b => V6 m (outs1 m) c b
/-- The second layer's result. -/
def o7 (c : Dev nD) : Buf (Elt F) ((c : Thread nD τ).loc main_v32) := (dat1 (En1 m) c).arrAt 5 cfg1.N
theorem o7_def (c : Dev nD) : o7 m c = (dat1 (En1 m) c).arrAt 5 cfg1.N := rfl
def outs2 : Outs (F := F) := setOut (outs1 m) 7 main_v32 (o7 m)

abbrev En2 : (c : Dev nD) → (b : Ref sig .tc) → Buf (Elt F) ((c : Thread nD τ).loc b) := fun c b => V9 m (outs2 m) c b
/-- The third layer's result. -/
def o10 (c : Dev nD) : Buf (Elt F) ((c : Thread nD τ).loc main_v46) := (dat2 (En2 m) c).arrAt 5 cfg2.N
theorem o10_def (c : Dev nD) : o10 m c = (dat2 (En2 m) c).arrAt 5 cfg2.N := rfl
def outs3 : Outs (F := F) := setOut (outs2 m) 10 main_v46 (o10 m)

abbrev En3 : (c : Dev nD) → (b : Ref sig .tc) → Buf (Elt F) ((c : Thread nD τ).loc b) := fun c b => V10 m (outs3 m) c b
/-- The head's result. -/
def o11 (c : Dev nD) : Buf (Elt F) ((c : Thread nD τ).loc main_v47) := (dat3 (En3 m) c).arrAt 9 cfg3.N
theorem o11_def (c : Dev nD) : o11 m c = (dat3 (En3 m) c).arrAt 9 cfg3.N := rfl
def outs4 : Outs (F := F) := setOut (outs3 m) 11 main_v47 (o11 m)

abbrev En4 : (c : Dev nD) → (b : Ref sig .tc) → Buf (Elt F) ((c : Thread nD τ).loc b) := fun c b => V11 m (outs4 m) c b
/-- The pooled result. -/
def o12 (c : Dev nD) : Buf (Elt F) ((c : Thread nD τ).loc main_v48) := (dat4 (En4 m) c).arrAt 2 cfg4.N
theorem o12_def (c : Dev nD) : o12 m c = (dat4 (En4 m) c).arrAt 2 cfg4.N := rfl
/-- The full table. -/
def outs : Outs (F := F) := setOut (outs4 m) 12 main_v48 (o12 m)

/-! ### The table's entries, at every stage -/

theorem at1_4 (c : Dev nD) : outs1 m 4 main_v18 c = o4 m c := setOut_self ..
theorem at2_4 (c : Dev nD) : outs2 m 4 main_v18 c = o4 m c := (setOut_other _ _ _ _ (by decide) _ _).trans (at1_4 m c)
theorem at2_7 (c : Dev nD) : outs2 m 7 main_v32 c = o7 m c := setOut_self ..
theorem at3_4 (c : Dev nD) : outs3 m 4 main_v18 c = o4 m c := (setOut_other _ _ _ _ (by decide) _ _).trans (at2_4 m c)
theorem at3_7 (c : Dev nD) : outs3 m 7 main_v32 c = o7 m c := (setOut_other _ _ _ _ (by decide) _ _).trans (at2_7 m c)
theorem at3_10 (c : Dev nD) : outs3 m 10 main_v46 c = o10 m c := setOut_self ..
theorem at4_4 (c : Dev nD) : outs4 m 4 main_v18 c = o4 m c := (setOut_other _ _ _ _ (by decide) _ _).trans (at3_4 m c)
theorem at4_7 (c : Dev nD) : outs4 m 7 main_v32 c = o7 m c := (setOut_other _ _ _ _ (by decide) _ _).trans (at3_7 m c)
theorem at4_10 (c : Dev nD) : outs4 m 10 main_v46 c = o10 m c := (setOut_other _ _ _ _ (by decide) _ _).trans (at3_10 m c)
theorem at4_11 (c : Dev nD) : outs4 m 11 main_v47 c = o11 m c := setOut_self ..
theorem at_4 (c : Dev nD) : outs m 4 main_v18 c = o4 m c := (setOut_other _ _ _ _ (by decide) _ _).trans (at4_4 m c)
theorem at_7 (c : Dev nD) : outs m 7 main_v32 c = o7 m c := (setOut_other _ _ _ _ (by decide) _ _).trans (at4_7 m c)
theorem at_10 (c : Dev nD) : outs m 10 main_v46 c = o10 m c := (setOut_other _ _ _ _ (by decide) _ _).trans (at4_10 m c)
theorem at_11 (c : Dev nD) : outs m 11 main_v47 c = o11 m c := (setOut_other _ _ _ _ (by decide) _ _).trans (at4_11 m c)
theorem at_12 (c : Dev nD) : outs m 12 main_v48 c = o12 m c := setOut_self ..

/-! ### A valuation depends on the table only through the entries it reads -/

section Congr
variable {o o' : Outs (F := F)} (c : Dev nD)
theorem V4_congr (h4 : o 4 main_v18 c = o' 4 main_v18 c) : V4 m o c = V4 m o' c := by
  unfold V4; rw [h4]
theorem V6_congr (h4 : o 4 main_v18 c = o' 4 main_v18 c) : V6 m o c = V6 m o' c := by
  unfold V6 V5; rw [V4_congr m c h4]
theorem V7_congr (h4 : o 4 main_v18 c = o' 4 main_v18 c) (h7 : o 7 main_v32 c = o' 7 main_v32 c) : V7 m o c = V7 m o' c := by
  unfold V7; rw [V6_congr m c h4, h7]
theorem V9_congr (h4 : o 4 main_v18 c = o' 4 main_v18 c) (h7 : o 7 main_v32 c = o' 7 main_v32 c) : V9 m o c = V9 m o' c := by
  unfold V9 V8; rw [V7_congr m c h4 h7]
end Congr

theorem e4 (c : Dev nD) : V4 m (outs1 m) c = V4 m (outs m) c := V4_congr m c ((at1_4 m c).trans (at_4 m c).symm)
theorem e6 (c : Dev nD) : V6 m (outs1 m) c = V6 m (outs m) c := V6_congr m c ((at1_4 m c).trans (at_4 m c).symm)
theorem e7 (c : Dev nD) : V7 m (outs2 m) c = V7 m (outs m) c :=
  V7_congr m c ((at2_4 m c).trans (at_4 m c).symm) ((at2_7 m c).trans (at_7 m c).symm)
theorem e9 (c : Dev nD) : V9 m (outs2 m) c = V9 m (outs m) c :=
  V9_congr m c ((at2_4 m c).trans (at_4 m c).symm) ((at2_7 m c).trans (at_7 m c).symm)
theorem e10 (c : Dev nD) : V10 m (outs3 m) c = V10 m (outs m) c := by
  unfold V10
  rw [V9_congr m c ((at3_4 m c).trans (at_4 m c).symm) ((at3_7 m c).trans (at_7 m c).symm), at3_10, at_10]
theorem e11 (c : Dev nD) : V11 m (outs4 m) c = V11 m (outs m) c := by
  unfold V11 V10
  rw [V9_congr m c ((at4_4 m c).trans (at_4 m c).symm) ((at4_7 m c).trans (at_7 m c).symm), at4_10, at_10, at4_11, at_11]
theorem e10' (c : Dev nD) : V10 m (outs3 m) c = V10 m (outs4 m) c := by
  unfold V10
  rw [V9_congr m c ((at3_4 m c).trans (at4_4 m c).symm) ((at3_7 m c).trans (at4_7 m c).symm), at3_10, at4_10]

/-- The valuation a region is entered from, read over the next stage's table. -/
theorem i0 (c : Dev nD) : V3 m c = V3 m c := rfl
theorem i1 (c : Dev nD) : V6 m (outs2 m) c = V6 m (outs1 m) c := V6_congr m c ((at2_4 m c).trans (at1_4 m c).symm)
theorem i2 (c : Dev nD) : V9 m (outs3 m) c = V9 m (outs2 m) c :=
  V9_congr m c ((at3_4 m c).trans (at2_4 m c).symm) ((at3_7 m c).trans (at2_7 m c).symm)
theorem i3 (c : Dev nD) : V10 m (outs4 m) c = V10 m (outs3 m) c := (e10' m c).symm
theorem i4 (c : Dev nD) : V11 m (outs m) c = V11 m (outs4 m) c := (e11 m c).symm

/-- Each region's result array, right after the region, is the named result. -/
theorem Vout0_self (c : Dev nD) : V4 m (outs1 m) c main_v18 = o4 m c := (Function.update_self ..).trans (at1_4 m c)
theorem Vout1_self (c : Dev nD) : V7 m (outs2 m) c main_v32 = o7 m c := (Function.update_self ..).trans (at2_7 m c)
theorem Vout2_self (c : Dev nD) : V10 m (outs3 m) c main_v46 = o10 m c := (Function.update_self ..).trans (at3_10 m c)
theorem Vout3_self (c : Dev nD) : V11 m (outs4 m) c main_v47 = o11 m c := (Function.update_self ..).trans (at4_11 m c)
theorem Vout4_self (c : Dev nD) : V12 m (outs m) c main_v48 = o12 m c := (Function.update_self ..).trans (at_12 m c)

/-! ## The proof data of the five pipelines, and what rides beside the buffers -/

/-- Every pipeline's proof data, each at the valuation its region is entered from. -/
def pdats : (p : Fin 5) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state, and the core owing nothing. -/
abbrev R (c : Dev nD) : sProp 𝕄 := iprop((∃ r, prngReg c r) ∗ ∃ W, owes (c : Thread nD τ) (0 : CellTallies nD τ sig Unit) W)
/-- The last thread state, the `owes` apart. -/
abbrev Tₙ (c : Dev nD) : sProp 𝕄 := iprop(StableHlo.held (c : Thread nD τ) (Pipeline.ucRefs τ sig) (V12 m (outs m) c) ∗ ∃ r, prngReg c r)

/-! ## Region 0 -/

/-- At this region's exit each of its arrays holds what the pipeline leaves: an input as found, the result what the
    write-backs made of it. -/
theorem hin0 : ∀ w : Fin cfg0.W, w ≠ 5 → (cfg0.win w).isOut = false := by decide
theorem hne0 : ∀ w : Fin cfg0.W, w ≠ 5 → Pipeline.arrRef spec0 w ∉ ([main_v18] : List (Ref sig .tc)) := by decide
theorem hF0 (c : Dev nD) (w : Fin cfg0.W) :
    (dat0 (En0 m) c).arrAt w cfg0.N = (fun b : Ref sig .tc => V4 m (outs1 m) c b) (Pipeline.arrRef spec0 w) := by
  show (dat0 (En0 m) c).arrAt w cfg0.N = V4 m (outs1 m) c (Pipeline.arrRef spec0 w)
  by_cases hw : w = 5
  · subst hw
    show (dat0 (En0 m) c).arrAt 5 cfg0.N = V4 m (outs1 m) c main_v18
    rw [Vout0_self, o4_def]
  · rw [(dat0 (En0 m) c).arrAt_in w (hin0 w hw), A_eq0]
    exact (congrFun (i0 m c) _).symm.trans (V4_of m (outs1 m) c _ (hne0 w hw)).symm

/-- and every other buffer what it held at entry. -/
theorem hrest0 (c : Dev nD) : ∀ b : Ref sig .tc, b ∉ Finset.univ.image (Pipeline.arrRef spec0) → V4 m (outs1 m) c b = V3 m c b :=
  fun b hb => (V4_of m (outs1 m) c b fun h => hb (by
    rw [List.mem_singleton] at h; subst h
    exact Finset.mem_image.mpr ⟨5, Finset.mem_univ _, rfl⟩)).trans (congrFun (i0 m c) _)

set_option backward.isDefEq.respectTransparency.types false in
/-- Region 0 over the thread state "every unscoped buffer at its valuation, the generator register, nothing owed":
    its arrays are taken out of the buffers on entry and put back at their final contents on exit; the generator
    register goes into the body's invariant and comes back; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs1 m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (fun b : Ref sig .tc => V4 m (outs1 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At this region's exit each of its arrays holds what the pipeline leaves: an input as found, the result what the
    write-backs made of it. -/
theorem hin1 : ∀ w : Fin cfg1.W, w ≠ 5 → (cfg1.win w).isOut = false := by decide
theorem hne1 : ∀ w : Fin cfg1.W, w ≠ 5 → Pipeline.arrRef spec1 w ∉ ([main_v32] : List (Ref sig .tc)) := by decide
theorem hF1 (c : Dev nD) (w : Fin cfg1.W) :
    (dat1 (En1 m) c).arrAt w cfg1.N = (fun b : Ref sig .tc => V7 m (outs2 m) c b) (Pipeline.arrRef spec1 w) := by
  show (dat1 (En1 m) c).arrAt w cfg1.N = V7 m (outs2 m) c (Pipeline.arrRef spec1 w)
  by_cases hw : w = 5
  · subst hw
    show (dat1 (En1 m) c).arrAt 5 cfg1.N = V7 m (outs2 m) c main_v32
    rw [Vout1_self, o7_def]
  · rw [(dat1 (En1 m) c).arrAt_in w (hin1 w hw), A_eq1]
    exact (congrFun (i1 m c) _).symm.trans (V7_of m (outs2 m) c _ (hne1 w hw)).symm

/-- and every other buffer what it held at entry. -/
theorem hrest1 (c : Dev nD) : ∀ b : Ref sig .tc, b ∉ Finset.univ.image (Pipeline.arrRef spec1) → V7 m (outs2 m) c b = V6 m (outs1 m) c b :=
  fun b hb => (V7_of m (outs2 m) c b fun h => hb (by
    rw [List.mem_singleton] at h; subst h
    exact Finset.mem_image.mpr ⟨5, Finset.mem_univ _, rfl⟩)).trans (congrFun (i1 m c) _)

set_option backward.isDefEq.respectTransparency.types false in
/-- Region 1 over the thread state "every unscoped buffer at its valuation, the generator register, nothing owed":
    its arrays are taken out of the buffers on entry and put back at their final contents on exit; the generator
    register goes into the body's invariant and comes back; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L lv 1 fun _ _ => rfl
  pre c := iprop(StableHlo.held (c : Thread nD τ) (Pipeline.ucRefs τ sig) (V6 m (outs1 m) c) ∗ R c)
  post c := iprop(StableHlo.held (c : Thread nD τ) (Pipeline.ucRefs τ sig) (V7 m (outs2 m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (fun b : Ref sig .tc => V7 m (outs2 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At this region's exit each of its arrays holds what the pipeline leaves: an input as found, the result what the
    write-backs made of it. -/
theorem hin2 : ∀ w : Fin cfg2.W, w ≠ 5 → (cfg2.win w).isOut = false := by decide
theorem hne2 : ∀ w : Fin cfg2.W, w ≠ 5 → Pipeline.arrRef spec2 w ∉ ([main_v46] : List (Ref sig .tc)) := by decide
theorem hF2 (c : Dev nD) (w : Fin cfg2.W) :
    (dat2 (En2 m) c).arrAt w cfg2.N = (fun b : Ref sig .tc => V10 m (outs3 m) c b) (Pipeline.arrRef spec2 w) := by
  show (dat2 (En2 m) c).arrAt w cfg2.N = V10 m (outs3 m) c (Pipeline.arrRef spec2 w)
  by_cases hw : w = 5
  · subst hw
    show (dat2 (En2 m) c).arrAt 5 cfg2.N = V10 m (outs3 m) c main_v46
    rw [Vout2_self, o10_def]
  · rw [(dat2 (En2 m) c).arrAt_in w (hin2 w hw), A_eq2]
    exact (congrFun (i2 m c) _).symm.trans (V10_of m (outs3 m) c _ (hne2 w hw)).symm

/-- and every other buffer what it held at entry. -/
theorem hrest2 (c : Dev nD) : ∀ b : Ref sig .tc, b ∉ Finset.univ.image (Pipeline.arrRef spec2) → V10 m (outs3 m) c b = V9 m (outs2 m) c b :=
  fun b hb => (V10_of m (outs3 m) c b fun h => hb (by
    rw [List.mem_singleton] at h; subst h
    exact Finset.mem_image.mpr ⟨5, Finset.mem_univ _, rfl⟩)).trans (congrFun (i2 m c) _)

set_option backward.isDefEq.respectTransparency.types false in
/-- Region 2 over the thread state "every unscoped buffer at its valuation, the generator register, nothing owed":
    its arrays are taken out of the buffers on entry and put back at their final contents on exit; the generator
    register goes into the body's invariant and comes back; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L lv 2 fun _ _ => rfl
  pre c := iprop(StableHlo.held (c : Thread nD τ) (Pipeline.ucRefs τ sig) (V9 m (outs2 m) c) ∗ R c)
  post c := iprop(StableHlo.held (c : Thread nD τ) (Pipeline.ucRefs τ sig) (V10 m (outs3 m) c) ∗ R c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (fun b : Ref sig .tc => V10 m (outs3 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- At this region's exit each of its arrays holds what the pipeline leaves: an input as found, the result what the
    write-backs made of it. -/
theorem hin3 : ∀ w : Fin cfg3.W, w ≠ 9 → (cfg3.win w).isOut = false := by decide
theorem hne3 : ∀ w : Fin cfg3.W, w ≠ 9 → Pipeline.arrRef spec3 w ∉ ([main_v47] : List (Ref sig .tc)) := by decide
theorem hF3 (c : Dev nD) (w : Fin cfg3.W) :
    (dat3 (En3 m) c).arrAt w cfg3.N = (fun b : Ref sig .tc => V11 m (outs4 m) c b) (Pipeline.arrRef spec3 w) := by
  show (dat3 (En3 m) c).arrAt w cfg3.N = V11 m (outs4 m) c (Pipeline.arrRef spec3 w)
  by_cases hw : w = 9
  · subst hw
    show (dat3 (En3 m) c).arrAt 9 cfg3.N = V11 m (outs4 m) c main_v47
    rw [Vout3_self, o11_def]
  · rw [(dat3 (En3 m) c).arrAt_in w (hin3 w hw), A_eq3]
    exact (congrFun (i3 m c) _).symm.trans (V11_of m (outs4 m) c _ (hne3 w hw)).symm

/-- and every other buffer what it held at entry. -/
theorem hrest3 (c : Dev nD) : ∀ b : Ref sig .tc, b ∉ Finset.univ.image (Pipeline.arrRef spec3) → V11 m (outs4 m) c b = V10 m (outs3 m) c b :=
  fun b hb => (V11_of m (outs4 m) c b fun h => hb (by
    rw [List.mem_singleton] at h; subst h
    exact Finset.mem_image.mpr ⟨9, Finset.mem_univ _, rfl⟩)).trans (congrFun (i3 m c) _)

set_option backward.isDefEq.respectTransparency.types false in
/-- Region 3 over the thread state "every unscoped buffer at its valuation, the generator register, nothing owed":
    its arrays are taken out of the buffers on entry and put back at their final contents on exit; the generator
    register goes into the body's invariant and comes back; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ L lv 3 fun _ _ => rfl
  pre c := iprop(StableHlo.held (c : Thread nD τ) (Pipeline.ucRefs τ sig) (V10 m (outs3 m) c) ∗ R c)
  post c := iprop(StableHlo.held (c : Thread nD τ) (Pipeline.ucRefs τ sig) (V11 m (outs4 m) c) ∗ R c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (En3 m c) (fun b : Ref sig .tc => V11 m (outs4 m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At this region's exit each of its arrays holds what the pipeline leaves: an input as found, the result what the
    write-backs made of it. -/
theorem hin4 : ∀ w : Fin cfg4.W, w ≠ 2 → (cfg4.win w).isOut = false := by decide
theorem hne4 : ∀ w : Fin cfg4.W, w ≠ 2 → Pipeline.arrRef spec4 w ∉ ([main_v48] : List (Ref sig .tc)) := by decide
theorem hF4 (c : Dev nD) (w : Fin cfg4.W) :
    (dat4 (En4 m) c).arrAt w cfg4.N = (fun b : Ref sig .tc => V12 m (outs m) c b) (Pipeline.arrRef spec4 w) := by
  show (dat4 (En4 m) c).arrAt w cfg4.N = V12 m (outs m) c (Pipeline.arrRef spec4 w)
  by_cases hw : w = 2
  · subst hw
    show (dat4 (En4 m) c).arrAt 2 cfg4.N = V12 m (outs m) c main_v48
    rw [Vout4_self, o12_def]
  · rw [(dat4 (En4 m) c).arrAt_in w (hin4 w hw), A_eq4]
    exact (congrFun (i4 m c) _).symm.trans (V12_of m (outs m) c _ (hne4 w hw)).symm

/-- and every other buffer what it held at entry. -/
theorem hrest4 (c : Dev nD) : ∀ b : Ref sig .tc, b ∉ Finset.univ.image (Pipeline.arrRef spec4) → V12 m (outs m) c b = V11 m (outs4 m) c b :=
  fun b hb => (V12_of m (outs m) c b fun h => hb (by
    rw [List.mem_singleton] at h; subst h
    exact Finset.mem_image.mpr ⟨2, Finset.mem_univ _, rfl⟩)).trans (congrFun (i4 m c) _)

set_option backward.isDefEq.respectTransparency.types false in
/-- Region 4 over the thread state "every unscoped buffer at its valuation, the generator register, nothing owed":
    its arrays are taken out of the buffers on entry and put back at their final contents on exit; the generator
    register goes into the body's invariant and comes back; the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (En4 m) c).loose
  hwaits := Pipeline.hwaits_of_owed_zero _ _ _ _ L lv 4 fun _ _ => rfl
  pre c := iprop(StableHlo.held (c : Thread nD τ) (Pipeline.ucRefs τ sig) (V11 m (outs4 m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (En4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from phi4_first _ c]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from phi4_last _ c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (En4 m c) (fun b : Ref sig .tc => V12 m (outs m) c b) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory `m` with zero counters terminates, nothing faulting, and in the
    final memory every unscoped buffer of every core holds the last valuation: the arguments what they held at launch,
    the result what the pooling region left. -/
theorem run : θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m))
    (fun c Q => by
      rewrite [main_chain c, Seg.run_eq_chain,
        show (segs m (outs m) 𝒱₀ L lv (fun _ c => R c) () (pdats m) (reg0 m) (reg1 m) (reg2 m) (reg3 m) (reg4 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          Prog.lift (.customCall (Pipeline.entry 3) ()),
          Prog.lift (.customCall (Pipeline.entry 4) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, (by show (iprop(StableHlo.held (c : Thread nD τ) (Pipeline.ucRefs τ sig) (V4 m (outs1 m) c) ∗ R c) : sProp 𝕄) ⊢ iprop(StableHlo.held (c : Thread nD τ) (Pipeline.ucRefs τ sig) (V4 m (outs m) c) ∗ R c); rw [e4 m c]), .rfl, (by show (iprop(StableHlo.held (c : Thread nD τ) (Pipeline.ucRefs τ sig) (V6 m (outs m) c) ∗ R c) : sProp 𝕄) ⊢ iprop(StableHlo.held (c : Thread nD τ) (Pipeline.ucRefs τ sig) (V6 m (outs1 m) c) ∗ R c); rw [e6 m c]),
      (by show (iprop(StableHlo.held (c : Thread nD τ) (Pipeline.ucRefs τ sig) (V7 m (outs2 m) c) ∗ R c) : sProp 𝕄) ⊢ iprop(StableHlo.held (c : Thread nD τ) (Pipeline.ucRefs τ sig) (V7 m (outs m) c) ∗ R c); rw [e7 m c]), .rfl, (by show (iprop(StableHlo.held (c : Thread nD τ) (Pipeline.ucRefs τ sig) (V9 m (outs m) c) ∗ R c) : sProp 𝕄) ⊢ iprop(StableHlo.held (c : Thread nD τ) (Pipeline.ucRefs τ sig) (V9 m (outs2 m) c) ∗ R c); rw [e9 m c]), .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V12 m (outs m) c) s')
      isplitl [Hh] <;> iassumption)
    (hQ := fun s h c => h c)

/-- The result array and the argument arrays in the final memory: the pooled result, and the arguments as launched. -/
theorem run_full : θ_run defs (onTc (τ := τ) (main (F := F))) ⟨m, fun _ => 0, ρ⟩ (fun r => ∀ c : Dev nD,
      r.2.mem ((c.tc : Thread nD τ).loc main_v48) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v48 (by decide))).trans (Vout4_self m c),
      (h c _ (mem_uc main_arg0 (by decide))).trans (V12_main_arg0 m (outs m) c),
      (h c _ (mem_uc main_arg1 (by decide))).trans (V12_main_arg1 m (outs m) c),
      (h c _ (mem_uc main_arg2 (by decide))).trans (V12_main_arg2 m (outs m) c),
      (h c _ (mem_uc main_arg3 (by decide))).trans (V12_main_arg3 m (outs m) c),
      (h c _ (mem_uc main_arg4 (by decide))).trans (V12_main_arg4 m (outs m) c),
      (h c _ (mem_uc main_arg5 (by decide))).trans (V12_main_arg5 m (outs m) c),
      (h c _ (mem_uc main_arg6 (by decide))).trans (V12_main_arg6 m (outs m) c),
      (h c _ (mem_uc main_arg7 (by decide))).trans (V12_main_arg7 m (outs m) c),
      (h c _ (mem_uc main_arg8 (by decide))).trans (V12_main_arg8 m (outs m) c),
      (h c _ (mem_uc main_arg9 (by decide))).trans (V12_main_arg9 m (outs m) c),
      (h c _ (mem_uc main_arg10 (by decide))).trans (V12_main_arg10 m (outs m) c),
      (h c _ (mem_uc main_arg11 (by decide))).trans (V12_main_arg11 m (outs m) c),
      (h c _ (mem_uc main_arg12 (by decide))).trans (V12_main_arg12 m (outs m) c),
      (h c _ (mem_uc main_arg13 (by decide))).trans (V12_main_arg13 m (outs m) c),
      (h c _ (mem_uc main_arg14 (by decide))).trans (V12_main_arg14 m (outs m) c),
      (h c _ (mem_uc main_arg15 (by decide))).trans (V12_main_arg15 m (outs m) c),
      (h c _ (mem_uc main_arg16 (by decide))).trans (V12_main_arg16 m (outs m) c),
      (h c _ (mem_uc main_arg17 (by decide))).trans (V12_main_arg17 m (outs m) c),
      (h c _ (mem_uc main_arg18 (by decide))).trans (V12_main_arg18 m (outs m) c),
      (h c _ (mem_uc main_arg19 (by decide))).trans (V12_main_arg19 m (outs m) c)⟩) (run m ρ)

/-- The frame: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => (h c).2) (run_full m ρ)

end Cert.KernelIdeal.Hand

end
-- ==== Proof.ValKernelIdeal.Take.lean ====
/-
  The kernel's row lookup before each neighbour-mean layer, against the reference's, and with it the whole
  neighbour mean.  Both programs normalise a source id the same way (a negative id counts from the end:
  id + 100000) and gather the feature rows at the normalised ids; the kernel then masks: a row whose normalised id
  lies outside [0, 99999] is replaced by NaN.  Under the precondition every source id is in [-100000, 100000) as a
  signed 32-bit word, so the sum does not wrap, every normalised id is in [0, 99999], both comparisons are 1 at every
  edge, their conjunction reduced over the axis of size one is 1, and the mask selects the gathered row everywhere:
  the masked lookup IS the gather.  Everything after the lookup — the scatter-add of the rows at the destination ids,
  the count of edges per destination (at least one), the division — is the same chain of operations in both
  programs, stated over two copies of the same dimension records.
-/
import proofs.«418012_j44109314130143_1_alg».proof.KernelIdeal
import proofs.«418012_j44109314130143_1_alg».proof.ReferenceIdeal
import Idealize.ShloMosaic.Lib.ReduceAll
import Idealize.ShloMosaic.Lib.ValueIdx
import Idealize.ShloMosaic.Lib.Pipeline.Value
import Idealize.ShloMosaic.Lib.StableHlo.Predicate

noncomputable section

/-! ## The reference's neighbour mean, in the reference's own dimension records -/

namespace Cert.ReferenceIdeal.Val

open Idealize.ShloMosaic Idealize.SL.Sem
open Cert.ReferenceIdeal Cert.ReferenceIdeal.Facts₀ Cert.ReferenceIdeal.Facts

variable [Cert.ReferenceIdeal.Facts]

/-- The source ids and the destination ids: rows 0 and 1 of the edge array, as vectors. -/
def refSrc (x1 : IVec S2x1600000 32) : IVec S1600000 32 :=
  shapeCast _ (extractStridedSlice S1x1600000 ![0, 0] x1 slices_S2x1600000_S1x1600000_0_0) shapeCasts_S1x1600000_S1600000
def refDst (x1 : IVec S2x1600000 32) : IVec S1600000 32 :=
  shapeCast _ (extractStridedSlice S1x1600000 ![1, 0] x1 slices_S2x1600000_S1x1600000_1_0) shapeCasts_S1x1600000_S1600000

/-- The gather's start indices: the source ids normalised (a negative id plus 100000), as a column. -/
def refIdx (x1 : IVec S2x1600000 32) : IVec S1600000x1 32 :=
  broadcastInDim S1600000x1 ![0] bcast_S1600000_S1600000x1_0
    (select (cmpi .slt (refSrc x1) (broadcastInDim S1600000 ![] bcast_S_S1600000 (constantI S_ 32 0#32)))
      (addi (refSrc x1) (broadcastInDim S1600000 ![] bcast_S_S1600000 (constantI S_ 32 100000#32))) (refSrc x1))

/-- The scatter's indices: the destination ids as a column. -/
def refDstCol (x1 : IVec S2x1600000 32) : IVec S1600000x1 32 :=
  broadcastInDim S1600000x1 ![0] bcast_S1600000_S1600000x1_0 (refDst x1)

/-- Edges per destination node, at least one: ones scatter-added at the destination ids, then the maximum with 1. -/
def refCnt (x1 : IVec S2x1600000 32) : Vec Ideal S100000 .f32 :=
  maximumf
    (Host.scatterAdd scatter_S100000_S1600000x1_S1600000_n_0_0_1
      (broadcastInDim S100000 ![] bcast_S_S100000 (constant (F := Ideal) S_ .f32 0x00000000#32)) (refDstCol x1)
      (broadcastInDim S1600000 ![] bcast_S_S1600000 (constant (F := Ideal) S_ .f32 0x3F800000#32)))
    (broadcastInDim S100000 ![] bcast_S_S100000 (constant (F := Ideal) S_ .f32 0x3F800000#32))

/-- THE FIRST LAYER'S NEIGHBOUR MEAN: rows of `x` gathered at the source ids, scatter-added at the destination ids,
    divided by the counts. -/
def refMean0 (x : Vec Ideal S100000x32 .f32) (x1 : IVec S2x1600000 32) : Vec Ideal S100000x32 .f32 :=
  Host.divf (F := Ideal)
    (Host.scatterAdd scatter_S100000x32_S1600000x1_S1600000x32_1_0_0_1
      (broadcastInDim S100000x32 ![] bcast_S_S100000x32 (constant (F := Ideal) S_ .f32 0x00000000#32)) (refDstCol x1)
      (Host.gather gather_S100000x32_S1600000x1_S1600000x32_1_0_n_n_0_1_132 x (refIdx x1)))
    (broadcastInDim S100000x32 ![0, 1] bcast_S100000x1_S100000x32_0_1
      (broadcastInDim S100000x1 ![0] bcast_S100000_S100000x1_0 (refCnt x1)))

/-- THE LATER LAYERS' NEIGHBOUR MEAN: the same at width 128. -/
def refMean1 (h : Vec Ideal S100000x128 .f32) (x1 : IVec S2x1600000 32) : Vec Ideal S100000x128 .f32 :=
  Host.divf (F := Ideal)
    (Host.scatterAdd scatter_S100000x128_S1600000x1_S1600000x128_1_0_0_1
      (broadcastInDim S100000x128 ![] bcast_S_S100000x128 (constant (F := Ideal) S_ .f32 0x00000000#32)) (refDstCol x1)
      (Host.gather gather_S100000x128_S1600000x1_S1600000x128_1_0_n_n_0_1_1128 h (refIdx x1)))
    (broadcastInDim S100000x128 ![0, 1] bcast_S100000x1_S100000x128_0_1
      (broadcastInDim S100000x1 ![0] bcast_S100000_S100000x1_0 (refCnt x1)))

end Cert.ReferenceIdeal.Val

namespace Cert.KernelIdeal.Val

open Idealize.ShloMosaic Idealize.SL.Sem

export Cert.ReferenceIdeal.Val (refSrc refDst refIdx refDstCol refCnt refMean0 refMean1)

/-! ## One word -/

/-- The normalised id of one word: a negative id counts from the end. -/
def normW (w : BitVec 32) : BitVec 32 :=
  Scalar.select (IntOp.cmpi .slt w 0#32) (IntOp.addi w 100000#32) w

/-- An id in [-100000, 100000) normalises into [0, 100000): a negative one plus 100000 does not wrap. -/
theorem normW_lt (w : BitVec 32) (h : -100000 ≤ w.toInt ∧ w.toInt < 100000) : (normW w).toNat < 100000 := by
  obtain ⟨h1, h2⟩ := h
  have hw := w.isLt
  have e0 : (0#32 : BitVec 32).toInt = 0 := by decide
  unfold normW Scalar.select IntOp.cmpi IntOp.addi
  simp only [BitVec.slt, e0]
  rw [BitVec.toInt_eq_toNat_cond] at h1 h2
  split
  · next hc =>
    have hneg : w.toInt < 0 := of_decide_eq_true ((StableHlo.Predicate.ofBool_eq_one_iff _).1 hc)
    rw [BitVec.toInt_eq_toNat_cond] at hneg
    rw [BitVec.toNat_add]
    simp only [BitVec.toNat_ofNat]
    split_ifs at h1 h2 hneg <;> omega
  · next hc =>
    have hpos : ¬ w.toInt < 0 := fun hn => hc ((StableHlo.Predicate.ofBool_eq_one_iff _).2 (decide_eq_true hn))
    rw [BitVec.toInt_eq_toNat_cond] at hpos
    split_ifs at h1 h2 hpos <;> omega

/-- So both range comparisons of the normalised id come out 1. -/
theorem normW_inRange (w : BitVec 32) (h : -100000 ≤ w.toInt ∧ w.toInt < 100000) :
    IntOp.andi (IntOp.cmpi .sge (normW w) 0#32) (IntOp.cmpi .sle (normW w) 99999#32) = 1#1 := by
  have hn := normW_lt w h
  have hn31 : (normW w).toNat < 2 ^ 31 := by omega
  have h0 : (0#32 : BitVec 32).toNat < 2 ^ 31 := by decide
  have h9 : (99999#32 : BitVec 32).toNat < 2 ^ 31 := by decide
  have e9 : (99999#32 : BitVec 32).toNat = 99999 := by decide
  refine IntOp.andi_eq_one.2 ⟨(StableHlo.Predicate.sge_iff_toNat hn31 h0).2 (Nat.zero_le _),
    (StableHlo.Predicate.sle_iff_toNat hn31 h9).2 ?_⟩
  rw [e9]; omega

/-! ## Masks that are 1 everywhere -/

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, IntOp.andi_eq_one.2 ⟨rfl, rfl⟩]
    exact foldl_andi_one f hf l

/-- A reduction by `and`, from 1, of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_one x hx _

/-- A broadcast of an array of ones is an array of ones. -/
theorem bcast_all_one {s t : Shape} (dims : Fin s.rank → Fin t.rank) (h : s.BroadcastsInDim t dims) (m : IVec s 1)
    (hm : ∀ j, m j = 1#1) (i : t.Idx) : broadcastInDim t dims h m i = 1#1 := by
  simp only [broadcastInDim]; exact hm _

/-- A select under a mask of ones takes its first branch everywhere. -/
theorem select_all_one {α : Type} {s : Shape} (m : IVec s 1) (hm : ∀ i, m i = 1#1) (a b : s.Idx → α) : select m a b = a := by
  funext i; unfold select Scalar.select; rw [hm i]; exact if_pos rfl

/-! ## The kernel's lookup -/

section Take

open Cert.KernelIdeal Cert.KernelIdeal.Facts₀ Cert.KernelIdeal.Facts

variable [Cert.KernelIdeal.Facts]

/-- The normalised ids: where the id is negative, the id plus 100000. -/
def takeNorm (ids : IVec S1600000 32) : IVec S1600000 32 :=
  select (cmpi .slt ids (broadcastInDim S1600000 ![] bcast_S_S1600000 (constantI S_ 32 0#32)))
    (addi ids (broadcastInDim S1600000 ![] bcast_S_S1600000 (constantI S_ 32 100000#32))) ids

/-- They are the one-word normalisation at every edge. -/
theorem takeNorm_apply (ids : IVec S1600000 32) (j : S1600000.Idx) : takeNorm ids j = normW (ids j) := rfl

/-- The start indices of the gather: the normalised ids as a column. -/
def takeIdx (ids : IVec S1600000 32) : IVec S1600000x1 32 :=
  broadcastInDim S1600000x1 ![0] bcast_S1600000_S1600000x1_0 (takeNorm ids)

/-- The kernel's range mask, one bit per edge: 0 ≤ normalised id ≤ 99999, reduced by `and` over the column axis. -/
def takeMask (ids : IVec S1600000 32) : IVec S1600000 1 :=
  Host.reduce IntOp.andi
    (andi (cmpi .sge (takeIdx ids) (broadcastInDim S1600000x1 ![] bcast_S_S1600000x1 (constantI S_ 32 0#32)))
      (cmpi .sle (takeIdx ids) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Under the precondition's range the mask is 1 at every edge. -/
theorem takeMask_one (ids : IVec S1600000 32) (hsrc : ∀ j, -100000 ≤ (ids j).toInt ∧ (ids j).toInt < 100000)
    (i : S1600000.Idx) : takeMask ids i = 1#1 := by
  unfold takeMask
  refine reduce_andi_of_all _ _ _ _ (fun k => ?_) rfl i
  simp only [andi, cmpi, takeIdx, broadcastInDim, constantI, takeNorm_apply]
  exact normW_inRange _ (hsrc _)

/-- THE LOOKUP at width 32: the masked gather is the gather. -/
theorem take32_eq (x : Vec Ideal S100000x32 .f32) (ids : IVec S1600000 32)
    (hsrc : ∀ j, -100000 ≤ (ids j).toInt ∧ (ids j).toInt < 100000) :
    select (broadcastInDim S1600000x32 ![0] bcast_S1600000_S1600000x32_0 (takeMask ids))
        (Host.gather gather_S100000x32_S1600000x1_S1600000x32_1_0_n_n_0_1_132 x (takeIdx ids))
        (broadcastInDim S1600000x32 ![] bcast_S_S1600000x32 (constant (F := Ideal) S_ .f32 0x7FC00000#32))
      = Host.gather gather_S100000x32_S1600000x1_S1600000x32_1_0_n_n_0_1_132 x (takeIdx ids) :=
  select_all_one _ (bcast_all_one _ _ _ (takeMask_one ids hsrc)) _ _

/-- THE LOOKUP at width 128. -/
theorem take128_eq (x : Vec Ideal S100000x128 .f32) (ids : IVec S1600000 32)
    (hsrc : ∀ j, -100000 ≤ (ids j).toInt ∧ (ids j).toInt < 100000) :
    select (broadcastInDim S1600000x128 ![0] bcast_S1600000_S1600000x128_0 (takeMask ids))
        (Host.gather gather_S100000x128_S1600000x1_S1600000x128_1_0_n_n_0_1_1128 x (takeIdx ids))
        (broadcastInDim S1600000x128 ![] bcast_S_S1600000x128 (constant (F := Ideal) S_ .f32 0x7FC00000#32))
      = Host.gather gather_S100000x128_S1600000x1_S1600000x128_1_0_n_n_0_1_1128 x (takeIdx ids) :=
  select_all_one _ (bcast_all_one _ _ _ (takeMask_one ids hsrc)) _ _

end Take

/-! ## The ids as the kernel slices them -/

section Ids

open Cert.KernelIdeal Cert.KernelIdeal.Facts₀ Cert.KernelIdeal.Facts

variable [Cert.KernelIdeal.Facts]

/-- The kernel's source ids and destination ids: rows 0 and 1 of the edge array, as vectors. -/
def kerIds (ei : IVec S2x1600000 32) : IVec S1600000 32 :=
  shapeCast S1600000 (extractStridedSlice S1x1600000 ![0, 0] ei slices_S2x1600000_S1x1600000_0_0) shapeCasts_S1x1600000_S1600000
def kerDst (ei : IVec S2x1600000 32) : IVec S1600000 32 :=
  shapeCast S1600000 (extractStridedSlice S1x1600000 ![1, 0] ei slices_S2x1600000_S1x1600000_1_0) shapeCasts_S1x1600000_S1600000

/-- Edge `e`'s source id is the edge array at (0, e). -/
theorem kerIds_apply (ei : IVec S2x1600000 32) (e : Fin 1600000) :
    kerIds ei (ValueIdx.ix1 e) = ei (ValueIdx.ix2 (0 : Fin 2) e) := by
  unfold kerIds
  rw [shapeCast_apply _ shapeCasts_S1x1600000_S1600000 (ValueIdx.ix1 e) (ValueIdx.ix2 (0 : Fin 1) e)
    (by rewrite [Shape.rowMajor_val_two, Shape.rowMajor_val_one]; show 0 * 1600000 + e.val = e.val; omega)]
  exact extractStridedSlice_apply ![0, 0] ei slices_S2x1600000_S1x1600000_0_0 _ (ValueIdx.ix2 (0 : Fin 2) e) (fun a => match a with
    | ⟨0, _⟩ => by show (0 : Nat) = 0 + 0; omega
    | ⟨1, _⟩ => by show e.val = 0 + e.val; omega)

/-- The precondition's range, read at the kernel's id vector. -/
theorem kerIds_range (ei : IVec S2x1600000 32)
    (hsrc : ∀ e : Fin 1600000, -100000 ≤ (ei (ValueIdx.ix2 (0 : Fin 2) e)).toInt ∧ (ei (ValueIdx.ix2 (0 : Fin 2) e)).toInt < 100000)
    (j : S1600000.Idx) : -100000 ≤ (kerIds ei j).toInt ∧ (kerIds ei j).toInt < 100000 := by
  have hj : ValueIdx.ix1 (⟨(j 0).val, (j 0).isLt⟩ : Fin 1600000) = j := by
    funext d; match d with | ⟨0, _⟩ => rfl
  have h := hsrc ⟨(j 0).val, (j 0).isLt⟩
  rw [← kerIds_apply ei ⟨(j 0).val, (j 0).isLt⟩, hj] at h
  exact h

end Ids

/-! ## The kernel's neighbour mean, and the reference's -/

section Mean

open Cert.KernelIdeal Cert.KernelIdeal.Facts₀ Cert.KernelIdeal.Facts

variable [Cert.KernelIdeal.Facts] [Cert.ReferenceIdeal.Facts]

/-- The kernel's counts: the same chain as the reference's. -/
def kerCnt (ei : IVec S2x1600000 32) : Vec Ideal S100000 .f32 :=
  maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (kerDst ei))
      (broadcastInDim S1600000 ![] bcast_S_S1600000 (constant (F := Ideal) S_ .f32 0x3F800000#32)))
    (broadcastInDim S100000 ![] bcast_S_S100000 (constant (F := Ideal) S_ .f32 0x3F800000#32))

/-- The kernel's first-layer mean, its operations in order: the masked lookup, the scatter-add, the division. -/
def takeMean0 (x : Vec Ideal S100000x32 .f32) (ei : IVec S2x1600000 32) : Vec Ideal S100000x32 .f32 :=
  Host.divf (F := Ideal)
    (Host.scatterAdd scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0 (kerDst ei))
      (select (broadcastInDim S1600000x32 ![0] bcast_S1600000_S1600000x32_0 (takeMask (kerIds ei)))
        (Host.gather gather_S100000x32_S1600000x1_S1600000x32_1_0_n_n_0_1_132 x (takeIdx (kerIds ei)))
        (broadcastInDim S1600000x32 ![] bcast_S_S1600000x32 (constant (F := Ideal) S_ .f32 0x7FC00000#32))))
    (broadcastInDim S100000x32 ![0, 1] bcast_S100000x1_S100000x32_0_1
      (broadcastInDim S100000x1 ![0] bcast_S100000_S100000x1_0 (kerCnt ei)))

/-- The kernel's later-layer mean: the same at width 128. -/
def takeMean1 (h : Vec Ideal S100000x128 .f32) (ei : IVec S2x1600000 32) : Vec Ideal S100000x128 .f32 :=
  Host.divf (F := Ideal)
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (kerDst ei))
      (select (broadcastInDim S1600000x128 ![0] bcast_S1600000_S1600000x128_0 (takeMask (kerIds ei)))
        (Host.gather gather_S100000x128_S1600000x1_S1600000x128_1_0_n_n_0_1_1128 h (takeIdx (kerIds ei)))
        (broadcastInDim S1600000x128 ![] bcast_S_S1600000x128 (constant (F := Ideal) S_ .f32 0x7FC00000#32))))
    (broadcastInDim S100000x128 ![0, 1] bcast_S100000x1_S100000x128_0_1
      (broadcastInDim S100000x1 ![0] bcast_S100000_S100000x1_0 (kerCnt ei)))

/-- The two programs' id vectors, start indices and counts are the same terms over two copies of the records. -/
theorem kerIds_eq_ref (ei : IVec S2x1600000 32) : kerIds ei = refSrc ei := rfl
theorem kerDst_eq_ref (ei : IVec S2x1600000 32) : kerDst ei = refDst ei := rfl
theorem takeIdx_eq_ref (ei : IVec S2x1600000 32) : takeIdx (kerIds ei) = refIdx ei := rfl
theorem kerCnt_eq_ref (ei : IVec S2x1600000 32) : kerCnt ei = refCnt ei := rfl

/-- THE FIRST LAYER'S MEAN: under the precondition's range the kernel's is the reference's. -/
theorem takeMean0_eq (x : Vec Ideal S100000x32 .f32) (ei : IVec S2x1600000 32)
    (hsrc : ∀ e : Fin 1600000, -100000 ≤ (ei (ValueIdx.ix2 (0 : Fin 2) e)).toInt ∧ (ei (ValueIdx.ix2 (0 : Fin 2) e)).toInt < 100000) :
    takeMean0 x ei = refMean0 x ei := by
  unfold takeMean0
  rw [take32_eq x (kerIds ei) (kerIds_range ei hsrc)]
  rfl

/-- THE LATER LAYERS' MEAN. -/
theorem takeMean1_eq (h : Vec Ideal S100000x128 .f32) (ei : IVec S2x1600000 32)
    (hsrc : ∀ e : Fin 1600000, -100000 ≤ (ei (ValueIdx.ix2 (0 : Fin 2) e)).toInt ∧ (ei (ValueIdx.ix2 (0 : Fin 2) e)).toInt < 100000) :
    takeMean1 h ei = refMean1 h ei := by
  unfold takeMean1
  rw [take128_eq h (kerIds ei) (kerIds_range ei hsrc)]
  rfl

end Mean

end Cert.KernelIdeal.Val

end
-- ==== Proof.ValKernelIdeal.Host.lean ====
/-
  The host stretches between the kernel regions: before each neighbour-mean layer the program takes the feature rows
  at the (normalised) source ids, masks rows whose id is out of range with a NaN word, adds the taken rows up by
  destination id, counts the edges per destination, and divides by the count (at least one).  Each stretch is restated
  here as ONE term over the arrays it reads; the arrays the regions read and no stretch writes are read back unchanged.
-/
import proofs.«418012_j44109314130143_1_alg».proof.Proof.Gen.KernelIdeal.Regions
import Idealize.ShloMosaic.Lib.StableHlo.Run
import proofs.«418012_j44109314130143_1_alg».proof.Proof.ValKernelIdeal.Take

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-! ## The stretches as terms -/

/-- Row 0 of the edge array: the source id of every edge. -/
def srcIds (ei : IVec S2x1600000 32) : IVec S1600000 32 :=
  shapeCast S1600000 (extractStridedSlice S1x1600000 ![0, 0] ei slices_S2x1600000_S1x1600000_0_0) shapeCasts_S1x1600000_S1600000

/-- Row 1 of the edge array: the destination id of every edge. -/
def dstIds (ei : IVec S2x1600000 32) : IVec S1600000 32 :=
  shapeCast S1600000 (extractStridedSlice S1x1600000 ![1, 0] ei slices_S2x1600000_S1x1600000_1_0) shapeCasts_S1x1600000_S1600000

/-- The ids normalised numpy-style: a negative id counts from the end (100000 is added to it). -/
def normIds (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- The normalised ids as the one-column table of start indices the gather reads. -/
def idxCol (v : IVec S1600000 32) : IVec S1600000x1 32 :=
  broadcastInDim S1600000x1 ![0] bcast_S1600000_S1600000x1_0 (normIds v)

/-- The range mask of a start-index table: 1 at an edge whose index is in [0, 99999]. -/
def inRange (t : IVec S1600000x1 32) : IVec S1600000 1 :=
  Host.reduce IntOp.andi
    (andi (cmpi .sge t (broadcastInDim S1600000x1 ![] bcast_S_S1600000x1 (constantI S_ 32 0#32)))
      (cmpi .sle t (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The rows of a 32-column feature array taken at the source ids, a masked row replaced by the NaN word. -/
def take32 (x : FVec F S100000x32 .f32) (v : IVec S1600000 32) : FVec F S1600000x32 .f32 :=
  select (broadcastInDim S1600000x32 ![0] bcast_S1600000_S1600000x32_0 (inRange (idxCol v)))
    (Host.gather gather_S100000x32_S1600000x1_S1600000x32_1_0_n_n_0_1_132 x (idxCol v))
    (broadcastInDim S1600000x32 ![] bcast_S_S1600000x32 (constant S_ .f32 0x7FC00000#32))

/-- The same over a 128-column feature array. -/
def take128 (x : FVec F S100000x128 .f32) (v : IVec S1600000 32) : FVec F S1600000x128 .f32 :=
  select (broadcastInDim S1600000x128 ![0] bcast_S1600000_S1600000x128_0 (inRange (idxCol v)))
    (Host.gather gather_S100000x128_S1600000x1_S1600000x128_1_0_n_n_0_1_1128 x (idxCol v))
    (broadcastInDim S1600000x128 ![] bcast_S_S1600000x128 (constant S_ .f32 0x7FC00000#32))

/-- The number of edges into each node, at least one. -/
def degree (d : IVec S1600000 32) : FVec F S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32))

/-- The taken rows added up by destination id and divided by the degree: 32 columns. -/
def mean32 (g : FVec F S1600000x32 .f32) (d : IVec S1600000 32) : FVec F S100000x32 .f32 :=
  Host.divf
    (Host.scatterAdd scatter_S100000x32_S1600000x1_S1600000x32_1_0_0_1
      (broadcastInDim S100000x32 ![] bcast_S_S100000x32 (constant S_ .f32 0x00000000#32))
      (broadcastInDim S1600000x1 ![0] bcast_S1600000_S1600000x1_0 d) g)
    (broadcastInDim S100000x32 ![0, 1] bcast_S100000x1_S100000x32_0_1 (broadcastInDim S100000x1 ![0] bcast_S100000_S100000x1_0 (degree d)))

/-- The same over 128 columns. -/
def mean128 (g : FVec F S1600000x128 .f32) (d : IVec S1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d) g)
    (broadcastInDim S100000x128 ![0, 1] bcast_S100000x1_S100000x128_0_1 (broadcastInDim S100000x1 ![0] bcast_S100000_S100000x1_0 (degree d)))

/-- The neighbour mean of the input features, as the program computes it before the first layer. -/
def kerMean0 (x : FVec F S100000x32 .f32) (ei : IVec S2x1600000 32) : FVec F S100000x32 .f32 :=
  mean32 (take32 x (srcIds ei)) (dstIds ei)

/-- The neighbour mean of a hidden layer's features, as the program computes it before the second and third layers. -/
def kerMean1 (h : FVec F S100000x128 .f32) (ei : IVec S2x1600000 32) : FVec F S100000x128 .f32 :=
  mean128 (take128 h (srcIds ei)) (dstIds ei)

/-- The graph ids as a one-column table. -/
def batchCol (b : IVec S100000 32) : IVec S100000x1 32 := shapeCast S100000x1 b shapeCasts_S100000_S100000x1

/-! ## Typed references: contents moved to a buffer's own type and back -/

section Casts

variable {Val : EltTy → Type}

/-- Contents written at a typed reference and read back at it are the contents. -/
theorem ofBuf_toBuf {T : BufTy} (x : StableHlo.TRef sig T) (v : T.Contents Val) : x.ofBuf (x.toBuf v) = v := by
  obtain ⟨r, h, h2, h3⟩ := x
  subst h
  rfl

theorem ofBuf_main_arg0 (p q r) (w : (Proc.devRef .tc main_arg0 : DevRef τ sig).ty.Contents Val) :
    (StableHlo.TRef.of main_arg0 p q r : StableHlo.TRef sig ⟨S100000x32, .f32⟩).ofBuf w = w := rfl
theorem ofBuf_main_v1 (p q r) (w : (Proc.devRef .tc main_v1 : DevRef τ sig).ty.Contents Val) :
    (StableHlo.TRef.of main_v1 p q r : StableHlo.TRef sig ⟨S1600000, .i32⟩).ofBuf w = w := rfl
theorem ofBuf_main_v18 (p q r) (w : (Proc.devRef .tc main_v18 : DevRef τ sig).ty.Contents Val) :
    (StableHlo.TRef.of main_v18 p q r : StableHlo.TRef sig ⟨S100000x128, .f32⟩).ofBuf w = w := rfl
theorem ofBuf_main_v32 (p q r) (w : (Proc.devRef .tc main_v32 : DevRef τ sig).ty.Contents Val) :
    (StableHlo.TRef.of main_v32 p q r : StableHlo.TRef sig ⟨S100000x128, .f32⟩).ofBuf w = w := rfl
theorem toBuf_main_v5 (p q r) (E : (⟨S1600000x32, .f32⟩ : BufTy).Contents Val) :
    ((StableHlo.TRef.of main_v5 p q r : StableHlo.TRef sig ⟨S1600000x32, .f32⟩).toBuf E : (Proc.devRef .tc main_v5 : DevRef τ sig).ty.Contents Val) = E := rfl
theorem toBuf_main_v19 (p q r) (E : (⟨S1600000x128, .f32⟩ : BufTy).Contents Val) :
    ((StableHlo.TRef.of main_v19 p q r : StableHlo.TRef sig ⟨S1600000x128, .f32⟩).toBuf E : (Proc.devRef .tc main_v19 : DevRef τ sig).ty.Contents Val) = E := rfl
theorem toBuf_main_v33 (p q r) (E : (⟨S1600000x128, .f32⟩ : BufTy).Contents Val) :
    ((StableHlo.TRef.of main_v33 p q r : StableHlo.TRef sig ⟨S1600000x128, .f32⟩).toBuf E : (Proc.devRef .tc main_v33 : DevRef τ sig).ty.Contents Val) = E := rfl

end Casts

/-! ## Each stretch, from any contents of the buffers it reads -/

section Stretches

variable (W : Valuation τ sig (Elt F))

theorem ops0_v1 : StableHlo.after hostOps0 W (Proc.devRef .tc main_v1) = srcIds (W (Proc.devRef .tc main_arg1)) := by
  after_results; rfl

theorem ops0_v3 : StableHlo.after hostOps0 W (Proc.devRef .tc main_v3) = dstIds (W (Proc.devRef .tc main_arg1)) := by
  after_results; rfl

theorem ops0_v4 : StableHlo.after hostOps0 W (Proc.devRef .tc main_v4) = batchCol (W (Proc.devRef .tc main_arg2)) := by
  after_results; rfl

theorem ops0_1_v5 : StableHlo.after hostOps0_1 W (Proc.devRef .tc main_v5)
    = take32 (W (Proc.devRef .tc main_arg0)) (W (Proc.devRef .tc main_v1)) := by
  after_results_simp
  simp only [ofBuf_toBuf, ofBuf_main_arg0, ofBuf_main_v1, toBuf_main_v5]
  rfl

theorem ops0_2_v17 : StableHlo.after hostOps0_2 W (Proc.devRef .tc main_v17)
    = mean32 (W (Proc.devRef .tc main_v5)) (W (Proc.devRef .tc main_v3)) := by
  after_results_simp; rfl

theorem ops1_v19 : StableHlo.after hostOps1 W (Proc.devRef .tc main_v19)
    = take128 (W (Proc.devRef .tc main_v18)) (W (Proc.devRef .tc main_v1)) := by
  after_results_simp
  simp only [ofBuf_toBuf, ofBuf_main_v18, ofBuf_main_v1, toBuf_main_v19]
  rfl

theorem ops1_1_v31 : StableHlo.after hostOps1_1 W (Proc.devRef .tc main_v31)
    = mean128 (W (Proc.devRef .tc main_v19)) (W (Proc.devRef .tc main_v3)) := by
  after_results_simp; rfl

theorem ops2_v33 : StableHlo.after hostOps2 W (Proc.devRef .tc main_v33)
    = take128 (W (Proc.devRef .tc main_v32)) (W (Proc.devRef .tc main_v1)) := by
  after_results_simp
  simp only [ofBuf_toBuf, ofBuf_main_v32, ofBuf_main_v1, toBuf_main_v33]
  rfl

theorem ops2_1_v45 : StableHlo.after hostOps2_1 W (Proc.devRef .tc main_v45)
    = mean128 (W (Proc.devRef .tc main_v33)) (W (Proc.devRef .tc main_v3)) := by
  after_results_simp; rfl

end Stretches

/-! ## The stages over the valuations between items -/

section Stages

variable (m : (ℓ : Loc nD τ sig) → Buf (Elt F) ℓ) (outs : Outs (F := F))

/-- The first stretch leaves the source ids, the destination ids and the graph-id column. -/
theorem V1_src (c : Dev nD) : V1 m c main_v1 = srcIds (m ((c : Thread nD τ).loc main_arg1)) := ops0_v1 _
theorem V1_dst (c : Dev nD) : V1 m c main_v3 = dstIds (m ((c : Thread nD τ).loc main_arg1)) := ops0_v3 _
theorem V1_batch (c : Dev nD) : V1 m c main_v4 = batchCol (m ((c : Thread nD τ).loc main_arg2)) := ops0_v4 _
theorem V2_dst (c : Dev nD) : V2 m c main_v3 = dstIds (m ((c : Thread nD τ).loc main_arg1)) :=
  (V2_of m c main_v3 (by decide)).trans <| V1_dst m c
theorem V4_src (c : Dev nD) : V4 m outs c main_v1 = srcIds (m ((c : Thread nD τ).loc main_arg1)) :=
  (V4_of m outs c main_v1 (by decide)).trans <| (V3_of m c main_v1 (by decide)).trans <| (V2_of m c main_v1 (by decide)).trans <| V1_src m c
theorem V5_dst (c : Dev nD) : V5 m outs c main_v3 = dstIds (m ((c : Thread nD τ).loc main_arg1)) :=
  (V5_of m outs c main_v3 (by decide)).trans <| (V4_of m outs c main_v3 (by decide)).trans <| (V3_of m c main_v3 (by decide)).trans <| (V2_of m c main_v3 (by decide)).trans <| V1_dst m c
theorem V7_src (c : Dev nD) : V7 m outs c main_v1 = srcIds (m ((c : Thread nD τ).loc main_arg1)) :=
  (V7_of m outs c main_v1 (by decide)).trans <| (V6_of m outs c main_v1 (by decide)).trans <| (V5_of m outs c main_v1 (by decide)).trans <| (V4_of m outs c main_v1 (by decide)).trans <| (V3_of m c main_v1 (by decide)).trans <| (V2_of m c main_v1 (by decide)).trans <| V1_src m c
theorem V8_dst (c : Dev nD) : V8 m outs c main_v3 = dstIds (m ((c : Thread nD τ).loc main_arg1)) :=
  (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m c main_v3 (by decide)).trans <| (V2_of m c main_v3 (by decide)).trans <| V1_dst m c
theorem V11_main_v4 (c : Dev nD) : V11 m outs c main_v4 = batchCol (m ((c : Thread nD τ).loc main_arg2)) :=
  (V11_of m outs c main_v4 (by decide)).trans <| (V10_of m outs c main_v4 (by decide)).trans <| (V9_of m outs c main_v4 (by decide)).trans <| (V8_of m outs c main_v4 (by decide)).trans <| (V7_of m outs c main_v4 (by decide)).trans <| (V6_of m outs c main_v4 (by decide)).trans <| (V5_of m outs c main_v4 (by decide)).trans <| (V4_of m outs c main_v4 (by decide)).trans <| (V3_of m c main_v4 (by decide)).trans <| (V2_of m c main_v4 (by decide)).trans <| V1_batch m c

/-- The argument arrays each region reads are as launched when it is entered: no stretch writes them, no region may change them. -/
theorem V1_main_arg0 (c : Dev nD) : V1 m c main_arg0 = m ((c : Thread nD τ).loc main_arg0) :=
  V1_of m c main_arg0 (by decide)
theorem V3_main_arg0 (c : Dev nD) : V3 m c main_arg0 = m ((c : Thread nD τ).loc main_arg0) :=
  (V3_of m c main_arg0 (by decide)).trans <| (V2_of m c main_arg0 (by decide)).trans <| V1_of m c main_arg0 (by decide)
theorem V3_main_arg3 (c : Dev nD) : V3 m c main_arg3 = m ((c : Thread nD τ).loc main_arg3) :=
  (V3_of m c main_arg3 (by decide)).trans <| (V2_of m c main_arg3 (by decide)).trans <| V1_of m c main_arg3 (by decide)
theorem V3_main_arg4 (c : Dev nD) : V3 m c main_arg4 = m ((c : Thread nD τ).loc main_arg4) :=
  (V3_of m c main_arg4 (by decide)).trans <| (V2_of m c main_arg4 (by decide)).trans <| V1_of m c main_arg4 (by decide)
theorem V3_main_arg5 (c : Dev nD) : V3 m c main_arg5 = m ((c : Thread nD τ).loc main_arg5) :=
  (V3_of m c main_arg5 (by decide)).trans <| (V2_of m c main_arg5 (by decide)).trans <| V1_of m c main_arg5 (by decide)
theorem V6_main_arg6 (c : Dev nD) : V6 m outs c main_arg6 = m ((c : Thread nD τ).loc main_arg6) :=
  (V6_of m outs c main_arg6 (by decide)).trans <| (V5_of m outs c main_arg6 (by decide)).trans <| (V4_of m outs c main_arg6 (by decide)).trans <| (V3_of m c main_arg6 (by decide)).trans <| (V2_of m c main_arg6 (by decide)).trans <| V1_of m c main_arg6 (by decide)
theorem V6_main_arg7 (c : Dev nD) : V6 m outs c main_arg7 = m ((c : Thread nD τ).loc main_arg7) :=
  (V6_of m outs c main_arg7 (by decide)).trans <| (V5_of m outs c main_arg7 (by decide)).trans <| (V4_of m outs c main_arg7 (by decide)).trans <| (V3_of m c main_arg7 (by decide)).trans <| (V2_of m c main_arg7 (by decide)).trans <| V1_of m c main_arg7 (by decide)
theorem V6_main_arg8 (c : Dev nD) : V6 m outs c main_arg8 = m ((c : Thread nD τ).loc main_arg8) :=
  (V6_of m outs c main_arg8 (by decide)).trans <| (V5_of m outs c main_arg8 (by decide)).trans <| (V4_of m outs c main_arg8 (by decide)).trans <| (V3_of m c main_arg8 (by decide)).trans <| (V2_of m c main_arg8 (by decide)).trans <| V1_of m c main_arg8 (by decide)
theorem V9_main_arg9 (c : Dev nD) : V9 m outs c main_arg9 = m ((c : Thread nD τ).loc main_arg9) :=
  (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m c main_arg9 (by decide)).trans <| (V2_of m c main_arg9 (by decide)).trans <| V1_of m c main_arg9 (by decide)
theorem V9_main_arg10 (c : Dev nD) : V9 m outs c main_arg10 = m ((c : Thread nD τ).loc main_arg10) :=
  (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m c main_arg10 (by decide)).trans <| (V2_of m c main_arg10 (by decide)).trans <| V1_of m c main_arg10 (by decide)
theorem V9_main_arg11 (c : Dev nD) : V9 m outs c main_arg11 = m ((c : Thread nD τ).loc main_arg11) :=
  (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m c main_arg11 (by decide)).trans <| (V2_of m c main_arg11 (by decide)).trans <| V1_of m c main_arg11 (by decide)
theorem V10_main_arg12 (c : Dev nD) : V10 m outs c main_arg12 = m ((c : Thread nD τ).loc main_arg12) :=
  (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m c main_arg12 (by decide)).trans <| (V2_of m c main_arg12 (by decide)).trans <| V1_of m c main_arg12 (by decide)
theorem V10_main_arg13 (c : Dev nD) : V10 m outs c main_arg13 = m ((c : Thread nD τ).loc main_arg13) :=
  (V10_of m outs c main_arg13 (by decide)).trans <| (V9_of m outs c main_arg13 (by decide)).trans <| (V8_of m outs c main_arg13 (by decide)).trans <| (V7_of m outs c main_arg13 (by decide)).trans <| (V6_of m outs c main_arg13 (by decide)).trans <| (V5_of m outs c main_arg13 (by decide)).trans <| (V4_of m outs c main_arg13 (by decide)).trans <| (V3_of m c main_arg13 (by decide)).trans <| (V2_of m c main_arg13 (by decide)).trans <| V1_of m c main_arg13 (by decide)
theorem V10_main_arg14 (c : Dev nD) : V10 m outs c main_arg14 = m ((c : Thread nD τ).loc main_arg14) :=
  (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m c main_arg14 (by decide)).trans <| (V2_of m c main_arg14 (by decide)).trans <| V1_of m c main_arg14 (by decide)
theorem V10_main_arg15 (c : Dev nD) : V10 m outs c main_arg15 = m ((c : Thread nD τ).loc main_arg15) :=
  (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m c main_arg15 (by decide)).trans <| (V2_of m c main_arg15 (by decide)).trans <| V1_of m c main_arg15 (by decide)
theorem V10_main_arg16 (c : Dev nD) : V10 m outs c main_arg16 = m ((c : Thread nD τ).loc main_arg16) :=
  (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m c main_arg16 (by decide)).trans <| (V2_of m c main_arg16 (by decide)).trans <| V1_of m c main_arg16 (by decide)
theorem V10_main_arg17 (c : Dev nD) : V10 m outs c main_arg17 = m ((c : Thread nD τ).loc main_arg17) :=
  (V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m outs c main_arg17 (by decide)).trans <| (V4_of m outs c main_arg17 (by decide)).trans <| (V3_of m c main_arg17 (by decide)).trans <| (V2_of m c main_arg17 (by decide)).trans <| V1_of m c main_arg17 (by decide)
theorem V10_main_arg18 (c : Dev nD) : V10 m outs c main_arg18 = m ((c : Thread nD τ).loc main_arg18) :=
  (V10_of m outs c main_arg18 (by decide)).trans <| (V9_of m outs c main_arg18 (by decide)).trans <| (V8_of m outs c main_arg18 (by decide)).trans <| (V7_of m outs c main_arg18 (by decide)).trans <| (V6_of m outs c main_arg18 (by decide)).trans <| (V5_of m outs c main_arg18 (by decide)).trans <| (V4_of m outs c main_arg18 (by decide)).trans <| (V3_of m c main_arg18 (by decide)).trans <| (V2_of m c main_arg18 (by decide)).trans <| V1_of m c main_arg18 (by decide)
theorem V10_main_arg19 (c : Dev nD) : V10 m outs c main_arg19 = m ((c : Thread nD τ).loc main_arg19) :=
  (V10_of m outs c main_arg19 (by decide)).trans <| (V9_of m outs c main_arg19 (by decide)).trans <| (V8_of m outs c main_arg19 (by decide)).trans <| (V7_of m outs c main_arg19 (by decide)).trans <| (V6_of m outs c main_arg19 (by decide)).trans <| (V5_of m outs c main_arg19 (by decide)).trans <| (V4_of m outs c main_arg19 (by decide)).trans <| (V3_of m c main_arg19 (by decide)).trans <| (V2_of m c main_arg19 (by decide)).trans <| V1_of m c main_arg19 (by decide)

/-- What a region left in its output array is what the next items find there. -/
theorem V4_main_v18 (c : Dev nD) : V4 m outs c main_v18 = outs 4 main_v18 c := Function.update_self _ _ _
theorem V6_main_v18 (c : Dev nD) : V6 m outs c main_v18 = outs 4 main_v18 c :=
  (V6_of m outs c main_v18 (by decide)).trans <| (V5_of m outs c main_v18 (by decide)).trans <| V4_main_v18 m outs c
theorem V7_main_v32 (c : Dev nD) : V7 m outs c main_v32 = outs 7 main_v32 c := Function.update_self _ _ _
theorem V9_main_v32 (c : Dev nD) : V9 m outs c main_v32 = outs 7 main_v32 c :=
  (V9_of m outs c main_v32 (by decide)).trans <| (V8_of m outs c main_v32 (by decide)).trans <| V7_main_v32 m outs c
theorem V10_main_v46 (c : Dev nD) : V10 m outs c main_v46 = outs 10 main_v46 c := Function.update_self _ _ _
theorem V11_main_v47 (c : Dev nD) : V11 m outs c main_v47 = outs 11 main_v47 c := Function.update_self _ _ _
theorem V12_main_v48 (c : Dev nD) : V12 m outs c main_v48 = outs 12 main_v48 c := Function.update_self _ _ _

/-- Before the first layer: the mean array is the neighbour mean of the input features. -/
theorem stage0 (c : Dev nD) : V3 m c main_v17 = kerMean0 (m ((c : Thread nD τ).loc main_arg0)) (m ((c : Thread nD τ).loc main_arg1)) := by
  have e1 : V3 m c main_v17 = mean32 (V2 m c main_v5) (V2 m c main_v3) := ops0_2_v17 _
  have e2 : V2 m c main_v5 = take32 (V1 m c main_arg0) (V1 m c main_v1) := ops0_1_v5 _
  rw [e1, e2, V2_dst, V1_main_arg0, V1_src]
  rfl

/-- Before the second layer: the mean array is the neighbour mean of what the first layer left. -/
theorem stage1 (c : Dev nD) : V6 m outs c main_v31 = kerMean1 (outs 4 main_v18 c) (m ((c : Thread nD τ).loc main_arg1)) := by
  have e1 : V6 m outs c main_v31 = mean128 (V5 m outs c main_v19) (V5 m outs c main_v3) := ops1_1_v31 _
  have e2 : V5 m outs c main_v19 = take128 (V4 m outs c main_v18) (V4 m outs c main_v1) := ops1_v19 _
  rw [e1, e2, V5_dst, V4_main_v18, V4_src]
  rfl

/-- Before the third layer: the mean array is the neighbour mean of what the second layer left. -/
theorem stage2 (c : Dev nD) : V9 m outs c main_v45 = kerMean1 (outs 7 main_v32 c) (m ((c : Thread nD τ).loc main_arg1)) := by
  have e1 : V9 m outs c main_v45 = mean128 (V8 m outs c main_v33) (V8 m outs c main_v3) := ops2_1_v45 _
  have e2 : V8 m outs c main_v33 = take128 (V7 m outs c main_v32) (V7 m outs c main_v1) := ops2_v33 _
  rw [e1, e2, V8_dst, V7_main_v32, V7_src]
  rfl

end Stages

/-! ## The same terms under the names of the lookup lemmas -/

section Bridge

variable (m : (ℓ : Loc nD τ sig) → Buf (Elt Ideal) ℓ) (outs : Outs (F := Ideal))

theorem kerMean0_eq_takeMean0 (x : Vec Ideal S100000x32 .f32) (ei : IVec S2x1600000 32) : kerMean0 (F := Ideal) x ei = takeMean0 x ei := rfl
theorem kerMean1_eq_takeMean1 (h : Vec Ideal S100000x128 .f32) (ei : IVec S2x1600000 32) : kerMean1 (F := Ideal) h ei = takeMean1 h ei := rfl
theorem srcIds_eq_kerIds (ei : IVec S2x1600000 32) : srcIds ei = kerIds ei := rfl
theorem dstIds_eq_kerDst (ei : IVec S2x1600000 32) : dstIds ei = kerDst ei := rfl

theorem stage0_take (c : Dev nD) : V3 m c main_v17 = takeMean0 (m ((c : Thread nD τ).loc main_arg0)) (m ((c : Thread nD τ).loc main_arg1)) :=
  stage0 m c
theorem stage1_take (c : Dev nD) : V6 m outs c main_v31 = takeMean1 (outs 4 main_v18 c) (m ((c : Thread nD τ).loc main_arg1)) :=
  stage1 m outs c
theorem stage2_take (c : Dev nD) : V9 m outs c main_v45 = takeMean1 (outs 7 main_v32 c) (m ((c : Thread nD τ).loc main_arg1)) :=
  stage2 m outs c

end Bridge

end Cert.KernelIdeal.Val
-- ==== Proof.ValKernelIdeal.Pre.lean ====
/-
  The precondition read back: the last conjunct of the printed predicate says every source node id (row 0 of the
  edge array) lies in [-100000, 100000) as a signed 32-bit word.
-/
import proofs.«418012_j44109314130143_1_alg».proof.Defs
import Idealize.ShloMosaic.Lib.ReduceAll
import Idealize.ShloMosaic.Lib.Pipeline.Value
import Idealize.ShloMosaic.Lib.ValueIdx
import Idealize.ShloMosaic.Lib.StableHlo.Predicate

noncomputable section

namespace Cert.KernelIdeal.Val

open Idealize.ShloMosaic Idealize.SL.Sem

section Pre

open Cert.Pre_finite_inputs Cert.Pre_finite_inputs.Facts

variable [hP : Cert.Pre_finite_inputs.Facts]

/-- Row 0 of the edge array as a vector: the source ids. -/
def preSrc (a1 : IVec Cert.Pre_finite_inputs.S2x1600000 32) : IVec Cert.Pre_finite_inputs.S1600000 32 :=
  shapeCast Cert.Pre_finite_inputs.S1600000 ((extractStridedSlice Cert.Pre_finite_inputs.S1x1600000 ![0, 0] · slices_S2x1600000_S1x1600000_0_0) a1) shapeCasts_S1x1600000_S1600000

/-- The predicate's last conjunct: all source ids are ≥ -100000 and < 100000. -/
def srcOk (a1 : IVec Cert.Pre_finite_inputs.S2x1600000 32) : IVec Cert.Pre_finite_inputs.S_ 1 :=
  Host.reduce IntOp.andi
    (andi (cmpi .sge (preSrc a1) (broadcastInDim Cert.Pre_finite_inputs.S1600000 ![] bcast_S_S1600000 (constantI Cert.Pre_finite_inputs.S_ 32 4294867296#32)))
          (cmpi .slt (preSrc a1) (broadcastInDim Cert.Pre_finite_inputs.S1600000 ![] bcast_S_S1600000 (constantI Cert.Pre_finite_inputs.S_ 32 100000#32))))
    (constantI Cert.Pre_finite_inputs.S_ 1 1#1) reducesTo_S1600000_S_d0 h_S_

end Pre

variable [hP : Cert.Pre_finite_inputs.Facts]

theorem pre_last (m : (ℓ : Loc Cert.KernelIdeal.nD Cert.KernelIdeal.τ Cert.KernelIdeal.sig) → Buf (Elt Ideal) ℓ)
    (h : Cert.Pre_KernelIdeal m) (c : Dev Cert.KernelIdeal.nD) :
    srcOk (m ((c.tc : Thread Cert.KernelIdeal.nD Cert.KernelIdeal.τ).loc Cert.KernelIdeal.main_arg1)) ValueIdx.ix0 = 1#1 := by
  have h0 := congrFun (h c) ValueIdx.ix0
  exact (IntOp.andi_eq_one.1 h0).2

/-- The source ids read at an edge: row 0 of the edge array. -/
theorem preSrc_apply (a1 : IVec Cert.Pre_finite_inputs.S2x1600000 32) (e : Fin 1600000) :
    preSrc a1 (ValueIdx.ix1 e) = a1 (ValueIdx.ix2 (0 : Fin 2) e) := by
  unfold preSrc
  rw [shapeCast_apply _ Cert.Pre_finite_inputs.Facts.shapeCasts_S1x1600000_S1600000 (ValueIdx.ix1 e) (ValueIdx.ix2 (0 : Fin 1) e)
    (by rewrite [Shape.rowMajor_val_two, Shape.rowMajor_val_one]; show 0 * 1600000 + e.val = e.val; omega)]
  exact extractStridedSlice_apply ![0, 0] a1 Cert.Pre_finite_inputs.Facts.slices_S2x1600000_S1x1600000_0_0 _ (ValueIdx.ix2 (0 : Fin 2) e) (fun a => match a with
    | ⟨0, _⟩ => by show (0 : Nat) = 0 + 0; omega
    | ⟨1, _⟩ => by show e.val = 0 + e.val; omega)

/-- Under the precondition every source id is in [-100000, 100000). -/
theorem src_range (m : (ℓ : Loc Cert.KernelIdeal.nD Cert.KernelIdeal.τ Cert.KernelIdeal.sig) → Buf (Elt Ideal) ℓ)
    (h : Cert.Pre_KernelIdeal m) (c : Dev Cert.KernelIdeal.nD) (e : Fin 1600000) :
    -100000 ≤ (m ((c.tc : Thread Cert.KernelIdeal.nD Cert.KernelIdeal.τ).loc Cert.KernelIdeal.main_arg1) (ValueIdx.ix2 (0 : Fin 2) e)).toInt
      ∧ (m ((c.tc : Thread Cert.KernelIdeal.nD Cert.KernelIdeal.τ).loc Cert.KernelIdeal.main_arg1) (ValueIdx.ix2 (0 : Fin 2) e)).toInt < 100000 := by
  have h1 := pre_last m h c
  haveI hS : Subsingleton Cert.Pre_finite_inputs.S_.Idx := ⟨fun a b => funext fun d => d.elim0⟩
  unfold srcOk at h1
  have h2 := Host.reduce_andi_all _ _ _ _ _ h1 (ValueIdx.ix1 e)
  obtain ⟨ha, hb⟩ := IntOp.andi_eq_one.1 h2
  have ha' : IntOp.cmpi .sge (preSrc (m ((c.tc : Thread Cert.KernelIdeal.nD Cert.KernelIdeal.τ).loc Cert.KernelIdeal.main_arg1)) (ValueIdx.ix1 e)) 4294867296#32 = 1#1 := ha
  have hb' : IntOp.cmpi .slt (preSrc (m ((c.tc : Thread Cert.KernelIdeal.nD Cert.KernelIdeal.τ).loc Cert.KernelIdeal.main_arg1)) (ValueIdx.ix1 e)) 100000#32 = 1#1 := hb
  rw [preSrc_apply] at ha' hb'
  generalize m ((c.tc : Thread Cert.KernelIdeal.nD Cert.KernelIdeal.τ).loc Cert.KernelIdeal.main_arg1) (ValueIdx.ix2 (0 : Fin 2) e) = w at ha' hb' ⊢
  have e1 : (4294867296#32 : BitVec 32).toInt = -100000 := by decide
  have e2 : (100000#32 : BitVec 32).toInt = 100000 := by decide
  simp only [IntOp.cmpi, BitVec.sle, BitVec.slt, e1, e2] at ha' hb'
  have ha2 := (StableHlo.Predicate.ofBool_eq_one_iff _).1 ha'
  have hb2 := (StableHlo.Predicate.ofBool_eq_one_iff _).1 hb'
  exact ⟨of_decide_eq_true ha2, of_decide_eq_true hb2⟩

end Cert.KernelIdeal.Val
-- ==== Proof.ValKernelIdeal.Dense0.lean ====
/-
  The value of the first neighbour-mean layer's dense half, relu(mean · Wl + x · Wr + bl) with 32 input features, as
  the pipeline computes it: 50 grid points, point t working on rows 2000 t … 2000 t + 1999.  Everything is read at the
  exact instance, where a float is an extended real, a format change is the identity, and a block product into a zero
  accumulator and the host's product are both the plain sum Σ_k a[r, k] · b[k, j].

  Three parts.  The entry the body stores at row p, column q of its block, as a function of the five blocks it loads
  (`pay0_apply`).  The reference's dense half as one function `refDense0` of the five arrays it reads, the same
  operations in the reference's own order, and its entry at row r, column q (`refDense0_apply`).  The two agree when
  the blocks are rows 2000 t + p of the arrays: the kernel adds (mean·Wl + x·Wr) + bl and the reference
  (mean·Wl + bl) + x·Wr, and addition of extended reals is commutative and associative (`point0`).  From there to the
  array: point t writes back block t of `refDense0` of the arrays as the region finds them (`flushed0_eq`), row r of
  the result lies in the block of point r / 2000 (`cover0`), so the result array ends holding `refDense0` (`final0`).
-/
import proofs.«418012_j44109314130143_1_alg».proof.Proof.HandKernelIdeal.Sage0
import proofs.«418012_j44109314130143_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The block product of region 0 at an entry -/

theorem mm0_lhs_0 (i : S2000x128.Idx) (q : dot_S2000x32_S32x128_S2000x128_1_0_0_1_n_n.contr.Idx) :
    (dot_S2000x32_S32x128_S2000x128_1_0_0_1_n_n.lhsIdx i q 0).val = (i 0).val := by
  unfold DotDims.lhsIdx
  rw [dif_neg (show ¬(0 : Fin S2000x32.rank) ∈ dot_S2000x32_S32x128_S2000x128_1_0_0_1_n_n.lhsBatch by decide), dif_pos (show (0 : Fin S2000x32.rank) ∈ dot_S2000x32_S32x128_S2000x128_1_0_0_1_n_n.lhsNonContracting by decide)]
  rfl
theorem mm0_lhs_1 (i : S2000x128.Idx) (q : dot_S2000x32_S32x128_S2000x128_1_0_0_1_n_n.contr.Idx) :
    (dot_S2000x32_S32x128_S2000x128_1_0_0_1_n_n.lhsIdx i q 1).val = (q ⟨0, by decide⟩).val :=
  dot_S2000x32_S32x128_S2000x128_1_0_0_1_n_n.lhsIdx_val_of_single rfl i q
theorem mm0_rhs_0 (i : S2000x128.Idx) (q : dot_S2000x32_S32x128_S2000x128_1_0_0_1_n_n.contr.Idx) :
    (dot_S2000x32_S32x128_S2000x128_1_0_0_1_n_n.rhsIdx i q 0).val = (q ⟨0, by decide⟩).val :=
  dot_S2000x32_S32x128_S2000x128_1_0_0_1_n_n.rhsIdx_val_of_single rfl i q
theorem mm0_rhs_1 (i : S2000x128.Idx) (q : dot_S2000x32_S32x128_S2000x128_1_0_0_1_n_n.contr.Idx) :
    (dot_S2000x32_S32x128_S2000x128_1_0_0_1_n_n.rhsIdx i q 1).val = (i 1).val := by
  unfold DotDims.rhsIdx
  rw [dif_neg (show ¬(1 : Fin S32x128.rank) ∈ dot_S2000x32_S32x128_S2000x128_1_0_0_1_n_n.rhsBatch by decide), dif_pos (show (1 : Fin S32x128.rank) ∈ dot_S2000x32_S32x128_S2000x128_1_0_0_1_n_n.rhsNonContracting by decide)]
  rfl

/-- A block product into a zero accumulator, at row `p` and column `q`: the row of the left block against the column of
    the right one. -/
theorem mm0_apply {φ₁ φ₂ : FTy} (a : FVec Ideal S2000x32 φ₁) (b : FVec Ideal S32x128 φ₂) (p : Fin 2000) (q : Fin 128) :
    matmul dot_S2000x32_S32x128_S2000x128_1_0_0_1_n_n none a b (constant S2000x128 .f32 0x00000000#32) (ix2 p q)
      = ∑ k : Fin 32, a (ix2 p k) * b (ix2 k q) := by
  simp only [matmul]
  rw [Ideal.matmul_constant_zero_apply, ← Equiv.sum_comp (ValueIdx.contrEquiv1 dot_S2000x32_S32x128_S2000x128_1_0_0_1_n_n 32 rfl rfl).symm]
  refine Finset.sum_congr rfl fun k _ => ?_
  have hk := ValueIdx.contrEquiv1_symm_val dot_S2000x32_S32x128_S2000x128_1_0_0_1_n_n 32 rfl rfl k
  have el : dot_S2000x32_S32x128_S2000x128_1_0_0_1_n_n.lhsIdx (ix2 p q) ((ValueIdx.contrEquiv1 dot_S2000x32_S32x128_S2000x128_1_0_0_1_n_n 32 rfl rfl).symm k) = ix2 p k := funext fun a => Fin.ext (by
    match a with
    | ⟨0, _⟩ => exact mm0_lhs_0 _ _
    | ⟨1, _⟩ => exact (mm0_lhs_1 _ _).trans hk)
  have er : dot_S2000x32_S32x128_S2000x128_1_0_0_1_n_n.rhsIdx (ix2 p q) ((ValueIdx.contrEquiv1 dot_S2000x32_S32x128_S2000x128_1_0_0_1_n_n 32 rfl rfl).symm k) = ix2 k q := funext fun a => Fin.ext (by
    match a with
    | ⟨0, _⟩ => exact (mm0_rhs_0 _ _).trans hk
    | ⟨1, _⟩ => exact mm0_rhs_1 _ _)
  rw [el, er]

/-- What the body stores, at row `p` and column `q` of its block: the two block products added, the bias added, and the
    maximum with zero taken. -/
theorem pay0_apply (v0 v3 : Vec Ideal S2000x32 .f32) (v5 v7 : Vec Ideal S32x128 .f32) (v12 : Vec Ideal S128 .f32)
    (p : Fin 2000) (q : Fin 128) :
    k0_pay1 (F := Ideal) v0 v3 v5 v7 v12 (ix2 p q)
      = max (((∑ k : Fin 32, v0 (ix2 p k) * v5 (ix2 k q)) + ∑ k : Fin 32, v3 (ix2 p k) * v7 (ix2 k q)) + v12 (ix1 q))
          (Ideal.ofBits .f32 0x00000000#32) := by
  unfold k0_pay1
  simp only [shapeCast_self]
  rw [maximumf_apply, addf_apply, addf_apply, mm0_apply, mm0_apply, broadcastTo_1b_ab_apply, shapeCast_a_1a_apply]
  rfl

/-! ## The reference's dense half of the layer -/

/-- The reference's dense half of layer 0 as a function of the five arrays it reads: the aggregated mean times the
    neighbour weights, the bias broadcast along the rows added, the layer's input times the root weights added, and the
    maximum with a broadcast zero. -/
def refDense0 (mean x : Vec Ideal S100000x32 .f32) (Wl Wr : Vec Ideal S32x128 .f32) (bl : Vec Ideal S128 .f32) :
    Vec Ideal S100000x128 .f32 :=
  maximumf
    (addf
      (addf (Host.dotGeneral (φ₁ := .f32) (φ₂ := .f32) Cert.ReferenceIdeal.dot_S100000x32_S32x128_S100000x128_1_0_0_1_n_n none mean Wl)
        (broadcastInDim S100000x128 ![0, 1] Cert.ReferenceIdeal.Facts₀.bcast_S1x128_S100000x128_0_1
          (broadcastInDim S1x128 ![1] Cert.ReferenceIdeal.Facts₀.bcast_S128_S1x128_1 bl)))
      (Host.dotGeneral (φ₁ := .f32) (φ₂ := .f32) Cert.ReferenceIdeal.dot_S100000x32_S32x128_S100000x128_1_0_0_1_n_n none x Wr))
    (broadcastInDim S100000x128 ![] Cert.ReferenceIdeal.Facts₀.bcast_S_S100000x128 (constant (F := Ideal) S_ .f32 0x00000000#32))

theorem dg0_lhs_0 (i : S100000x128.Idx) (q : Cert.ReferenceIdeal.dot_S100000x32_S32x128_S100000x128_1_0_0_1_n_n.contr.Idx) :
    (Cert.ReferenceIdeal.dot_S100000x32_S32x128_S100000x128_1_0_0_1_n_n.lhsIdx i q 0).val = (i 0).val := by
  unfold DotDims.lhsIdx
  rw [dif_neg (show ¬(0 : Fin S100000x32.rank) ∈ Cert.ReferenceIdeal.dot_S100000x32_S32x128_S100000x128_1_0_0_1_n_n.lhsBatch by decide), dif_pos (show (0 : Fin S100000x32.rank) ∈ Cert.ReferenceIdeal.dot_S100000x32_S32x128_S100000x128_1_0_0_1_n_n.lhsNonContracting by decide)]
  rfl
theorem dg0_lhs_1 (i : S100000x128.Idx) (q : Cert.ReferenceIdeal.dot_S100000x32_S32x128_S100000x128_1_0_0_1_n_n.contr.Idx) :
    (Cert.ReferenceIdeal.dot_S100000x32_S32x128_S100000x128_1_0_0_1_n_n.lhsIdx i q 1).val = (q ⟨0, by decide⟩).val :=
  Cert.ReferenceIdeal.dot_S100000x32_S32x128_S100000x128_1_0_0_1_n_n.lhsIdx_val_of_single rfl i q
theorem dg0_rhs_0 (i : S100000x128.Idx) (q : Cert.ReferenceIdeal.dot_S100000x32_S32x128_S100000x128_1_0_0_1_n_n.contr.Idx) :
    (Cert.ReferenceIdeal.dot_S100000x32_S32x128_S100000x128_1_0_0_1_n_n.rhsIdx i q 0).val = (q ⟨0, by decide⟩).val :=
  Cert.ReferenceIdeal.dot_S100000x32_S32x128_S100000x128_1_0_0_1_n_n.rhsIdx_val_of_single rfl i q
theorem dg0_rhs_1 (i : S100000x128.Idx) (q : Cert.ReferenceIdeal.dot_S100000x32_S32x128_S100000x128_1_0_0_1_n_n.contr.Idx) :
    (Cert.ReferenceIdeal.dot_S100000x32_S32x128_S100000x128_1_0_0_1_n_n.rhsIdx i q 1).val = (i 1).val := by
  unfold DotDims.rhsIdx
  rw [dif_neg (show ¬(1 : Fin S32x128.rank) ∈ Cert.ReferenceIdeal.dot_S100000x32_S32x128_S100000x128_1_0_0_1_n_n.rhsBatch by decide), dif_pos (show (1 : Fin S32x128.rank) ∈ Cert.ReferenceIdeal.dot_S100000x32_S32x128_S100000x128_1_0_0_1_n_n.rhsNonContracting by decide)]
  rfl

/-- The host's product of a 100000-row array with a weight matrix, at row `r` and column `q`. -/
theorem dg0_apply (a : FVec Ideal S100000x32 .f32) (b : FVec Ideal S32x128 .f32) (r : Fin 100000) (q : Fin 128) :
    Host.dotGeneral Cert.ReferenceIdeal.dot_S100000x32_S32x128_S100000x128_1_0_0_1_n_n none a b (ix2 r q)
      = ∑ k : Fin 32, a (ix2 r k) * b (ix2 k q) := by
  simp only [Host.dotGeneral]
  rw [Ideal.dotGeneral_apply, ← Equiv.sum_comp (ValueIdx.contrEquiv1 Cert.ReferenceIdeal.dot_S100000x32_S32x128_S100000x128_1_0_0_1_n_n 32 rfl rfl).symm]
  refine Finset.sum_congr rfl fun k _ => ?_
  have hk := ValueIdx.contrEquiv1_symm_val Cert.ReferenceIdeal.dot_S100000x32_S32x128_S100000x128_1_0_0_1_n_n 32 rfl rfl k
  have el : Cert.ReferenceIdeal.dot_S100000x32_S32x128_S100000x128_1_0_0_1_n_n.lhsIdx (ix2 r q) ((ValueIdx.contrEquiv1 Cert.ReferenceIdeal.dot_S100000x32_S32x128_S100000x128_1_0_0_1_n_n 32 rfl rfl).symm k) = ix2 r k := funext fun a => Fin.ext (by
    match a with
    | ⟨0, _⟩ => exact dg0_lhs_0 _ _
    | ⟨1, _⟩ => exact (dg0_lhs_1 _ _).trans hk)
  have er : Cert.ReferenceIdeal.dot_S100000x32_S32x128_S100000x128_1_0_0_1_n_n.rhsIdx (ix2 r q) ((ValueIdx.contrEquiv1 Cert.ReferenceIdeal.dot_S100000x32_S32x128_S100000x128_1_0_0_1_n_n 32 rfl rfl).symm k) = ix2 k q := funext fun a => Fin.ext (by
    match a with
    | ⟨0, _⟩ => exact (dg0_rhs_0 _ _).trans hk
    | ⟨1, _⟩ => exact dg0_rhs_1 _ _)
  rw [el, er]

/-- The bias broadcast to one row and then along the rows reads the bias at the column. -/
theorem bias0_apply (bl : Vec Ideal S128 .f32) (r : Fin 100000) (q : Fin 128) :
    broadcastInDim S100000x128 ![0, 1] Cert.ReferenceIdeal.Facts₀.bcast_S1x128_S100000x128_0_1
        (broadcastInDim S1x128 ![1] Cert.ReferenceIdeal.Facts₀.bcast_S128_S1x128_1 bl) (ix2 r q) = bl (ix1 q) :=
  (broadcastInDim_apply _ Cert.ReferenceIdeal.Facts₀.bcast_S1x128_S100000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans
  (broadcastInDim_apply _ Cert.ReferenceIdeal.Facts₀.bcast_S128_S1x128_1 bl (ix2 (0 : Fin 1) q) (ix1 q) (fun a => match a with
    | ⟨0, _⟩ => by show q.val = if (128 : Nat) = 1 then 0 else q.val; rw [if_neg (by decide)]))

/-- The broadcast zero reads the zero word's value everywhere. -/
theorem zero0_apply (i : S100000x128.Idx) :
    broadcastInDim S100000x128 ![] Cert.ReferenceIdeal.Facts₀.bcast_S_S100000x128 (constant (F := Ideal) S_ .f32 0x00000000#32) i
      = Ideal.ofBits .f32 0x00000000#32 :=
  broadcastInDim_apply _ Cert.ReferenceIdeal.Facts₀.bcast_S_S100000x128 _ i ix0 (fun a => a.elim0)

/-- The reference's dense half at row `r` and column `q`. -/
theorem refDense0_apply (mean x : Vec Ideal S100000x32 .f32) (Wl Wr : Vec Ideal S32x128 .f32) (bl : Vec Ideal S128 .f32)
    (r : Fin 100000) (q : Fin 128) :
    refDense0 mean x Wl Wr bl (ix2 r q)
      = max (((∑ k : Fin 32, mean (ix2 r k) * Wl (ix2 k q)) + bl (ix1 q)) + ∑ k : Fin 32, x (ix2 r k) * Wr (ix2 k q))
          (Ideal.ofBits .f32 0x00000000#32) := by
  unfold refDense0
  rw [maximumf_apply, addf_apply, addf_apply, dg0_apply, dg0_apply, bias0_apply, zero0_apply]

/-! ## From the blocks to the array -/

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a; rfl

/-- The windows' index maps at each of the 50 grid points: the two row-blocked inputs and the result are at block row
    `t`, block column 0; the weights and the bias at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The mean window's block at point `t` is rows `2000 t … 2000 t + 1999` of its array. -/
theorem blk0_0_apply (c : Dev nD) (t : Fin cfg0.N) (p : Fin 2000) (k : Fin 32) (r : Fin 100000)
    (hr : r.val = 2000 * t.val + p.val) :
    (iblk0 V c 0 t : Vec Ideal S2000x32 .f32) (ix2 p k) = (V c main_v17 : Vec Ideal S100000x32 .f32) (ix2 r k) := by
  obtain ⟨e0, e1, -⟩ := idx_facts0 t
  unfold iblk0
  rw [View.read_apply]
  show V c main_v17 _ = V c main_v17 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 32 + 1 * k.val = k.val; rw [e1]; omega

/-- The input window's block at point `t` is the same rows of the layer's input array. -/
theorem blk0_1_apply (c : Dev nD) (t : Fin cfg0.N) (p : Fin 2000) (k : Fin 32) (r : Fin 100000)
    (hr : r.val = 2000 * t.val + p.val) :
    (iblk0 V c 1 t : Vec Ideal S2000x32 .f32) (ix2 p k) = (V c main_arg0 : Vec Ideal S100000x32 .f32) (ix2 r k) := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 32 + 1 * k.val = k.val; rw [e1]; omega

/-- The neighbour weights' block is the whole matrix at every point. -/
theorem blk0_2_eq (c : Dev nD) (t : Fin cfg0.N) :
    (iblk0 V c 2 t : Vec Ideal S32x128 .f32) = (V c main_arg3 : Vec Ideal S32x128 .f32) := by
  obtain ⟨-, -, -, -, e0, e1, -⟩ := idx_facts0 t
  funext y
  unfold iblk0
  rw [View.read_apply]
  show V c main_arg3 _ = V c main_arg3 _
  congr 1
  funext a
  apply Fin.ext
  match a with
  | ⟨0, _⟩ => show win0_2.index t (0 : Fin 2) * 32 + 1 * (y 0).val = (y 0).val; rw [e0]; omega
  | ⟨1, _⟩ => show win0_2.index t (1 : Fin 2) * 128 + 1 * (y 1).val = (y 1).val; rw [e1]; omega

/-- The root weights' block is the whole matrix at every point. -/
theorem blk0_3_eq (c : Dev nD) (t : Fin cfg0.N) :
    (iblk0 V c 3 t : Vec Ideal S32x128 .f32) = (V c main_arg5 : Vec Ideal S32x128 .f32) := by
  obtain ⟨-, -, -, -, -, -, e0, e1, -⟩ := idx_facts0 t
  funext y
  unfold iblk0
  rw [View.read_apply]
  show V c main_arg5 _ = V c main_arg5 _
  congr 1
  funext a
  apply Fin.ext
  match a with
  | ⟨0, _⟩ => show win0_3.index t (0 : Fin 2) * 32 + 1 * (y 0).val = (y 0).val; rw [e0]; omega
  | ⟨1, _⟩ => show win0_3.index t (1 : Fin 2) * 128 + 1 * (y 1).val = (y 1).val; rw [e1]; omega

/-- The bias's block is the whole vector at every point. -/
theorem blk0_4_eq (c : Dev nD) (t : Fin cfg0.N) :
    (iblk0 V c 4 t : Vec Ideal S128 .f32) = (V c main_arg4 : Vec Ideal S128 .f32) := by
  obtain ⟨-, -, -, -, -, -, -, -, e0, -⟩ := idx_facts0 t
  funext y
  unfold iblk0
  rw [View.read_apply]
  show V c main_arg4 _ = V c main_arg4 _
  congr 1
  funext a
  apply Fin.ext
  match a with
  | ⟨0, _⟩ => show win0_4.index t (0 : Fin 1) * 128 + 1 * (y 0).val = (y 0).val; rw [e0]; omega

/-- The kernel's stored entry against the reference's, over blocks that are rows `2000 n + p` of the arrays: the two
    sides add the same three terms, the kernel as (mean·Wl + x·Wr) + bl and the reference as (mean·Wl + bl) + x·Wr. -/
theorem point0 (mean x : Vec Ideal S100000x32 .f32) (Wl Wr : Vec Ideal S32x128 .f32) (bl : Vec Ideal S128 .f32)
    (b0 b1 : Vec Ideal S2000x32 .f32) (b2 b3 : Vec Ideal S32x128 .f32) (b4 : Vec Ideal S128 .f32)
    (p : Fin 2000) (q : Fin 128) (r : Fin 100000)
    (h0 : ∀ k : Fin 32, b0 (ix2 p k) = mean (ix2 r k)) (h1 : ∀ k : Fin 32, b1 (ix2 p k) = x (ix2 r k))
    (h2 : b2 = Wl) (h3 : b3 = Wr) (h4 : b4 = bl) :
    k0_pay1 (F := Ideal) b0 b1 b2 b3 b4 (ix2 p q) = refDense0 mean x Wl Wr bl (ix2 r q) := by
  subst h2 h3 h4
  rw [pay0_apply, refDense0_apply]
  simp only [h0, h1]
  rw [add_right_comm]

/-- What point `t` stores at row `p`, column `q` of its block is the reference's value at the array index under it. -/
theorem flushed0_at (c : Dev nD) (t : Fin cfg0.N) (j : S2000x128.Idx) :
    k0_pay1 (F := Ideal) (iblk0 V c 0 t) (iblk0 V c 1 t) (iblk0 V c 2 t) (iblk0 V c 3 t) (iblk0 V c 4 t) j
      = refDense0 (V c main_v17) (V c main_arg0) (V c main_arg3) (V c main_arg5) (V c main_arg4)
          (((cfg0.win 5).blk t).view.emb j) := by
  obtain ⟨p, q, rfl⟩ : ∃ (p : Fin 2000) (q : Fin 128), j = ix2 p q := ⟨j 0, j 1, eq_ix2 j⟩
  have hN : grid0.N = 50 := N_0
  have ht : t.val < 50 := hN ▸ t.isLt
  have hp : p.val < 2000 := p.isLt
  have hr : 2000 * t.val + p.val < 100000 := by omega
  obtain ⟨-, -, -, -, -, -, -, -, -, e0, e1⟩ := idx_facts0 t
  have he : ((cfg0.win 5).blk t).view.emb (ix2 p q) = (ix2 (⟨2000 * t.val + p.val, hr⟩ : Fin 100000) q : S100000x128.Idx) := by
    funext a
    apply Fin.ext
    match a with
    | ⟨0, _⟩ => show win0_5.index t (0 : Fin 2) * 2000 + 1 * p.val = 2000 * t.val + p.val; rw [e0]; omega
    | ⟨1, _⟩ => show win0_5.index t (1 : Fin 2) * 128 + 1 * q.val = q.val; rw [e1]; omega
  rw [he]
  exact point0 (V c main_v17) (V c main_arg0) (V c main_arg3) (V c main_arg5) (V c main_arg4)
    (iblk0 V c 0 t) (iblk0 V c 1 t) (iblk0 V c 2 t) (iblk0 V c 3 t) (iblk0 V c 4 t) p q ⟨2000 * t.val + p.val, hr⟩
    (fun k => blk0_0_apply V c t p k _ rfl) (fun k => blk0_1_apply V c t p k _ rfl)
    (blk0_2_eq V c t) (blk0_3_eq V c t) (blk0_4_eq V c t)

/-- WHAT POINT `t` WRITES BACK is block `t` of the reference's dense half of the arrays as the region finds them. -/
theorem flushed0_eq (c : Dev nD) (t : Fin cfg0.N) :
    (dat0 (F := Ideal) V c).flushed 5 t = ((cfg0.win 5).blk t).view.read (Elt Ideal)
      (refDense0 (V c main_v17) (V c main_arg0) (V c main_arg3) (V c main_arg5) (V c main_arg4)) := by
  show (cfg0.win 5).cut (grid0.coords t) ((dat0 V c).after 5 t) = _
  rw [after0_5]
  unfold out0_5
  rw [View.canon_unit_zero hz2_0]
  simp only [View.ld_unit_zero (S := S2000x32) hz2_0, View.ld_unit_zero (S := S32x128) hz2_0, View.ld_unit_zero (S := S128) hz1_0]
  funext j
  exact flushed0_at V c t j

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v18).slice (win0_5.rect t)).set ↔ _
  rw [View.set_slice_whole, Rect.mem_set_unit]
  exact Iff.rfl

/-- Row `r` of the result is in the block of point `r / 2000`. -/
theorem cover0 (i : S100000x128.Idx) : ∃ t : Fin cfg0.N, (cfg0.win 5).flush t = true ∧ i ∈ ((cfg0.win 5).blk t).view.set := by
  have hN : grid0.N = 50 := N_0
  have hi0 : (i 0).val < 100000 := (i 0).isLt
  have hi1 : (i 1).val < 128 := (i 1).isLt
  have ht : (i 0).val / 2000 < grid0.N := by rw [hN]; omega
  refine ⟨⟨(i 0).val / 2000, ht⟩, flush0_5 _, ?_⟩
  obtain ⟨-, -, -, -, -, -, -, -, -, e0, e1⟩ := idx_facts0 ⟨(i 0).val / 2000, ht⟩
  rw [mem_blk0]
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000
              rw [e0]; show (i 0).val / 2000 * 2000 ≤ (i 0).val ∧ (i 0).val < (i 0).val / 2000 * 2000 + 2000; omega
  | ⟨1, _⟩ => show win0_5.index ⟨(i 0).val / 2000, ht⟩ (1 : Fin 2) * 128 ≤ (i 1).val ∧ (i 1).val < win0_5.index ⟨(i 0).val / 2000, ht⟩ (1 : Fin 2) * 128 + 128
              rw [e1]; omega

/-- THE RESULT ARRAY after the region: the reference's dense half of the five arrays as the region finds them. -/
theorem final0 (c : Dev nD) :
    (dat0 (F := Ideal) V c).arrAt 5 cfg0.N
      = refDense0 (V c main_v17) (V c main_arg0) (V c main_arg3) (V c main_arg5) (V c main_arg4) :=
  (dat0 (F := Ideal) V c).arrAt_eq_of_cover 5 _ (fun t _ => flushed0_eq V c t) cover0

end Cert.KernelIdeal.Val

end
-- ==== Proof.ValKernelIdeal.HeadRow.lean ====
/-
  The arithmetic of the output head on ONE row of the hidden features, over the extended reals, and the layout
  facts that bring a block of rows (or the whole array of rows) down to it.

  A row `hr` of 128 features gives the head's three columns `rowMain hr Wfc bfc j = Σ_k hr k · Wfc[k, j] + bfc[j]`;
  columns 0 and 2 feed a perceptron with two hidden layers of 128 rectified units (`rowL1`, `rowL2`) and one
  linear output (`rowL3`); the result row is (column 0, perceptron output, column 2): `headRow`.

  The layout facts are stated for any number of rows `R`, so that a block of 2000 rows and the array of 100000
  rows read through the same lemmas: a plain matrix product (rows × contraction times contraction × columns) at an
  index is the sum over the contraction coordinate (`plain_sum`, and from it a product into a zero accumulator and
  a product without accumulator); two and three one-column arrays joined along the column axis are read at an
  index by the column (`concat2_cols`, `concat3_cols`); a bias vector repeated over the rows, a one-column array read as a
  vector, and a vector stood up as one column, each read at an index (`bias_row_apply`, `squeeze_col_apply`,
  `col_of_vec_apply`).
-/
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx
open scoped BigOperators

/-! ## A plain matrix product at an index -/

/-- The left operand's row is the result's row. -/
theorem plain_lhs0 {M K N : ℕ} (j : (⟨2, ![M, N]⟩ : Shape).Idx) (q : (DotDims.plain M K N).contr.Idx) :
    ((DotDims.plain M K N).lhsIdx j q 0).val = (j 0).val := rfl

/-- The right operand's column is the result's column. -/
theorem plain_rhs1 {M K N : ℕ} (j : (⟨2, ![M, N]⟩ : Shape).Idx) (q : (DotDims.plain M K N).contr.Idx) :
    ((DotDims.plain M K N).rhsIdx j q 1).val = (j 1).val := rfl

/-- The sum over the contraction index of a plain product, at row `p` and column `n`, is the sum over the
    contraction coordinate `k` of the left factor at `(p, k)` times the right factor at `(k, n)`. -/
theorem plain_sum {M K N : ℕ} (L : (⟨2, ![M, K]⟩ : Shape).Idx → EReal) (Rr : (⟨2, ![K, N]⟩ : Shape).Idx → EReal)
    (p : Fin M) (n : Fin N) :
    ∑ k : (DotDims.plain M K N).contr.Idx,
        L ((DotDims.plain M K N).lhsIdx (ix2 p n) k) * Rr ((DotDims.plain M K N).rhsIdx (ix2 p n) k)
      = ∑ k : Fin K, L (ix2 p k) * Rr (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun a => Fin.ext (by
      match a with
      | ⟨0, _⟩ => exact plain_lhs0 _ _
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun a => Fin.ext (by
      match a with
      | ⟨0, _⟩ => exact ((DotDims.plain M K N).rhsIdx_val_of_single rfl _ _).trans hk
      | ⟨1, _⟩ => exact plain_rhs1 _ _)
  rw [el, er]

/-- A plain product accumulated into zeros, at an index. -/
theorem plain_matmul_apply {M K N : ℕ} {φ₁ φ₂ : FTy} (lhs : FVec Ideal ⟨2, ![M, K]⟩ φ₁) (rhs : FVec Ideal ⟨2, ![K, N]⟩ φ₂)
    (p : Fin M) (n : Fin N) :
    FloatOps.matmul (DotDims.plain M K N) none lhs rhs (constant ⟨2, ![M, N]⟩ .f32 0x00000000#32) (ix2 p n)
      = ∑ k : Fin K, lhs (ix2 p k) * rhs (ix2 k n) :=
  (Ideal.matmul_constant_zero_apply _ _ lhs rhs _).trans (plain_sum lhs rhs p n)

/-- A plain product with no accumulator, at an index. -/
theorem plain_dotGeneral_apply {M K N : ℕ} {φ₁ φ₂ : FTy} (sched : HostSchedule) (lhs : FVec Ideal ⟨2, ![M, K]⟩ φ₁)
    (rhs : FVec Ideal ⟨2, ![K, N]⟩ φ₂) (p : Fin M) (n : Fin N) :
    FloatOps.dotGeneral (DotDims.plain M K N) none sched lhs rhs (ix2 p n) = ∑ k : Fin K, lhs (ix2 p k) * rhs (ix2 k n) :=
  (Ideal.dotGeneral_apply _ _ sched lhs rhs _).trans (plain_sum lhs rhs p n)

/-! ## One-column arrays joined along the column axis -/

/-- One of two values, by a column in `0, 1`. -/
def pick2 {α : Type} (a b : α) (k : Fin 2) : α := match k with | ⟨0, _⟩ => a | ⟨1, _⟩ => b

/-- One of three values, by a column in `0, 1, 2`. -/
def pick3 {α : Type} (a b c : α) (q : Fin 3) : α := match q with | ⟨0, _⟩ => a | ⟨1, _⟩ => b | ⟨2, _⟩ => c

/-- Two one-column arrays side by side: column 0 is the first, column 1 the second. -/
theorem concat2_cols {α : Type} {R : ℕ} (a b : (⟨2, ![R, 1]⟩ : Shape).Idx → α)
    (h : Shape.Concatenates [(⟨2, ![R, 1]⟩ : Shape), ⟨2, ![R, 1]⟩] ⟨2, ![R, 2]⟩ 1) (p : Fin R) (k : Fin 2) :
    concatenate ⟨2, ![R, 2]⟩ 1 [⟨⟨2, ![R, 1]⟩, a⟩, ⟨⟨2, ![R, 1]⟩, b⟩] h (ix2 p k)
      = pick2 (a (ix2 p 0)) (b (ix2 p 0)) k := by
  match k with
  | ⟨0, _⟩ =>
    exact concatenate_pair_apply_left 1 a b h (ix2 p 0) rfl (ix2 p 0)
      (fun c => by match c with | ⟨0, _⟩ => rfl | ⟨1, _⟩ => rfl)
  | ⟨1, _⟩ =>
    exact concatenate_pair_apply_right 1 a b h (ix2 p 1) rfl rfl (ix2 p 0)
      (fun c hc => by match c with | ⟨0, _⟩ => rfl | ⟨1, _⟩ => exact absurd rfl hc) rfl

/-- Three one-column arrays side by side: column `q` is the `q`-th. -/
theorem concat3_cols {α : Type} {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ 1) (p : Fin R) (q : Fin 3) :
    concatenate ⟨2, ![R, 3]⟩ 1 [⟨⟨2, ![R, 1]⟩, a⟩, ⟨⟨2, ![R, 1]⟩, b⟩, ⟨⟨2, ![R, 1]⟩, c⟩] h (ix2 p q)
      = pick3 (a (ix2 p 0)) (b (ix2 p 0)) (c (ix2 p 0)) q := by
  match q with
  | ⟨0, _⟩ =>
    exact concatenate_apply_piece 1 [⟨⟨2, ![R, 1]⟩, a⟩, ⟨⟨2, ![R, 1]⟩, b⟩, ⟨⟨2, ![R, 1]⟩, c⟩] h (ix2 p 0) 0 (by show (0 : ℕ) < 3; omega) _ a rfl rfl 0 rfl (ix2 p 0)
      (fun d hd => by match d with | ⟨0, _⟩ => rfl | ⟨1, _⟩ => exact absurd rfl hd) rfl
  | ⟨1, _⟩ =>
    exact concatenate_apply_piece 1 [⟨⟨2, ![R, 1]⟩, a⟩, ⟨⟨2, ![R, 1]⟩, b⟩, ⟨⟨2, ![R, 1]⟩, c⟩] h (ix2 p 1) 1 (by show (1 : ℕ) < 3; omega) _ b rfl rfl 1 rfl (ix2 p 0)
      (fun d hd => by match d with | ⟨0, _⟩ => rfl | ⟨1, _⟩ => exact absurd rfl hd) rfl
  | ⟨2, _⟩ =>
    exact concatenate_apply_piece 1 [⟨⟨2, ![R, 1]⟩, a⟩, ⟨⟨2, ![R, 1]⟩, b⟩, ⟨⟨2, ![R, 1]⟩, c⟩] h (ix2 p 2) 2 (by show (2 : ℕ) < 3; omega) _ c rfl rfl 2 rfl (ix2 p 0)
      (fun d hd => by match d with | ⟨0, _⟩ => rfl | ⟨1, _⟩ => exact absurd rfl hd) rfl

/-! ## A bias row, a squeezed column, a vector stood up as a column -/

/-- A vector of `N` biases made a `1 × N` row and repeated over `R` rows reads, at `(r, n)`, bias `n`. -/
theorem bias_row_apply {α : Type} {R N : ℕ} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![R, N]⟩ ![0, 1])
    (r : Fin R) (n : Fin N) :
    broadcastInDim ⟨2, ![R, N]⟩ ![0, 1] h2 (broadcastInDim ⟨2, ![1, N]⟩ ![1] h1 b) (ix2 r n) = b (ix1 n) := by
  have hn := n.isLt
  refine (broadcastInDim_apply _ h2 _ (ix2 r n) (ix2 (0 : Fin 1) n) (fun a => ?_)).trans
    (broadcastInDim_apply _ h1 b (ix2 (0 : Fin 1) n) (ix1 n) (fun a => ?_))
  · match a with
    | ⟨0, _⟩ => show 0 = if (1 : ℕ) = 1 then 0 else r.val; rw [if_pos rfl]
    | ⟨1, _⟩ => show n.val = if N = 1 then 0 else n.val; split <;> omega
  · match a with
    | ⟨0, _⟩ => show n.val = if N = 1 then 0 else n.val; split <;> omega

/-- An `R × 1` array read as a vector of `R`: entry `r` is the array at `(r, 0)`. -/
theorem squeeze_col_apply {α : Type} {R : ℕ} (x : (⟨2, ![R, 1]⟩ : Shape).Idx → α)
    (h : (⟨2, ![R, 1]⟩ : Shape).ShapeCasts ⟨1, ![R]⟩) (r : Fin R) :
    shapeCast ⟨1, ![R]⟩ x h (ix1 r) = x (ix2 r 0) :=
  shapeCast_apply x h _ _ (by
    rw [Shape.rowMajor_val_two, Shape.rowMajor_val_one]
    show r.val * 1 + 0 = r.val
    omega)

/-- A vector of `R` stood up as an `R × 1` array: row `r` is entry `r`. -/
theorem col_of_vec_apply {α : Type} {R : ℕ} (a : (⟨1, ![R]⟩ : Shape).Idx → α)
    (h : (⟨1, ![R]⟩ : Shape).BroadcastsInDim ⟨2, ![R, 1]⟩ ![0]) (r : Fin R) (u : Fin 1) :
    broadcastInDim ⟨2, ![R, 1]⟩ ![0] h a (ix2 r u) = a (ix1 r) := by
  have hr := r.isLt
  refine broadcastInDim_apply _ h a (ix2 r u) (ix1 r) (fun c => ?_)
  match c with
  | ⟨0, _⟩ => show r.val = if R = 1 then 0 else r.val; split <;> omega

/-! ## The head on one row -/

/-- The head's column `j` on the row `hr`: `Σ_k hr k · Wfc[k, j] + bfc[j]`. -/
def rowMain (hr : Fin 128 → EReal) (Wfc : (⟨2, ![128, 3]⟩ : Shape).Idx → EReal) (bfc : (⟨1, ![3]⟩ : Shape).Idx → EReal)
    (j : Fin 3) : EReal :=
  (∑ k : Fin 128, hr k * Wfc (ix2 k j)) + bfc (ix1 j)

/-- The perceptron's first hidden layer on the pair `(a, b)`: unit `n` is `max (a · Wa1[0, n] + b · Wa1[1, n] + ba1[n]) 0`. -/
def rowL1 (a b : EReal) (Wa1 : (⟨2, ![2, 128]⟩ : Shape).Idx → EReal) (ba1 : (⟨1, ![128]⟩ : Shape).Idx → EReal)
    (n : Fin 128) : EReal :=
  max ((∑ k : Fin 2, pick2 a b k * Wa1 (ix2 k n)) + ba1 (ix1 n)) (Ideal.ofBits .f32 0x00000000#32)

/-- Its second hidden layer on the first layer's units `u`: unit `n` is `max (Σ_k u k · Wa2[k, n] + ba2[n]) 0`. -/
def rowL2 (u : Fin 128 → EReal) (Wa2 : (⟨2, ![128, 128]⟩ : Shape).Idx → EReal) (ba2 : (⟨1, ![128]⟩ : Shape).Idx → EReal)
    (n : Fin 128) : EReal :=
  max ((∑ k : Fin 128, u k * Wa2 (ix2 k n)) + ba2 (ix1 n)) (Ideal.ofBits .f32 0x00000000#32)

/-- Its output on the second layer's units `u`: `Σ_k u k · Wao[k, 0] + bao[0]`. -/
def rowL3 (u : Fin 128 → EReal) (Wao : (⟨2, ![128, 1]⟩ : Shape).Idx → EReal) (bao : (⟨1, ![1]⟩ : Shape).Idx → EReal) : EReal :=
  (∑ k : Fin 128, u k * Wao (ix2 k 0)) + bao (ix1 0)

/-- The result row: the head's column 0, the perceptron's output on columns 0 and 2, the head's column 2. -/
def headRow (hr : Fin 128 → EReal) (Wfc : (⟨2, ![128, 3]⟩ : Shape).Idx → EReal) (bfc : (⟨1, ![3]⟩ : Shape).Idx → EReal)
    (Wa1 : (⟨2, ![2, 128]⟩ : Shape).Idx → EReal) (ba1 : (⟨1, ![128]⟩ : Shape).Idx → EReal)
    (Wa2 : (⟨2, ![128, 128]⟩ : Shape).Idx → EReal) (ba2 : (⟨1, ![128]⟩ : Shape).Idx → EReal)
    (Wao : (⟨2, ![128, 1]⟩ : Shape).Idx → EReal) (bao : (⟨1, ![1]⟩ : Shape).Idx → EReal) (q : Fin 3) : EReal :=
  pick3 (rowMain hr Wfc bfc 0)
    (rowL3 (rowL2 (rowL1 (rowMain hr Wfc bfc 0) (rowMain hr Wfc bfc 2) Wa1 ba1) Wa2 ba2) Wao bao)
    (rowMain hr Wfc bfc 2) q

end Cert.KernelIdeal.Val

end
-- ==== Proof.ValKernelIdeal.HeadPay.lean ====
/-
  The head region's stored block, element by element, at the extended reals.

  The body stores one 2000 × 3 block whose value is a tree of operations of the nine blocks it loads: the head's
  product of the 2000 × 128 feature block with the 128 × 3 weight plus its bias (a change of format is the identity
  here, a product into zeros the plain sum over the contracted coordinate), its columns 0 and 2 cut out, the
  perceptron's three products with their biases and the two rectifications on the pair of columns, and the three
  one-column results joined.  Row `p` of every intermediate depends on row `p` of the feature block only, so the
  stored block at `(p, q)` is the head's row function `headRow` of that row (`head_pay1_apply`).
-/
import proofs.«418012_j44109314130143_1_alg».proof.Proof.Gen.KernelIdeal.Skeleton
import proofs.«418012_j44109314130143_1_alg».proof.Proof.ValKernelIdeal.HeadRow

noncomputable section

namespace Cert.KernelIdeal.Val

open Idealize.ShloMosaic Idealize.ShloMosaic.ValueIdx
open scoped BigOperators

open Cert.KernelIdeal Cert.KernelIdeal.Gen

/-- The head's three columns on a block: row `p`, column `j`. -/
theorem head_pay2_apply (x0 : Vec Ideal S2000x128 .f32) (x1 : Vec Ideal S128x3 .f32) (x2 : Vec Ideal S3 .f32) (p : Fin 2000) (j : Fin 3) :
    k3_pay2 x0 x1 x2 (ix2 p j) = rowMain (fun k => x0 (ix2 p k)) x1 x2 j := by
  simp only [k3_pay2]
  unfold rowMain
  rw [addf_apply]
  refine congrArg₂ (· + ·) ?_ ?_
  · refine (plain_matmul_apply (M := 2000) (K := 128) (N := 3) _ _ p j).trans ?_
    rw [shapeCast_self]
    rfl
  · exact (broadcastTo_1b_ab_apply _ _ p j).trans (shapeCast_a_1a_apply _ _ 0 j)

/-- Column 0 of the head on a block. -/
theorem head_pay3_apply (x0 : Vec Ideal S2000x128 .f32) (x1 : Vec Ideal S128x3 .f32) (x2 : Vec Ideal S3 .f32) (p : Fin 2000) :
    k3_pay3 x0 x1 x2 (ix2 p 0) = rowMain (fun k => x0 (ix2 p k)) x1 x2 0 := by
  simp only [k3_pay3]
  exact (slice2_axis1_apply 0 _ _ p 0 (0 : Fin 3) rfl).trans (head_pay2_apply x0 x1 x2 p 0)

/-- Column 2 of the head on a block. -/
theorem head_pay4_apply (x0 : Vec Ideal S2000x128 .f32) (x1 : Vec Ideal S128x3 .f32) (x2 : Vec Ideal S3 .f32) (p : Fin 2000) :
    k3_pay4 x0 x1 x2 (ix2 p 0) = rowMain (fun k => x0 (ix2 p k)) x1 x2 2 := by
  simp only [k3_pay4]
  exact (slice2_axis1_apply 2 _ _ p 0 (2 : Fin 3) rfl).trans (head_pay2_apply x0 x1 x2 p 2)

theorem head_pay5_apply (x0 : Vec Ideal S2000x128 .f32) (x1 : Vec Ideal S128x3 .f32) (x2 : Vec Ideal S3 .f32) (x3 : Vec Ideal S2x128 .f32)
    (x4 : Vec Ideal S128 .f32) (x5 : Vec Ideal S128x128 .f32) (x6 : Vec Ideal S128 .f32) (x7 : Vec Ideal S128x1 .f32) (p : Fin 2000) :
    k3_pay5 x0 x1 x2 x3 x4 x5 x6 x7 (ix2 p 0)
      = ∑ k : Fin 128, rowL2 (rowL1 (rowMain (fun k => x0 (ix2 p k)) x1 x2 0) (rowMain (fun k => x0 (ix2 p k)) x1 x2 2) x3 x4) x5 x6 k
          * x7 (ix2 k 0) := by
  simp only [k3_pay5]
  refine (plain_matmul_apply (M := 2000) (K := 128) (N := 1) _ _ p 0).trans (Finset.sum_congr rfl fun k _ => ?_)
  refine congrArg₂ (· * ·) ?_ rfl
  unfold rowL2
  rw [truncf_apply, maximumf_apply, addf_apply, broadcast_apply]
  refine congrArg₂ max (congrArg₂ (· + ·) ?_ ?_) rfl
  · refine (plain_matmul_apply (M := 2000) (K := 128) (N := 128) _ _ p k).trans (Finset.sum_congr rfl fun m _ => ?_)
    refine congrArg₂ (· * ·) ?_ rfl
    unfold rowL1
    rw [truncf_apply, maximumf_apply, addf_apply, broadcast_apply]
    refine congrArg₂ max (congrArg₂ (· + ·) ?_ ?_) rfl
    · refine (plain_matmul_apply (M := 2000) (K := 2) (N := 128) _ _ p m).trans (Finset.sum_congr rfl fun c _ => ?_)
      refine congrArg₂ (· * ·) ?_ rfl
      rw [truncf_apply]
      refine (concat2_cols _ _ _ p c).trans ?_
      rw [head_pay3_apply, head_pay4_apply]
    · exact (broadcastTo_1b_ab_apply _ _ p m).trans (shapeCast_a_1a_apply _ _ 0 m)
  · exact (broadcastTo_1b_ab_apply _ _ p k).trans (shapeCast_a_1a_apply _ _ 0 k)

/-- The body's stored block at row `p`, column `q`: the head's row function of row `p` of the feature block. -/
theorem head_pay1_apply (x0 : Vec Ideal S2000x128 .f32) (x1 : Vec Ideal S128x3 .f32) (x2 : Vec Ideal S3 .f32) (x3 : Vec Ideal S2x128 .f32)
    (x4 : Vec Ideal S128 .f32) (x5 : Vec Ideal S128x128 .f32) (x6 : Vec Ideal S128 .f32) (x7 : Vec Ideal S128x1 .f32) (x8 : Vec Ideal S1 .f32)
    (p : Fin 2000) (q : Fin 3) :
    k3_pay1 (k3_pay3 x0 x1 x2) (k3_pay4 x0 x1 x2) (k3_pay5 x0 x1 x2 x3 x4 x5 x6 x7) (k3_pay6 x8) (ix2 p q)
      = headRow (fun k => x0 (ix2 p k)) x1 x2 x3 x4 x5 x6 x7 x8 q := by
  simp only [k3_pay1]
  refine (concat3_cols _ _ _ _ p q).trans ?_
  unfold headRow
  have hb : broadcastTo S2000x1 (k3_pay6 x8) broadcasts_S1x1_S2000x1 (ix2 p 0) = x8 (ix1 0) := by
    simp only [k3_pay6]
    exact (broadcastTo_1b_ab_apply _ _ p 0).trans (shapeCast_a_1a_apply _ _ 0 0)
  rw [head_pay3_apply, head_pay4_apply, addf_apply, head_pay5_apply, hb]
  rfl

end Cert.KernelIdeal.Val

end
-- ==== Proof.ValKernelIdeal.HeadRef.lean ====
/-
  The reference's head on the whole array of hidden features, element by element, at the extended reals.

  `refHeadF` is the reference's chain of operations from the hidden features `h` to the 100000 × 3 result, in the
  reference's own operations, grouped in stages: the head `h · Wfc + bfc` (`refMain`), its columns 0 and 2 as
  vectors (`refCol0`, `refCol2`), the two stacked as a two-column array (`refPair`), the perceptron's two rectified
  layers and its output (`refL1`, `refL2`, `refL3`), and the three result columns stacked (`refJoin`).  Each stage
  is read at an index (a product without accumulator is the plain sum over the contracted coordinate), and row `r`
  of the result is the head's row function `headRow` of row `r` of `h` (`refHead_apply`).
-/
import proofs.«418012_j44109314130143_1_alg».proof.Proof.Gen.ReferenceIdeal
import proofs.«418012_j44109314130143_1_alg».proof.Proof.ValKernelIdeal.HeadRow

noncomputable section

namespace Cert.KernelIdeal.Val

open Idealize.ShloMosaic Idealize.ShloMosaic.ValueIdx
open scoped BigOperators

open Cert.ReferenceIdeal Cert.ReferenceIdeal.Gen Idealize.ShloMosaic.StableHlo

section Generic
variable {F : FTy → Type} [FloatOps F]

/-- The head: `h · Wfc + bfc` (the reference's product, the bias made a row and repeated over the rows, their sum). -/
def refMain (h : Vec F S100000x128 .f32) (Wfc : Vec F S128x3 .f32) (bfc : Vec F S3 .f32) : Vec F S100000x3 .f32 :=
  addf (Host.dotGeneral dot_S100000x128_S128x3_S100000x3_1_0_0_1_n_n none h Wfc)
    (broadcastInDim S100000x3 ![0, 1] bcast_S1x3_S100000x3_0_1 (broadcastInDim S1x3 ![1] bcast_S3_S1x3_1 bfc))

/-- Column 0 of the head as a vector (the slice, reshaped). -/
def refCol0 (m : Vec F S100000x3 .f32) : Vec F S100000 .f32 :=
  shapeCast _ (extractStridedSlice S100000x1 ![0, 0] m slices_S100000x3_S100000x1_0_0) shapeCasts_S100000x1_S100000

/-- Column 2 of the head as a vector. -/
def refCol2 (m : Vec F S100000x3 .f32) : Vec F S100000 .f32 :=
  shapeCast _ (extractStridedSlice S100000x1 ![0, 2] m slices_S100000x3_S100000x1_0_2) shapeCasts_S100000x1_S100000

/-- Two vectors stacked as the two columns of one array. -/
def refPair (a b : Vec F S100000 .f32) : Vec F S100000x2 .f32 :=
  concatenate S100000x2 1 [⟨S100000x1, (broadcastInDim S100000x1 ![0] bcast_S100000_S100000x1_0 a)⟩, ⟨S100000x1, (broadcastInDim S100000x1 ![0] bcast_S100000_S100000x1_0 b)⟩] concatenates_S100000x1_S100000x1_S100000x2_d1

/-- The perceptron's first hidden layer: `max (x · Wa1 + ba1) 0`. -/
def refL1 (x : Vec F S100000x2 .f32) (Wa1 : Vec F S2x128 .f32) (ba1 : Vec F S128 .f32) : Vec F S100000x128 .f32 :=
  maximumf (addf (Host.dotGeneral dot_S100000x2_S2x128_S100000x128_1_0_0_1_n_n none x Wa1)
      (broadcastInDim S100000x128 ![0, 1] bcast_S1x128_S100000x128_0_1 (broadcastInDim S1x128 ![1] bcast_S128_S1x128_1 ba1)))
    (broadcastInDim S100000x128 ![] bcast_S_S100000x128 (constant S_ .f32 0x00000000#32))

/-- Its second hidden layer: `max (x · Wa2 + ba2) 0`. -/
def refL2 (x : Vec F S100000x128 .f32) (Wa2 : Vec F S128x128 .f32) (ba2 : Vec F S128 .f32) : Vec F S100000x128 .f32 :=
  maximumf (addf (Host.dotGeneral dot_S100000x128_S128x128_S100000x128_1_0_0_1_n_n none x Wa2)
      (broadcastInDim S100000x128 ![0, 1] bcast_S1x128_S100000x128_0_1 (broadcastInDim S1x128 ![1] bcast_S128_S1x128_1 ba2)))
    (broadcastInDim S100000x128 ![] bcast_S_S100000x128 (constant S_ .f32 0x00000000#32))

/-- Its output as a vector: `x · Wao + bao`, reshaped. -/
def refL3 (x : Vec F S100000x128 .f32) (Wao : Vec F S128x1 .f32) (bao : Vec F S1 .f32) : Vec F S100000 .f32 :=
  shapeCast _ (addf (Host.dotGeneral dot_S100000x128_S128x1_S100000x1_1_0_0_1_n_n none x Wao)
      (broadcastInDim S100000x1 ![0, 1] bcast_S1x1_S100000x1_0_1 (broadcastInDim S1x1 ![1] bcast_S1_S1x1_1 bao))) shapeCasts_S100000x1_S100000

/-- Three vectors stacked as the three columns of one array. -/
def refJoin (a y b : Vec F S100000 .f32) : Vec F S100000x3 .f32 :=
  concatenate S100000x3 1 [⟨S100000x1, (broadcastInDim S100000x1 ![0] bcast_S100000_S100000x1_0 a)⟩, ⟨S100000x1, (broadcastInDim S100000x1 ![0] bcast_S100000_S100000x1_0 y)⟩, ⟨S100000x1, (broadcastInDim S100000x1 ![0] bcast_S100000_S100000x1_0 b)⟩] concatenates_S100000x1_S100000x1_S100000x1_S100000x3_d1

/-- The reference's head on the hidden features `h`, at any float values: the head's columns 0 and 2 around the
    perceptron's output on those two columns. -/
def refHeadF (h : Vec F S100000x128 .f32) (Wfc : Vec F S128x3 .f32) (bfc : Vec F S3 .f32) (Wa1 : Vec F S2x128 .f32) (ba1 : Vec F S128 .f32)
    (Wa2 : Vec F S128x128 .f32) (ba2 : Vec F S128 .f32) (Wao : Vec F S128x1 .f32) (bao : Vec F S1 .f32) : Vec F S100000x3 .f32 :=
  refJoin (refCol0 (refMain h Wfc bfc))
    (refL3 (refL2 (refL1 (refPair (refCol0 (refMain h Wfc bfc)) (refCol2 (refMain h Wfc bfc))) Wa1 ba1) Wa2 ba2) Wao bao)
    (refCol2 (refMain h Wfc bfc))

end Generic

/-- The reference's head at the extended reals. -/
def refHead (h : Vec Ideal S100000x128 .f32) (Wfc : Vec Ideal S128x3 .f32) (bfc : Vec Ideal S3 .f32) (Wa1 : Vec Ideal S2x128 .f32)
    (ba1 : Vec Ideal S128 .f32) (Wa2 : Vec Ideal S128x128 .f32) (ba2 : Vec Ideal S128 .f32) (Wao : Vec Ideal S128x1 .f32)
    (bao : Vec Ideal S1 .f32) : Vec Ideal S100000x3 .f32 :=
  refHeadF (F := Ideal) h Wfc bfc Wa1 ba1 Wa2 ba2 Wao bao

/-! ## The stages at an index -/

theorem refMain_apply (h : Vec Ideal S100000x128 .f32) (Wfc : Vec Ideal S128x3 .f32) (bfc : Vec Ideal S3 .f32) (r : Fin 100000) (j : Fin 3) :
    refMain h Wfc bfc (ix2 r j) = rowMain (fun k => h (ix2 r k)) Wfc bfc j := by
  unfold refMain rowMain
  rw [addf_apply]
  refine congrArg₂ (· + ·) ?_ ?_
  · exact plain_dotGeneral_apply (M := 100000) (K := 128) (N := 3) .single h Wfc r j
  · exact bias_row_apply bfc _ _ r j

theorem refCol0_apply (m : Vec Ideal S100000x3 .f32) (r : Fin 100000) : refCol0 m (ix1 r) = m (ix2 r 0) := by
  unfold refCol0
  exact (squeeze_col_apply _ _ r).trans (slice2_axis1_apply 0 m _ r 0 (0 : Fin 3) rfl)

theorem refCol2_apply (m : Vec Ideal S100000x3 .f32) (r : Fin 100000) : refCol2 m (ix1 r) = m (ix2 r 2) := by
  unfold refCol2
  exact (squeeze_col_apply _ _ r).trans (slice2_axis1_apply 2 m _ r 0 (2 : Fin 3) rfl)

theorem refPair_apply (a b : Vec Ideal S100000 .f32) (r : Fin 100000) (k : Fin 2) :
    refPair a b (ix2 r k) = pick2 (a (ix1 r)) (b (ix1 r)) k := by
  unfold refPair
  refine (concat2_cols _ _ _ r k).trans ?_
  rw [col_of_vec_apply, col_of_vec_apply]

theorem refL1_apply (x : Vec Ideal S100000x2 .f32) (Wa1 : Vec Ideal S2x128 .f32) (ba1 : Vec Ideal S128 .f32) (r : Fin 100000) (n : Fin 128) :
    refL1 x Wa1 ba1 (ix2 r n)
      = max ((∑ k : Fin 2, x (ix2 r k) * Wa1 (ix2 k n)) + ba1 (ix1 n)) (Ideal.ofBits .f32 0x00000000#32) := by
  unfold refL1
  rw [maximumf_apply, addf_apply]
  refine congrArg₂ max (congrArg₂ (· + ·) ?_ ?_) rfl
  · exact plain_dotGeneral_apply (M := 100000) (K := 2) (N := 128) .single x Wa1 r n
  · exact bias_row_apply ba1 _ _ r n

theorem refL2_apply (x : Vec Ideal S100000x128 .f32) (Wa2 : Vec Ideal S128x128 .f32) (ba2 : Vec Ideal S128 .f32) (r : Fin 100000) (n : Fin 128) :
    refL2 x Wa2 ba2 (ix2 r n)
      = max ((∑ k : Fin 128, x (ix2 r k) * Wa2 (ix2 k n)) + ba2 (ix1 n)) (Ideal.ofBits .f32 0x00000000#32) := by
  unfold refL2
  rw [maximumf_apply, addf_apply]
  refine congrArg₂ max (congrArg₂ (· + ·) ?_ ?_) rfl
  · exact plain_dotGeneral_apply (M := 100000) (K := 128) (N := 128) .single x Wa2 r n
  · exact bias_row_apply ba2 _ _ r n

theorem refL3_apply (x : Vec Ideal S100000x128 .f32) (Wao : Vec Ideal S128x1 .f32) (bao : Vec Ideal S1 .f32) (r : Fin 100000) :
    refL3 x Wao bao (ix1 r) = (∑ k : Fin 128, x (ix2 r k) * Wao (ix2 k 0)) + bao (ix1 0) := by
  unfold refL3
  refine (squeeze_col_apply _ _ r).trans ?_
  rw [addf_apply]
  refine congrArg₂ (· + ·) ?_ ?_
  · exact plain_dotGeneral_apply (M := 100000) (K := 128) (N := 1) .single x Wao r 0
  · exact bias_row_apply bao _ _ r 0

theorem refJoin_apply (a y b : Vec Ideal S100000 .f32) (r : Fin 100000) (q : Fin 3) :
    refJoin a y b (ix2 r q) = pick3 (a (ix1 r)) (y (ix1 r)) (b (ix1 r)) q := by
  unfold refJoin
  refine (concat3_cols _ _ _ _ r q).trans ?_
  rw [col_of_vec_apply, col_of_vec_apply, col_of_vec_apply]

/-- The reference's head at row `r`, column `q`: the head's row function of row `r` of the hidden features. -/
theorem refHead_apply (h : Vec Ideal S100000x128 .f32) (Wfc : Vec Ideal S128x3 .f32) (bfc : Vec Ideal S3 .f32) (Wa1 : Vec Ideal S2x128 .f32)
    (ba1 : Vec Ideal S128 .f32) (Wa2 : Vec Ideal S128x128 .f32) (ba2 : Vec Ideal S128 .f32) (Wao : Vec Ideal S128x1 .f32)
    (bao : Vec Ideal S1 .f32) (r : Fin 100000) (q : Fin 3) :
    refHead h Wfc bfc Wa1 ba1 Wa2 ba2 Wao bao (ix2 r q) = headRow (fun k => h (ix2 r k)) Wfc bfc Wa1 ba1 Wa2 ba2 Wao bao q := by
  unfold refHead refHeadF headRow
  rw [refJoin_apply, refCol0_apply, refCol2_apply, refMain_apply, refMain_apply, refL3_apply]
  unfold rowL3
  have e2 : ∀ k : Fin 128,
      refL2 (refL1 (refPair (refCol0 (refMain h Wfc bfc)) (refCol2 (refMain h Wfc bfc))) Wa1 ba1) Wa2 ba2 (ix2 r k)
        = rowL2 (rowL1 (rowMain (fun k => h (ix2 r k)) Wfc bfc 0) (rowMain (fun k => h (ix2 r k)) Wfc bfc 2) Wa1 ba1) Wa2 ba2 k := fun k => by
    rw [refL2_apply]; unfold rowL2
    refine congrArg₂ max (congrArg₂ (· + ·) (Finset.sum_congr rfl fun m _ => congrArg₂ (· * ·) ?_ rfl) rfl) rfl
    rw [refL1_apply]; unfold rowL1
    refine congrArg₂ max (congrArg₂ (· + ·) (Finset.sum_congr rfl fun c _ => congrArg₂ (· * ·) ?_ rfl) rfl) rfl
    rw [refPair_apply, refCol0_apply, refCol2_apply, refMain_apply, refMain_apply]
  rw [Finset.sum_congr rfl fun k _ => congrArg₂ (· * ·) (e2 k) rfl]

end Cert.KernelIdeal.Val

end
-- ==== Proof.ValKernelIdeal.HeadV.lean ====
/-
  The head region's result array, as one function of the arrays the region finds.

  At every grid point `t` the body leaves in the result window's staging buffer the block whose row `p` is the
  head's row function of row `p` of the feature block (`head_pay1_apply`); the feature block at point `t` is rows
  2000 t … 2000 t + 1999 of the feature array and every parameter block is its whole array (the printed index maps,
  decided over the 50 points: `idx_facts3`); the reference's head at row `r` is the same row function of row `r` of
  the feature array (`refHead_apply`).  So what point `t` writes back is block `t` of the reference's head
  (`flushed3_eq`), the 50 blocks cover the 100000 rows (`cover3`: row `r` is in block `r / 2000`), and the array
  ends holding the reference's head of the arrays as found (`final3`).
-/
import proofs.«418012_j44109314130143_1_alg».proof.Proof.HandKernelIdeal.Head
import proofs.«418012_j44109314130143_1_alg».proof.Proof.ValKernelIdeal.HeadPay
import proofs.«418012_j44109314130143_1_alg».proof.Proof.ValKernelIdeal.HeadRef

set_option maxRecDepth 16384

noncomputable section

namespace Cert.KernelIdeal.Val

open Idealize.ShloMosaic Idealize.ShloMosaic.ValueIdx
open scoped BigOperators

open Cert.KernelIdeal Cert.KernelIdeal.Gen Cert.KernelIdeal.Hand
open Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a; rfl

/-- The printed index maps, decided over the grid: the feature window and the result window are at block `t` of
    the rows at point `t`, every parameter window at block 0. -/
theorem idx_facts3 : ∀ t : Fin cfg3.N, win3_0.index t (0 : Fin 2) = t.val ∧ win3_0.index t (1 : Fin 2) = 0
    ∧ win3_9.index t (0 : Fin 2) = t.val ∧ win3_9.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = 0 ∧ win3_7.index t (1 : Fin 2) = 0
    ∧ win3_8.index t (0 : Fin 1) = 0 :=
  (by decide +kernel : ∀ t : Fin grid3.N, _)

/-- WHAT POINT `t` WRITES BACK is block `t` of the reference's head of the arrays as the region finds them. -/
theorem flushed3_eq (c : Dev nD) (t : Fin cfg3.N) :
    (dat3 (F := Ideal) V c).flushed 9 t = ((cfg3.win 9).blk t).view.read (Elt Ideal)
      (refHead (V c main_v46) (V c main_arg12) (V c main_arg13) (V c main_arg14) (V c main_arg15) (V c main_arg16) (V c main_arg17) (V c main_arg18) (V c main_arg19)) := by
  show (cfg3.win 9).cut (grid3.coords t) ((dat3 V c).after 9 t) = _
  rw [after3_9]
  unfold out3_9
  rw [View.canon_unit_zero hz2_3]
  simp only [View.ld_unit_zero (S := S2000x128) hz2_3, View.ld_unit_zero (S := S128x3) hz2_3, View.ld_unit_zero (S := S3) hz1_3,
    View.ld_unit_zero (S := S2x128) hz2_3, View.ld_unit_zero (S := S128) hz1_3, View.ld_unit_zero (S := S128x128) hz2_3,
    View.ld_unit_zero (S := S128x1) hz2_3, View.ld_unit_zero (S := S1) hz1_3]
  funext y
  have hy0 : (y 0).val < 2000 := (y 0).isLt
  have hy1 : (y 1).val < 3 := (y 1).isLt
  have ht : t.val < 50 := lt_of_lt_of_eq t.isLt N_3
  have hr : 2000 * t.val + (y 0).val < 100000 := by omega
  obtain ⟨e0, e1, e2, e3, f10, f11, f20, f30, f31, f40, f50, f51, f60, f70, f71, f80⟩ := idx_facts3 t
  rw [View.read_apply]
  have hemb : ((cfg3.win 9).blk t).view.emb y
      = ix2 (⟨2000 * t.val + (y 0).val, hr⟩ : Fin 100000) (⟨(y 1).val, hy1⟩ : Fin 3) := by
    funext a; apply Fin.ext
    match a with
    | ⟨0, _⟩ => show win3_9.index t (0 : Fin 2) * 2000 + 1 * (y 0).val = 2000 * t.val + (y 0).val; omega
    | ⟨1, _⟩ => show win3_9.index t (1 : Fin 2) * 3 + 1 * (y 1).val = (y 1).val; omega
  rw [hemb, refHead_apply]
  have hx : (cfg3.win 9).xinj (grid3.coords t) y = ix2 (⟨(y 0).val, hy0⟩ : Fin 2000) (⟨(y 1).val, hy1⟩ : Fin 3) :=
    funext fun a => by match a with | ⟨0, _⟩ => rfl | ⟨1, _⟩ => rfl
  show k3_pay1 _ _ _ _ ((cfg3.win 9).xinj (grid3.coords t) y) = _
  rw [hx, head_pay1_apply]
  show _ = headRow (fun k => V c main_v46 (ix2 (⟨2000 * t.val + (y 0).val, hr⟩ : Fin 100000) k)) (V c main_arg12) (V c main_arg13)
    (V c main_arg14) (V c main_arg15) (V c main_arg16) (V c main_arg17) (V c main_arg18) (V c main_arg19) ⟨(y 1).val, hy1⟩
  have h0 : (fun k : Fin 128 => iblk3 V c 0 t (ix2 (⟨(y 0).val, hy0⟩ : Fin 2000) k))
      = fun k : Fin 128 => V c main_v46 (ix2 (⟨2000 * t.val + (y 0).val, hr⟩ : Fin 100000) k) := by
    funext k
    show V c main_v46 (((cfg3.win 0).blk t).view.emb (ix2 (⟨(y 0).val, hy0⟩ : Fin 2000) k)) = _
    refine congrArg _ (funext fun a => Fin.ext ?_)
    match a with
    | ⟨0, _⟩ => show win3_0.index t (0 : Fin 2) * 2000 + 1 * (y 0).val = 2000 * t.val + (y 0).val; omega
    | ⟨1, _⟩ => show win3_0.index t (1 : Fin 2) * 128 + 1 * k.val = k.val; omega
  have h1 : iblk3 V c 1 t = V c main_arg12 := by
    funext j
    show V c main_arg12 (((cfg3.win 1).blk t).view.emb j) = V c main_arg12 j
    refine congrArg _ (funext fun a => Fin.ext ?_)
    match a with
    | ⟨0, _⟩ => show win3_1.index t (0 : Fin 2) * 128 + 1 * (j 0).val = (j 0).val; omega
    | ⟨1, _⟩ => show win3_1.index t (1 : Fin 2) * 3 + 1 * (j 1).val = (j 1).val; omega
  have h2 : iblk3 V c 2 t = V c main_arg13 := by
    funext j
    show V c main_arg13 (((cfg3.win 2).blk t).view.emb j) = V c main_arg13 j
    refine congrArg _ (funext fun a => Fin.ext ?_)
    match a with
    | ⟨0, _⟩ => show win3_2.index t (0 : Fin 1) * 3 + 1 * (j 0).val = (j 0).val; omega
  have h3 : iblk3 V c 3 t = V c main_arg14 := by
    funext j
    show V c main_arg14 (((cfg3.win 3).blk t).view.emb j) = V c main_arg14 j
    refine congrArg _ (funext fun a => Fin.ext ?_)
    match a with
    | ⟨0, _⟩ => show win3_3.index t (0 : Fin 2) * 2 + 1 * (j 0).val = (j 0).val; omega
    | ⟨1, _⟩ => show win3_3.index t (1 : Fin 2) * 128 + 1 * (j 1).val = (j 1).val; omega
  have h4 : iblk3 V c 4 t = V c main_arg15 := by
    funext j
    show V c main_arg15 (((cfg3.win 4).blk t).view.emb j) = V c main_arg15 j
    refine congrArg _ (funext fun a => Fin.ext ?_)
    match a with
    | ⟨0, _⟩ => show win3_4.index t (0 : Fin 1) * 128 + 1 * (j 0).val = (j 0).val; omega
  have h5 : iblk3 V c 5 t = V c main_arg16 := by
    funext j
    show V c main_arg16 (((cfg3.win 5).blk t).view.emb j) = V c main_arg16 j
    refine congrArg _ (funext fun a => Fin.ext ?_)
    match a with
    | ⟨0, _⟩ => show win3_5.index t (0 : Fin 2) * 128 + 1 * (j 0).val = (j 0).val; omega
    | ⟨1, _⟩ => show win3_5.index t (1 : Fin 2) * 128 + 1 * (j 1).val = (j 1).val; omega
  have h6 : iblk3 V c 6 t = V c main_arg17 := by
    funext j
    show V c main_arg17 (((cfg3.win 6).blk t).view.emb j) = V c main_arg17 j
    refine congrArg _ (funext fun a => Fin.ext ?_)
    match a with
    | ⟨0, _⟩ => show win3_6.index t (0 : Fin 1) * 128 + 1 * (j 0).val = (j 0).val; omega
  have h7 : iblk3 V c 7 t = V c main_arg18 := by
    funext j
    show V c main_arg18 (((cfg3.win 7).blk t).view.emb j) = V c main_arg18 j
    refine congrArg _ (funext fun a => Fin.ext ?_)
    match a with
    | ⟨0, _⟩ => show win3_7.index t (0 : Fin 2) * 128 + 1 * (j 0).val = (j 0).val; omega
    | ⟨1, _⟩ => show win3_7.index t (1 : Fin 2) * 1 + 1 * (j 1).val = (j 1).val; omega
  have h8 : iblk3 V c 8 t = V c main_arg19 := by
    funext j
    show V c main_arg19 (((cfg3.win 8).blk t).view.emb j) = V c main_arg19 j
    refine congrArg _ (funext fun a => Fin.ext ?_)
    match a with
    | ⟨0, _⟩ => show win3_8.index t (0 : Fin 1) * 1 + 1 * (j 0).val = (j 0).val; omega
  rw [h0, h1, h2, h3, h4, h5, h6, h7, h8]

/-- An index of the result array is in point `t`'s block iff each coordinate is in the block's range on its axis. -/
theorem mem_blk3 (t : Fin cfg3.N) (i : S100000x3.Idx) :
    i ∈ ((cfg3.win 9).blk t).view.set ↔ ∀ a : Fin 2, win3_9.index t a * S2000x3.size a ≤ (i a).val ∧ (i a).val < win3_9.index t a * S2000x3.size a + S2000x3.size a := by
  show i ∈ ((View.whole main_v47).slice (win3_9.rect t)).set ↔ _
  rw [View.set_slice_whole, Rect.mem_set_unit]
  exact Iff.rfl

/-- Every row of the result array is in the block of the point its row number divided by 2000 names. -/
theorem cover3 (i : S100000x3.Idx) : ∃ t : Fin cfg3.N, (cfg3.win 9).flush t = true ∧ i ∈ ((cfg3.win 9).blk t).view.set := by
  have hi0 : (i 0).val < 100000 := (i 0).isLt
  have hi1 : (i 1).val < 3 := (i 1).isLt
  have hN : cfg3.N = 50 := N_3
  refine ⟨⟨(i 0).val / 2000, by rw [hN]; omega⟩, flush3_9 _, ?_⟩
  rw [mem_blk3]
  obtain ⟨-, -, e2, e3, -⟩ := idx_facts3 ⟨(i 0).val / 2000, by rw [hN]; omega⟩
  intro a
  match a with
  | ⟨0, _⟩ =>
    show win3_9.index ⟨(i 0).val / 2000, _⟩ (0 : Fin 2) * 2000 ≤ (i 0).val ∧ (i 0).val < win3_9.index ⟨(i 0).val / 2000, _⟩ (0 : Fin 2) * 2000 + 2000
    rw [e2]; show (i 0).val / 2000 * 2000 ≤ (i 0).val ∧ (i 0).val < (i 0).val / 2000 * 2000 + 2000; omega
  | ⟨1, _⟩ =>
    show win3_9.index ⟨(i 0).val / 2000, _⟩ (1 : Fin 2) * 3 ≤ (i 1).val ∧ (i 1).val < win3_9.index ⟨(i 0).val / 2000, _⟩ (1 : Fin 2) * 3 + 3
    rw [e3]; omega

/-- THE RESULT ARRAY after the region: the reference's head of the arrays as the region finds them. -/
theorem final3 (c : Dev nD) : (dat3 (F := Ideal) V c).arrAt 9 cfg3.N
    = refHead (V c main_v46) (V c main_arg12) (V c main_arg13) (V c main_arg14) (V c main_arg15) (V c main_arg16) (V c main_arg17) (V c main_arg18) (V c main_arg19) :=
  (dat3 (F := Ideal) V c).arrAt_eq_of_cover 9 _ (fun t _ => flushed3_eq V c t) cover3

end Cert.KernelIdeal.Val

end
-- ==== Proof.ValKernelIdeal.PoolMath.lean ====
/-
  The arithmetic of the mean pool, away from the pipeline: what one accumulating step adds to the 64 × 4 accumulator,
  read at an entry (g, j) — the sum over the block's 2000 rows of the one-hot weight of the row's graph id at g times the
  row's extended feature (the three features, then a one) at column j —, the zero the first point starts from, and the
  quotient the last point stores.
-/
import proofs.«418012_j44109314130143_1_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Val

open Cert.KernelIdeal Cert.KernelIdeal.Gen
open Idealize.ShloMosaic Idealize.ShloMosaic.ValueIdx
open scoped BigOperators

/-- The one-hot weight of a graph-id word at graph g: one where the word is g, zero elsewhere (a word that is no
    graph's number has weight zero at every graph). -/
def hot (w : BitVec 32) (g : Fin 64) : EReal := if w = BitVec.ofNat 32 g.val then 1 else 0

/-- A row of the feature block extended by a one: the three features, then 1 in column 3. -/
def ext (feats : Vec Ideal S2000x3 .f32) (r : Fin 2000) (j : Fin 4) : EReal :=
  if h : j.val < 3 then feats (ix2 r ⟨j.val, h⟩) else 1

/-- The patterns of 1.0 in the two formats the pool meets denote the extended real one. -/
theorem one_bf16 : Ideal.ofBits .bf16 0x3F80#16 = 1 := IdealRules.sign_bit.ideal_onePat .bf16
theorem one_f32 : Ideal.ofBits .f32 0x3F800000#32 = 1 := IdealRules.sign_bit.ideal_onePat .f32

/-- The comparison of two words for equality, widened to a word and read as a signed integer: one or zero. -/
theorem sitofp_eq_word (w w' : BitVec 32) :
    (FloatOps.sitofp (F := Ideal) .f32 ((IntOp.cmpi .eq w w').setWidth 32) : EReal) = if w = w' then 1 else 0 := by
  show (((((IntOp.cmpi .eq w w').setWidth 32).toInt : ℝ)) : EReal) = _
  by_cases h : w = w'
  · have hb : (w == w') = true := by simp [h]
    have e : (IntOp.cmpi .eq w w').setWidth 32 = 1#32 := by
      show (BitVec.ofBool (w == w')).setWidth 32 = 1#32
      rw [hb]; decide
    rw [e, if_pos h]; norm_num
  · have hb : (w == w') = false := by simp [h]
    have e : (IntOp.cmpi .eq w w').setWidth 32 = 0#32 := by
      show (BitVec.ofBool (w == w')).setWidth 32 = 0#32
      rw [hb]; decide
    rw [e, if_neg h]; norm_num

/-- The product's operand indices at an entry and a contraction index, coordinate by coordinate: the one-hot matrix is
    read at (contraction index, the entry's row), the extended block at (contraction index, the entry's column). -/
theorem lhs_pool_0 (o : S64x4.Idx) (q : dot_S2000x64_S2000x4_S64x4_0_0_1_1_n_n.contr.Idx) :
    (dot_S2000x64_S2000x4_S64x4_0_0_1_1_n_n.lhsIdx o q 0).val = (q ⟨0, by decide⟩).val :=
  dot_S2000x64_S2000x4_S64x4_0_0_1_1_n_n.lhsIdx_val_of_single rfl o q
theorem lhs_pool_1 (o : S64x4.Idx) (q : dot_S2000x64_S2000x4_S64x4_0_0_1_1_n_n.contr.Idx) :
    (dot_S2000x64_S2000x4_S64x4_0_0_1_1_n_n.lhsIdx o q 1).val = (o 0).val := by
  unfold DotDims.lhsIdx
  rw [dif_neg (show ¬(1 : Fin S2000x64.rank) ∈ dot_S2000x64_S2000x4_S64x4_0_0_1_1_n_n.lhsBatch by decide),
    dif_pos (show (1 : Fin S2000x64.rank) ∈ dot_S2000x64_S2000x4_S64x4_0_0_1_1_n_n.lhsNonContracting by decide)]
  rfl
theorem rhs_pool_0 (o : S64x4.Idx) (q : dot_S2000x64_S2000x4_S64x4_0_0_1_1_n_n.contr.Idx) :
    (dot_S2000x64_S2000x4_S64x4_0_0_1_1_n_n.rhsIdx o q 0).val = (q ⟨0, by decide⟩).val :=
  dot_S2000x64_S2000x4_S64x4_0_0_1_1_n_n.rhsIdx_val_of_single rfl o q
theorem rhs_pool_1 (o : S64x4.Idx) (q : dot_S2000x64_S2000x4_S64x4_0_0_1_1_n_n.contr.Idx) :
    (dot_S2000x64_S2000x4_S64x4_0_0_1_1_n_n.rhsIdx o q 1).val = (o 1).val := by
  unfold DotDims.rhsIdx
  rw [dif_neg (show ¬(1 : Fin S2000x4.rank) ∈ dot_S2000x64_S2000x4_S64x4_0_0_1_1_n_n.rhsBatch by decide),
    dif_pos (show (1 : Fin S2000x4.rank) ∈ dot_S2000x64_S2000x4_S64x4_0_0_1_1_n_n.rhsNonContracting by decide)]
  rfl

theorem lhsIdx_pool (g : Fin 64) (j : Fin 4) (q : dot_S2000x64_S2000x4_S64x4_0_0_1_1_n_n.contr.Idx) (r : Fin 2000)
    (hq : (q ⟨0, by decide⟩).val = r.val) :
    dot_S2000x64_S2000x4_S64x4_0_0_1_1_n_n.lhsIdx (ix2 g j) q = ix2 r g :=
  funext fun b => Fin.ext (by
    match b with
    | ⟨0, _⟩ => exact (lhs_pool_0 _ _).trans hq
    | ⟨1, _⟩ => exact lhs_pool_1 _ _)
theorem rhsIdx_pool (g : Fin 64) (j : Fin 4) (q : dot_S2000x64_S2000x4_S64x4_0_0_1_1_n_n.contr.Idx) (r : Fin 2000)
    (hq : (q ⟨0, by decide⟩).val = r.val) :
    dot_S2000x64_S2000x4_S64x4_0_0_1_1_n_n.rhsIdx (ix2 g j) q = ix2 r j :=
  funext fun b => Fin.ext (by
    match b with
    | ⟨0, _⟩ => exact (rhs_pool_0 _ _).trans hq
    | ⟨1, _⟩ => exact rhs_pool_1 _ _)

/-- The one-hot matrix at (r, g): the weight of row r's graph id at g. -/
theorem onehot_apply (ids : Vec Ideal S2000x1 .i32) (r : Fin 2000) (g : Fin 64) :
    (truncf .bf16 (sitofp .f32 (extui 32 (cmpi CmpIPredicate.eq (broadcastTo S2000x64 ids broadcasts_S2000x1_S2000x64)
        (iota Kind.tc S2000x64 32 [1] iota_S2000x64_d1_w32)) natLt_1_32)) bitsLt_bf16_f32 : FVec Ideal S2000x64 .bf16) (ix2 r g)
      = hot (ids (ix2 r 0)) g := by
  show FloatOps.sitofp (F := Ideal) .f32 ((IntOp.cmpi .eq (broadcastTo S2000x64 ids broadcasts_S2000x1_S2000x64 (ix2 r g))
      (iota Kind.tc S2000x64 32 [1] iota_S2000x64_d1_w32 (ix2 r g))).setWidth 32) = _
  rw [broadcastTo_apply ids broadcasts_S2000x1_S2000x64 (ix2 r g) (ix2 r 0) (fun a => match a with
      | ⟨0, _⟩ => by show r.val = if (2000 : Nat) = 1 then 0 else r.val; rw [if_neg (by decide)]
      | ⟨1, _⟩ => by show 0 = if (1 : Nat) = 1 then 0 else g.val; rw [if_pos rfl]),
    iota_single_apply, sitofp_eq_word]
  rfl

/-- The extended block at (r, j): the feature, or the one. -/
theorem ext_apply (feats : Vec Ideal S2000x3 .f32) (r : Fin 2000) (j : Fin 4) :
    (concatenate S2000x4 1
        [⟨S2000x3, truncf FTy.bf16 (shapeCast S2000x3 feats shapeCasts_S2000x3_S2000x3) bitsLt_bf16_f32⟩,
          ⟨S2000x1, broadcast S2000x1 (FloatOps.ofBits (F := Ideal) FTy.bf16 0x3F80#16)⟩]
        concatenates_S2000x3_S2000x1_S2000x4_d1 : FVec Ideal S2000x4 .bf16) (ix2 r j) = ext feats r j := by
  unfold ext
  by_cases h : j.val < 3
  · rw [dif_pos h]
    refine (concatenate_pair_apply_left (1 : Fin S2000x4.rank) _ _ concatenates_S2000x3_S2000x1_S2000x4_d1 (ix2 r j) rfl
      (ix2 r ⟨j.val, h⟩) (fun b => match b with | ⟨0, _⟩ => rfl | ⟨1, _⟩ => rfl)).trans ?_
    show shapeCast S2000x3 feats shapeCasts_S2000x3_S2000x3 (ix2 r ⟨j.val, h⟩) = _
    rw [shapeCast_self]
  · rw [dif_neg h]
    refine (concatenate_pair_apply_right (1 : Fin S2000x4.rank) _ _ concatenates_S2000x3_S2000x1_S2000x4_d1 (ix2 r j) rfl rfl
      (ix2 r 0) (fun b => match b with | ⟨0, _⟩ => fun _ => rfl | ⟨1, _⟩ => fun hb => absurd rfl hb) (by
        show 0 + 3 = j.val; have := j.isLt; omega)).trans ?_
    exact one_bf16

/-- ONE ACCUMULATING STEP at an entry: the accumulator there plus, over the block's rows, the weight of the row's graph
    id at g times the row's extended feature at j. -/
theorem pool_pay2_apply (ids : Vec Ideal S2000x1 .i32) (feats : Vec Ideal S2000x3 .f32) (a : Vec Ideal S64x4 .f32)
    (g : Fin 64) (j : Fin 4) :
    k4_pay2 (F := Ideal) ids feats a (ix2 g j)
      = a (ix2 g j) + ∑ r : Fin 2000, hot (ids (ix2 r 0)) g * ext feats r j := by
  unfold k4_pay2
  simp only [shapeCast_self]
  rw [addf_apply]
  simp only [matmul]
  rw [Ideal.matmul_constant_zero_apply,
    ← Equiv.sum_comp (contrEquiv1 dot_S2000x64_S2000x4_S64x4_0_0_1_1_n_n 2000 rfl rfl).symm]
  refine congrArg (a (ix2 g j) + ·) (Finset.sum_congr rfl fun r _ => ?_)
  have hq := contrEquiv1_symm_val dot_S2000x64_S2000x4_S64x4_0_0_1_1_n_n 2000 rfl rfl r
  rw [lhsIdx_pool g j _ r hq, rhsIdx_pool g j _ r hq]
  exact congrArg₂ (· * ·) (onehot_apply ids r g) (ext_apply feats r j)

/-- The first point's zeroing store writes the extended real zero everywhere. -/
theorem pool_pay1_apply (i : S64x4.Idx) : k4_pay1 (F := Ideal) i = 0 := by
  unfold k4_pay1
  simp only [shapeCast_self]
  exact Ideal.ofBits_zero_f32

/-- THE QUOTIENT the last point stores, at an entry: the sum there over the larger of the row's count and one. -/
theorem pool_pay3_apply (s : Vec Ideal S64x3 .f32) (cnt : Vec Ideal S64x1 .f32) (g : Fin 64) (j : Fin 3) :
    k4_pay3 (F := Ideal) s cnt (ix2 g j)
      = Ideal.div (s (ix2 g j)) (max (cnt (ix2 g 0)) (Ideal.ofBits .f32 0x3F800000#32)) := by
  unfold k4_pay3
  rw [divf_apply, broadcastTo_apply _ broadcasts_S64x1_S64x3 (ix2 g j) (ix2 g 0) (fun a => match a with
      | ⟨0, _⟩ => by show g.val = if (64 : Nat) = 1 then 0 else g.val; rw [if_neg (by decide)]
      | ⟨1, _⟩ => by show 0 = if (1 : Nat) = 1 then 0 else j.val; rw [if_pos rfl])]
  rfl

/-! ## The whole arrays: the sum over all 100000 rows as a fold of 50 blocks of 2000 -/

/-- A row of the whole per-node array extended by a one. -/
def extA (fin : Vec Ideal S100000x3 .f32) (n : Fin 100000) (j : Fin 4) : EReal :=
  if h : j.val < 3 then fin (ix2 n ⟨j.val, h⟩) else 1

/-- Row n's contribution to entry (g, j): the weight of its graph id at g times its extended feature at j (zero past
    the array's end, so that the rows can be counted by a natural number). -/
def rowTerm (fin : Vec Ideal S100000x3 .f32) (ids : Vec Ideal S100000x1 .i32) (g : Fin 64) (j : Fin 4) (n : ℕ) : EReal :=
  if h : n < 100000 then hot (ids (ix2 ⟨n, h⟩ 0)) g * extA fin ⟨n, h⟩ j else 0

/-- The contributions of the first m blocks of 2000 rows. -/
def partSum (fin : Vec Ideal S100000x3 .f32) (ids : Vec Ideal S100000x1 .i32) (g : Fin 64) (j : Fin 4) (m : ℕ) : EReal :=
  ∑ n ∈ Finset.range (2000 * m), rowTerm fin ids g j n

theorem partSum_zero (fin : Vec Ideal S100000x3 .f32) (ids : Vec Ideal S100000x1 .i32) (g : Fin 64) (j : Fin 4) :
    partSum fin ids g j 0 = 0 := by
  unfold partSum; rw [Nat.mul_zero, Finset.range_zero, Finset.sum_empty]

/-- One more block: the next 2000 rows' contributions are added. -/
theorem partSum_succ (fin : Vec Ideal S100000x3 .f32) (ids : Vec Ideal S100000x1 .i32) (g : Fin 64) (j : Fin 4) (m : ℕ) :
    partSum fin ids g j (m + 1) = partSum fin ids g j m + ∑ r : Fin 2000, rowTerm fin ids g j (2000 * m + r.val) := by
  unfold partSum
  rw [show 2000 * (m + 1) = 2000 * m + 2000 by omega, Finset.sum_range_add,
    Finset.sum_range (fun x => rowTerm fin ids g j (2000 * m + x))]

/-- All 50 blocks: the sum over every row of the array. -/
theorem partSum_all (fin : Vec Ideal S100000x3 .f32) (ids : Vec Ideal S100000x1 .i32) (g : Fin 64) (j : Fin 4) :
    partSum fin ids g j 50 = ∑ n : Fin 100000, hot (ids (ix2 n 0)) g * extA fin n j := by
  unfold partSum
  rw [show 2000 * 50 = 100000 by norm_num, Finset.sum_range]
  refine Finset.sum_congr rfl fun n _ => ?_
  unfold rowTerm; rw [dif_pos n.isLt]

end Cert.KernelIdeal.Val

end
-- ==== Proof.ValKernelIdeal.PoolV.lean ====
/-
  The mean pool's VALUE: the result array the pooling region leaves is the reference's pool of the two arrays the
  region finds.
  The reference's side first, as one function of the per-node array and the graph-id column: the sums of the rows of
  each graph (a scatter-add of the rows into 64 × 3 zeros, a row whose id is no graph's number being dropped), the
  counts of each graph's rows (a scatter-add of ones into 64 zeros), and their quotient with the count raised to at
  least one; read at an entry (g, j) it is the sum over all rows whose id is g of column j, over the larger of the
  number of such rows and one.
  Then the kernel's side: the accumulator after point m holds, at (g, j), the contributions of the first 2000 (m + 1)
  rows — by induction over the points, one block's one-hot product a step —, so after the last point the sums over all
  100000 rows in columns 0 … 2 and the counts in column 3; the last point stores their quotient, and that point's
  block is the whole result array. The two arrangements of the one sum meet row by row: a row's one-hot weight at g
  times its entry is the entry where the row's id is g and zero elsewhere.
-/
import proofs.«418012_j44109314130143_1_alg».proof.Proof.HandKernelIdeal.Pool
import proofs.«418012_j44109314130143_1_alg».proof.Proof.ValKernelIdeal.PoolMath
import proofs.«418012_j44109314130143_1_alg».proof.Proof.Gen.ReferenceIdeal
import proofs.«418012_j44109314130143_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The reference's pool -/

/-- The two scatters' dimension numbers: rows into a 64 × 3 array by a column of ids, ones into 64 by the same column. -/
abbrev scatRows : ScatterDims Cert.ReferenceIdeal.S64x3 Cert.ReferenceIdeal.S100000x1 Cert.ReferenceIdeal.S100000x3 :=
  Cert.ReferenceIdeal.scatter_S64x3_S100000x1_S100000x3_1_0_0_1
abbrev scatOnes : ScatterDims Cert.ReferenceIdeal.S64 Cert.ReferenceIdeal.S100000x1 Cert.ReferenceIdeal.S100000 :=
  Cert.ReferenceIdeal.scatter_S64_S100000x1_S100000_n_0_0_1

/-- The reference's pool of the per-node array `fin` by the graph-id column `ids`. -/
def refPool (fin : Vec Ideal S100000x3 .f32) (ids : Vec Ideal S100000x1 .i32) : Vec Ideal S64x3 .f32 :=
  Host.divf (F := Ideal)
    (Host.scatterAdd (F := Ideal) scatRows
      (broadcastInDim Cert.ReferenceIdeal.S64x3 ![] Cert.ReferenceIdeal.Gen.bcast_S_S64x3
        (constant Cert.ReferenceIdeal.S_ .f32 0x00000000#32)) ids fin)
    (broadcastInDim Cert.ReferenceIdeal.S64x3 ![0, 1] Cert.ReferenceIdeal.Gen.bcast_S64x1_S64x3_0_1
      (broadcastInDim Cert.ReferenceIdeal.S64x1 ![0] Cert.ReferenceIdeal.Gen.bcast_S64_S64x1_0
        (maximumf
          (Host.scatterAdd (F := Ideal) scatOnes
            (broadcastInDim Cert.ReferenceIdeal.S64 ![] Cert.ReferenceIdeal.Gen.bcast_S_S64
              (constant Cert.ReferenceIdeal.S_ .f32 0x00000000#32)) ids
            (broadcastInDim Cert.ReferenceIdeal.S100000 ![] Cert.ReferenceIdeal.Gen.bcast_S_S100000
              (constant Cert.ReferenceIdeal.S_ .f32 0x3F800000#32)))
          (broadcastInDim Cert.ReferenceIdeal.S64 ![] Cert.ReferenceIdeal.Gen.bcast_S_S64
            (constant Cert.ReferenceIdeal.S_ .f32 0x3F800000#32)))))

/-- A graph-id word read as a signed integer is the graph's number exactly when it is that number's word. -/
theorem word_toInt_eq_iff (w : BitVec 32) (g : Fin 64) : w.toInt = (g.val : Int) ↔ w = BitVec.ofNat 32 g.val := by
  have hg := g.isLt
  have hw := w.isLt
  rw [BitVec.toInt_eq_toNat_cond]
  constructor
  · intro h
    apply BitVec.eq_of_toNat_eq
    rw [BitVec.toNat_ofNat]
    split at h <;> omega
  · intro h
    have e : w.toNat = g.val := by rw [h, BitVec.toNat_ofNat]; omega
    rw [if_pos (by omega)]; omega

/-! ## Where the row scatter sends an element of the per-node array -/

theorem scatRows_start0 (ids : Vec Ideal S100000x1 .i32) (n : Fin 100000) (c : Fin 3) :
    scatRows.start (ix2 n c) ids 0 = (ids (ix2 n 0)).toInt := by
  unfold ScatterDims.start
  rw [dif_pos (show (0 : Fin Cert.ReferenceIdeal.S64x3.rank) ∈ scatRows.scatterDimsToOperandDims by decide)]
  refine congrArg (fun k => BitVec.toInt (ids k)) (funext fun b => Fin.ext ?_)
  match b with
  | ⟨0, _⟩ => rfl
  | ⟨1, _⟩ => rfl

theorem scatRows_start1 (ids : Vec Ideal S100000x1 .i32) (n : Fin 100000) (c : Fin 3) :
    scatRows.start (ix2 n c) ids 1 = 0 := by
  unfold ScatterDims.start
  rw [dif_neg (show ¬(1 : Fin Cert.ReferenceIdeal.S64x3.rank) ∈ scatRows.scatterDimsToOperandDims by decide)]

theorem scatRows_window0 (n : Fin 100000) (c : Fin 3) : scatRows.window (ix2 n c) 0 = 0 := by
  unfold ScatterDims.window
  rw [dif_neg (show ¬(0 : Fin Cert.ReferenceIdeal.S64x3.rank) ∈ scatRows.sKept by decide)]

theorem scatRows_window1 (n : Fin 100000) (c : Fin 3) : scatRows.window (ix2 n c) 1 = c.val := by
  unfold ScatterDims.window
  rw [dif_pos (show (1 : Fin Cert.ReferenceIdeal.S64x3.rank) ∈ scatRows.sKept by decide)]
  rfl

/-- Where a scatter sends an update element, by coordinates: to the operand index each of whose coordinates is the
    window's start plus the element's window coordinate there (and nowhere when that leaves the operand). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    by_cases hin : ∀ a, 0 ≤ d.start j idx a + d.window j a ∧ d.start j idx a + d.window j a < s.size a
    · rw [dif_pos hin] at h
      have hf := congrFun (Option.some.inj h) a
      have hv : (d.start j idx a + (d.window j a : Int)).toNat = (i a).val := congrArg Fin.val hf
      have := hin a; omega
    · rw [dif_neg hin] at h; cases h
  · intro h
    have hin : ∀ a, 0 ≤ d.start j idx a + d.window j a ∧ d.start j idx a + d.window j a < s.size a := fun a => by
      have := h a; have := (i a).isLt; omega
    rw [dif_pos hin]
    refine congrArg some (funext fun a => Fin.ext ?_)
    show (d.start j idx a + (d.window j a : Int)).toNat = (i a).val
    have := h a; omega

/-- The row scatter sends element (n, c) of the per-node array to (g, j) exactly when row n's id is g and c is j. -/
theorem scatRows_hit (ids : Vec Ideal S100000x1 .i32) (n : Fin 100000) (c : Fin 3) (g : Fin 64) (j : Fin 3) :
    scatRows.resultIdx? (ix2 n c) ids = some (ix2 g j) ↔ ids (ix2 n 0) = BitVec.ofNat 32 g.val ∧ c = j := by
  rw [resultIdx?_eq_some_iff]
  constructor
  · intro h
    have h0 : (ids (ix2 n 0)).toInt + ((0 : ℕ) : Int) = (g.val : Int) := by
      have := h 0; rw [scatRows_start0, scatRows_window0] at this; exact this
    have h1 : (0 : Int) + ((c.val : ℕ) : Int) = (j.val : Int) := by
      have := h 1; rw [scatRows_start1, scatRows_window1] at this; exact this
    exact ⟨(word_toInt_eq_iff _ g).mp (by omega), Fin.ext (by omega)⟩
  · intro ⟨hw, hc⟩ a
    have ht := (word_toInt_eq_iff _ g).mpr hw
    have hcv : c.val = j.val := congrArg Fin.val hc
    match a with
    | ⟨0, _⟩ =>
      show scatRows.start (ix2 n c) ids 0 + (scatRows.window (ix2 n c) 0 : Int) = (g.val : Int)
      rw [scatRows_start0, scatRows_window0]; omega
    | ⟨1, _⟩ =>
      show scatRows.start (ix2 n c) ids 1 + (scatRows.window (ix2 n c) 1 : Int) = (j.val : Int)
      rw [scatRows_start1, scatRows_window1]; omega

/-! ## Where the count scatter sends a one -/

theorem scatOnes_start0 (ids : Vec Ideal S100000x1 .i32) (n : Fin 100000) :
    scatOnes.start (ix1 n) ids 0 = (ids (ix2 n 0)).toInt := by
  unfold ScatterDims.start
  rw [dif_pos (show (0 : Fin Cert.ReferenceIdeal.S64.rank) ∈ scatOnes.scatterDimsToOperandDims by decide)]
  refine congrArg (fun k => BitVec.toInt (ids k)) (funext fun b => Fin.ext ?_)
  match b with
  | ⟨0, _⟩ => rfl
  | ⟨1, _⟩ => rfl

theorem scatOnes_window0 (n : Fin 100000) : scatOnes.window (ix1 n) 0 = 0 := by
  unfold ScatterDims.window
  rw [dif_neg (show ¬(0 : Fin Cert.ReferenceIdeal.S64.rank) ∈ scatOnes.sKept by decide)]

/-- The count scatter sends row n's one to g exactly when row n's id is g. -/
theorem scatOnes_hit (ids : Vec Ideal S100000x1 .i32) (n : Fin 100000) (g : Fin 64) :
    scatOnes.resultIdx? (ix1 n) ids = some (ix1 g) ↔ ids (ix2 n 0) = BitVec.ofNat 32 g.val := by
  rw [resultIdx?_eq_some_iff]
  constructor
  · intro h
    have h0 : (ids (ix2 n 0)).toInt + ((0 : ℕ) : Int) = (g.val : Int) := by
      have := h 0; rw [scatOnes_start0, scatOnes_window0] at this; exact this
    exact (word_toInt_eq_iff _ g).mp (by omega)
  · intro hw a
    have ht := (word_toInt_eq_iff _ g).mpr hw
    match a with
    | ⟨0, _⟩ =>
      show scatOnes.start (ix1 n) ids 0 + (scatOnes.window (ix1 n) 0 : Int) = (g.val : Int)
      rw [scatOnes_start0, scatOnes_window0]; omega

/-! ## The two scatters' sums, over the rows -/

/-- A rank-1 index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The rows that land on (g, j), summed: over all rows, column j of those whose id is g. -/
theorem rows_sum (fin : Vec Ideal S100000x3 .f32) (ids : Vec Ideal S100000x1 .i32) (g : Fin 64) (j : Fin 3) :
    (∑ u ∈ Finset.univ.filter (fun u => scatRows.resultIdx? u ids = some (ix2 g j)), fin u)
      = ∑ n : Fin 100000, if ids (ix2 n 0) = BitVec.ofNat 32 g.val then fin (ix2 n j) else 0 := by
  rw [Finset.sum_filter, sum_idx2]
  refine Finset.sum_congr rfl fun n _ => ?_
  simp only [scatRows_hit]
  by_cases hw : ids (ix2 n 0) = BitVec.ofNat 32 g.val
  · simp only [hw, true_and, if_true]
    rw [Finset.sum_ite_eq' Finset.univ j (fun c => fin (ix2 n c)), if_pos (Finset.mem_univ j)]
  · simp only [hw, false_and, if_false]
    exact Finset.sum_const_zero

/-- The ones that land on g, summed: over all rows, a one for each whose id is g. -/
theorem ones_sum (ids : Vec Ideal S100000x1 .i32) (g : Fin 64) (one : EReal) :
    (∑ u ∈ Finset.univ.filter (fun u => scatOnes.resultIdx? u ids = some (ix1 g)), one)
      = ∑ n : Fin 100000, if ids (ix2 n 0) = BitVec.ofNat 32 g.val then one else 0 := by
  rw [Finset.sum_filter, sum_idx1]
  refine Finset.sum_congr rfl fun n _ => ?_
  simp only [scatOnes_hit]

/-- The host's quotient of two arrays at an index is the quotient of the elements there. -/
theorem hostDivf_apply {s : Shape} {φ : FTy} (x y : FVec Ideal s φ) (i : s.Idx) :
    Host.divf x y i = Ideal.div (x i) (y i) := rfl

/-- THE REFERENCE'S POOL AT AN ENTRY: column j summed over the rows of graph g, over the larger of their number and one. -/
theorem refPool_apply (fin : Vec Ideal S100000x3 .f32) (ids : Vec Ideal S100000x1 .i32) (g : Fin 64) (j : Fin 3) :
    refPool fin ids (ix2 g j)
      = Ideal.div (∑ n : Fin 100000, if ids (ix2 n 0) = BitVec.ofNat 32 g.val then fin (ix2 n j) else 0)
          (max (∑ n : Fin 100000, if ids (ix2 n 0) = BitVec.ofNat 32 g.val then Ideal.ofBits .f32 0x3F800000#32 else 0)
            (Ideal.ofBits .f32 0x3F800000#32)) := by
  have hrows : Host.scatterAdd (F := Ideal) scatRows
        (broadcastInDim Cert.ReferenceIdeal.S64x3 ![] Cert.ReferenceIdeal.Gen.bcast_S_S64x3
          (constant Cert.ReferenceIdeal.S_ .f32 0x00000000#32)) ids fin (ix2 g j)
      = ∑ n : Fin 100000, if ids (ix2 n 0) = BitVec.ofNat 32 g.val then fin (ix2 n j) else 0 := by
    rw [← rows_sum]
    show Ideal.ofBits .f32 0x00000000#32 + _ = _
    rw [Ideal.ofBits_zero_f32, zero_add]
  have hones : Host.scatterAdd (F := Ideal) scatOnes
        (broadcastInDim Cert.ReferenceIdeal.S64 ![] Cert.ReferenceIdeal.Gen.bcast_S_S64
          (constant Cert.ReferenceIdeal.S_ .f32 0x00000000#32)) ids
        (broadcastInDim Cert.ReferenceIdeal.S100000 ![] Cert.ReferenceIdeal.Gen.bcast_S_S100000
          (constant Cert.ReferenceIdeal.S_ .f32 0x3F800000#32)) (ix1 g)
      = ∑ n : Fin 100000, if ids (ix2 n 0) = BitVec.ofNat 32 g.val then Ideal.ofBits .f32 0x3F800000#32 else 0 := by
    rw [← ones_sum]
    show Ideal.ofBits .f32 0x00000000#32 + _ = _
    rw [Ideal.ofBits_zero_f32, zero_add]
    rfl
  unfold refPool
  rw [hostDivf_apply, hrows, broadcastInDim_apply _ Cert.ReferenceIdeal.Gen.bcast_S64x1_S64x3_0_1 _ (ix2 g j) (ix2 g 0) (fun a => match a with
      | ⟨0, _⟩ => by show g.val = if (64 : Nat) = 1 then 0 else g.val; rw [if_neg (by decide)]
      | ⟨1, _⟩ => by show 0 = if (1 : Nat) = 1 then 0 else j.val; rw [if_pos rfl]),
    broadcastInDim_apply _ Cert.ReferenceIdeal.Gen.bcast_S64_S64x1_0 _ (ix2 g 0) (ix1 g) (fun a => match a with
      | ⟨0, _⟩ => by show g.val = if (64 : Nat) = 1 then 0 else g.val; rw [if_neg (by decide)]),
    maximumf_apply, hones]
  rfl

/-- The kernel program hands the pool the graph ids reshaped from a vector to a column; that column is the reference's
    broadcast of the same vector along the rows (either way row n holds id n). -/
theorem ids_reshape_bcast (x2 : Vec Ideal S100000 .i32) (h : S100000.ShapeCasts S100000x1) :
    (shapeCast S100000x1 x2 h : Vec Ideal S100000x1 .i32)
      = broadcastInDim Cert.ReferenceIdeal.S100000x1 ![0] Cert.ReferenceIdeal.Gen.bcast_S100000_S100000x1_0 x2 := by
  funext i
  obtain ⟨n, z, rfl⟩ : ∃ (n : Fin 100000) (z : Fin 1), i = ix2 n z := ⟨i 0, i 1, eq_ix2 i⟩
  have hz : z.val = 0 := by have := z.isLt; omega
  refine (shapeCast_apply x2 h (ix2 n z) (ix1 n) ?_).trans
    (broadcastInDim_apply _ Cert.ReferenceIdeal.Gen.bcast_S100000_S100000x1_0 x2 (ix2 n z) (ix1 n) (fun a => match a with
      | ⟨0, _⟩ => by show n.val = if (100000 : Nat) = 1 then 0 else n.val; rw [if_neg (by decide)])).symm
  rw [Shape.rowMajor_val_one, Shape.rowMajor_val_two]
  show n.val = n.val * 1 + z.val
  omega

/-! ## The kernel's accumulator, entry by entry -/

variable (V : (c : Dev nD) → (b : Ref sig .tc) → Buf (Elt Ideal) ((c : Thread nD τ).loc b))

theorem hz2_4 : (![0, 0] : Fin 2 → Nat) = fun _ => 0 := funext fun a => by fin_cases a <;> rfl

/-- The zeroed accumulator is zero at every entry. -/
theorem zero4_apply (i : S64x4.Idx) : zero4 (F := Ideal) i = 0 := by
  unfold zero4
  rw [View.canon_unit_zero hz2_4]
  exact pool_pay1_apply i

/-- One point's step at an entry: the accumulator there plus the block's one-hot product. -/
theorem step4_apply (a : Vec Ideal S64x4 .f32) (ids : Vec Ideal S2000x1 .i32) (feats : Vec Ideal S2000x3 .f32)
    (g : Fin 64) (j : Fin 4) :
    step4 a ids feats (ix2 g j) = a (ix2 g j) + ∑ r : Fin 2000, hot (ids (ix2 r 0)) g * ext feats r j := by
  unfold step4
  rw [View.canon_unit_zero hz2_4]
  simp only [View.ld_unit_zero (S := S2000x1) hz2_4, View.ld_unit_zero (S := S2000x3) hz2_4, View.ld_unit_zero (S := S64x4) hz2_4]
  exact pool_pay2_apply ids feats a g j

/-- The stored quotient at an entry: the accumulator's sum there over the larger of its count and one. -/
theorem out4_2_apply (a : Vec Ideal S64x4 .f32) (g : Fin 64) (j : Fin 3) :
    out4_2 a (ix2 g j) = Ideal.div (a (ix2 g (j.castSucc))) (max (a (ix2 g 3)) (Ideal.ofBits .f32 0x3F800000#32)) := by
  unfold out4_2
  rw [View.canon_unit_zero hz2_4, pool_pay3_apply]
  have e1 : rSum4.idx (ix2 g j) = ix2 g (j.castSucc) := funext fun b => Fin.ext (by
    match b with
    | ⟨0, _⟩ => show 0 + 1 * g.val = g.val; omega
    | ⟨1, _⟩ => show 0 + 1 * j.val = j.val; omega)
  have e2 : rCnt4.idx (ix2 g 0) = ix2 g 3 := funext fun b => Fin.ext (by
    match b with
    | ⟨0, _⟩ => show 0 + 1 * g.val = g.val; omega
    | ⟨1, _⟩ => show 3 + 1 * 0 = 3; rfl)
  show Ideal.div (a (rSum4.idx (ix2 g j))) (max (a (rCnt4.idx (ix2 g 0))) _) = _
  rw [e1, e2]

/-! ## The blocks a point works on, as rows of the arrays -/

/-- The windows' index maps at each of the 50 grid points: the two inputs are at block row `t`, the result at block 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- The per-node window's block at point `t` is rows `2000 t … 2000 t + 1999` of its array. -/
theorem blk4_0_apply (c : Dev nD) (t : Fin cfg4.N) (p : Fin 2000) (k : Fin 3) (r : Fin 100000)
    (hr : r.val = 2000 * t.val + p.val) :
    (iblk4 V c 0 t : Vec Ideal S2000x3 .f32) (ix2 p k) = (V c main_v47 : Vec Ideal S100000x3 .f32) (ix2 r k) := by
  obtain ⟨e0, e1, -⟩ := idx_facts4 t
  unfold iblk4
  rw [View.read_apply]
  show V c main_v47 _ = V c main_v47 _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 3 + 1 * k.val = k.val; rw [e1]; omega

/-- The graph-id window's block at point `t` is the same rows of the id column. -/
theorem blk4_1_apply (c : Dev nD) (t : Fin cfg4.N) (p : Fin 2000) (r : Fin 100000)
    (hr : r.val = 2000 * t.val + p.val) :
    (iblk4 V c 1 t : Vec Ideal S2000x1 .i32) (ix2 p 0) = (V c main_v4 : Vec Ideal S100000x1 .i32) (ix2 r 0) := by
  obtain ⟨-, -, e0, e1, -⟩ := idx_facts4 t
  unfold iblk4
  rw [View.read_apply]
  show V c main_v4 _ = V c main_v4 _
  congr 1
  funext a
  apply Fin.ext
  match a with
  | ⟨0, _⟩ => show win4_1.index t (0 : Fin 2) * 2000 + 1 * p.val = r.val; rw [e0, hr]; omega
  | ⟨1, _⟩ => show win4_1.index t (1 : Fin 2) * 1 + 1 * 0 = 0; rw [e1]

/-- Point `m`'s one-hot product at an entry is the contributions of rows `2000 m … 2000 m + 1999` of the arrays. -/
theorem block_sum (c : Dev nD) (m : ℕ) (hm : m < 50) (g : Fin 64) (j : Fin 4) :
    ∑ r : Fin 2000, hot (ids4 V c m (ix2 r 0)) g * ext (feats4 V c m) r j
      = ∑ r : Fin 2000, rowTerm (V c main_v47) (V c main_v4) g j (2000 * m + r.val) := by
  have hN : cfg4.N = 50 := N_4
  have hmN : m < cfg4.N := by rw [hN]; exact hm
  have hf : feats4 V c m = iblk4 V c 0 ⟨m, hmN⟩ := feats4_at V c ⟨m, hmN⟩
  have hi : ids4 V c m = iblk4 V c 1 ⟨m, hmN⟩ := ids4_at V c ⟨m, hmN⟩
  rw [hf, hi]
  refine Finset.sum_congr rfl fun r _ => ?_
  have hr : 2000 * m + r.val < 100000 := by have := r.isLt; omega
  unfold rowTerm
  rw [dif_pos hr, blk4_1_apply V c ⟨m, hmN⟩ r ⟨2000 * m + r.val, hr⟩ rfl]
  refine congrArg (hot _ g * ·) ?_
  unfold ext extA
  by_cases h : j.val < 3
  · rw [dif_pos h, dif_pos h]
    exact blk4_0_apply V c ⟨m, hmN⟩ r ⟨j.val, h⟩ ⟨2000 * m + r.val, hr⟩ rfl
  · rw [dif_neg h, dif_neg h]

/-- THE ACCUMULATOR AFTER POINT `m`, at an entry: the contributions of the first `2000 (m + 1)` rows. -/
theorem acc4_apply (c : Dev nD) (g : Fin 64) (j : Fin 4) (m : ℕ) :
    m < 50 → acc4 V c m (ix2 g j) = partSum (V c main_v47) (V c main_v4) g j (m + 1) := by
  induction m with
  | zero =>
    intro h0
    rw [show acc4 V c 0 = step4 (zero4 (F := Ideal)) (ids4 V c 0) (feats4 V c 0) from rfl, step4_apply, zero4_apply,
      partSum_succ, partSum_zero, block_sum V c 0 h0]
  | succ m ih =>
    intro hm
    rw [show acc4 V c (m + 1) = step4 (acc4 V c m) (ids4 V c (m + 1)) (feats4 V c (m + 1)) from rfl, step4_apply,
      ih (by omega), partSum_succ _ _ _ _ (m + 1), block_sum V c (m + 1) hm]

/-! ## The two arrangements of the one sum meet -/

/-- A row's one-hot weight at g times its entry in column j is the entry where the row's id is g, zero elsewhere. -/
theorem hot_mul_col (fin : Vec Ideal S100000x3 .f32) (w : BitVec 32) (g : Fin 64) (n : Fin 100000) (j : Fin 3) :
    hot w g * extA fin n j.castSucc = if w = BitVec.ofNat 32 g.val then fin (ix2 n j) else 0 := by
  have h : (j.castSucc : Fin 4).val < 3 := j.isLt
  unfold hot extA
  rw [dif_pos h]
  by_cases hw : w = BitVec.ofNat 32 g.val
  · rw [if_pos hw, if_pos hw, one_mul]; rfl
  · rw [if_neg hw, if_neg hw, zero_mul]

/-- A row's one-hot weight at g times its one is a one where the row's id is g, zero elsewhere. -/
theorem hot_mul_one (fin : Vec Ideal S100000x3 .f32) (w : BitVec 32) (g : Fin 64) (n : Fin 100000) :
    hot w g * extA fin n 3 = if w = BitVec.ofNat 32 g.val then Ideal.ofBits .f32 0x3F800000#32 else 0 := by
  have h : ¬((3 : Fin 4).val < 3) := by decide
  unfold hot extA
  rw [dif_neg h, one_f32]
  by_cases hw : w = BitVec.ofNat 32 g.val
  · rw [if_pos hw, one_mul]
  · rw [if_neg hw, zero_mul]

/-- THE POOL AT AN ENTRY: what the last point stores from the final accumulator is the reference's pool of the arrays. -/
theorem pool_entry (c : Dev nD) (g : Fin 64) (j : Fin 3) :
    out4_2 (acc4 V c 49) (ix2 g j) = refPool (V c main_v47) (V c main_v4) (ix2 g j) := by
  rw [out4_2_apply, acc4_apply V c g j.castSucc 49 (by omega), acc4_apply V c g 3 49 (by omega), partSum_all, partSum_all,
    refPool_apply]
  simp only [hot_mul_col, hot_mul_one]

/-! ## From the last point's block to the result array -/

/-- What the last point stores at an entry of its block is the reference's pool at the array index under it. -/
theorem flushed4_at (c : Dev nD) (t : Fin cfg4.N) (y : S64x3.Idx) :
    out4_2 (acc4 V c 49) y = refPool (V c main_v47) (V c main_v4) (((cfg4.win 2).blk t).view.emb y) := by
  obtain ⟨g, j, rfl⟩ : ∃ (g : Fin 64) (j : Fin 3), y = ix2 g j := ⟨y 0, y 1, eq_ix2 y⟩
  obtain ⟨-, -, -, -, e0, e1⟩ := idx_facts4 t
  have he : ((cfg4.win 2).blk t).view.emb (ix2 g j) = (ix2 g j : S64x3.Idx) := by
    funext a
    apply Fin.ext
    match a with
    | ⟨0, _⟩ => show win4_2.index t (0 : Fin 2) * 64 + 1 * g.val = g.val; rw [e0]; omega
    | ⟨1, _⟩ => show win4_2.index t (1 : Fin 2) * 3 + 1 * j.val = j.val; rw [e1]; omega
  rw [he]
  exact pool_entry V c g j

/-- WHAT THE LAST POINT WRITES BACK is the (one, whole) block of the reference's pool of the arrays as the region finds them. -/
theorem flushed4_eq (c : Dev nD) (t : Fin cfg4.N) (hf : (cfg4.win 2).flush t = true) :
    (dat4 (F := Ideal) V c).flushed 2 t
      = ((cfg4.win 2).blk t).view.read (Elt Ideal) (refPool (V c main_v47) (V c main_v4)) := by
  have hN : cfg4.N = 50 := N_4
  have ht : t.val = 49 := by have := (flush4_2 t).mp hf; have := t.isLt; omega
  show (cfg4.win 2).cut (grid4.coords t) ((dat4 V c).after 2 t) = _
  rw [after4_2, ht]
  funext y
  exact flushed4_at V c t y

/-- An index of the result array is in point `t`'s block iff each coordinate is in the block's range on its axis. -/
theorem mem_blk4 (t : Fin cfg4.N) (i : S64x3.Idx) :
    i ∈ ((cfg4.win 2).blk t).view.set ↔ ∀ a : Fin 2, win4_2.index t a * S64x3.size a ≤ (i a).val ∧ (i a).val < win4_2.index t a * S64x3.size a + S64x3.size a := by
  show i ∈ ((View.whole main_v48).slice (win4_2.rect t)).set ↔ _
  rw [View.set_slice_whole, Rect.mem_set_unit]
  exact Iff.rfl

/-- Every index of the result is in the last point's block: the block is the whole array. -/
theorem cover4 (i : S64x3.Idx) : ∃ t : Fin cfg4.N, (cfg4.win 2).flush t = true ∧ i ∈ ((cfg4.win 2).blk t).view.set := by
  have hN : grid4.N = 50 := N_4
  have hi0 : (i 0).val < 64 := (i 0).isLt
  have hi1 : (i 1).val < 3 := (i 1).isLt
  have ht : 49 < grid4.N := by rw [hN]; omega
  refine ⟨⟨49, ht⟩, (flush4_2 _).mpr rfl, ?_⟩
  obtain ⟨-, -, -, -, e0, e1⟩ := idx_facts4 ⟨49, ht⟩
  rw [mem_blk4]
  intro a
  match a with
  | ⟨0, _⟩ => show win4_2.index ⟨49, ht⟩ (0 : Fin 2) * 64 ≤ (i 0).val ∧ (i 0).val < win4_2.index ⟨49, ht⟩ (0 : Fin 2) * 64 + 64
              rw [e0]; omega
  | ⟨1, _⟩ => show win4_2.index ⟨49, ht⟩ (1 : Fin 2) * 3 ≤ (i 1).val ∧ (i 1).val < win4_2.index ⟨49, ht⟩ (1 : Fin 2) * 3 + 3
              rw [e1]; omega

/-- THE RESULT ARRAY after the region: the reference's pool of the per-node array by the graph-id column, as the region
    finds them. -/
theorem final4 (c : Dev nD) :
    (dat4 (F := Ideal) V c).arrAt 2 cfg4.N = refPool (V c main_v47) (V c main_v4) :=
  (dat4 (F := Ideal) V c).arrAt_eq_of_cover 2 _ (fun t hf => flushed4_eq V c t hf) cover4

end Cert.KernelIdeal.Val

end
-- ==== Proof.ValKernelIdeal.Glue.lean ====
/-
  The five regions' results one after the other, each as the reference's function of the arrays before it.  The
  first layer's result is the reference's dense half of the reference's neighbour mean of the features; the second and
  third layers' results are the same of the result before; the head's result is the reference's head of the third
  layer's; the pooled result is the reference's pooling of the head's over the graph ids as a column.  Each step reads
  the region's result off the arrays the region found, and those arrays off the host stretches before it: the mean
  array is the kernel program's own gather-and-scatter mean, which is the reference's when every source id is in
  range; an argument array is as launched; an earlier result is the named result.
-/
import proofs.«418012_j44109314130143_1_alg».proof.Proof.HandKernelIdeal.Run
import proofs.«418012_j44109314130143_1_alg».proof.Proof.ValKernelIdeal.Host
import proofs.«418012_j44109314130143_1_alg».proof.Proof.ValKernelIdeal.Take
import proofs.«418012_j44109314130143_1_alg».proof.Proof.ValKernelIdeal.Pre
import proofs.«418012_j44109314130143_1_alg».proof.Proof.ValKernelIdeal.Dense0
import proofs.«418012_j44109314130143_1_alg».proof.Proof.ValKernelIdeal.Dense1
import proofs.«418012_j44109314130143_1_alg».proof.Proof.ValKernelIdeal.Dense2
import proofs.«418012_j44109314130143_1_alg».proof.Proof.ValKernelIdeal.HeadV
import proofs.«418012_j44109314130143_1_alg».proof.Proof.ValKernelIdeal.PoolV

set_option maxRecDepth 16384

noncomputable section

namespace Cert.KernelIdeal.Val

open Cert.KernelIdeal Cert.KernelIdeal.Gen
open Idealize.ShloMosaic Idealize.ShloMosaic.TcCoe Idealize.SL.Sem
open Cert.ReferenceIdeal.Val (refMean0 refMean1)

variable (m : (ℓ : Loc nD τ sig) → Buf (Elt Ideal) ℓ) (c : Dev nD)

/-- The first layer's result: the reference's dense half of the reference's neighbour mean of the features. -/
theorem o4_val (hsrc : ∀ e : Fin 1600000, -100000 ≤ (m ((c : Thread nD τ).loc main_arg1) (ValueIdx.ix2 (0 : Fin 2) e)).toInt ∧ (m ((c : Thread nD τ).loc main_arg1) (ValueIdx.ix2 (0 : Fin 2) e)).toInt < 100000) :
    Hand.o4 m c = refDense0 (refMean0 (m ((c : Thread nD τ).loc main_arg0)) (m ((c : Thread nD τ).loc main_arg1))) (m ((c : Thread nD τ).loc main_arg0)) (m ((c : Thread nD τ).loc main_arg3)) (m ((c : Thread nD τ).loc main_arg5)) (m ((c : Thread nD τ).loc main_arg4)) := by
  rw [Hand.o4_def, final0 (Hand.En0 m) c]
  show refDense0 (V3 m c main_v17) (V3 m c main_arg0) (V3 m c main_arg3) (V3 m c main_arg5) (V3 m c main_arg4) = _
  rw [stage0_take m c, V3_main_arg0 m c, V3_main_arg3 m c, V3_main_arg5 m c, V3_main_arg4 m c,
    takeMean0_eq (m ((c : Thread nD τ).loc main_arg0)) (m ((c : Thread nD τ).loc main_arg1)) hsrc]

/-- The second layer's result: the same of the first layer's result. -/
theorem o7_val (hsrc : ∀ e : Fin 1600000, -100000 ≤ (m ((c : Thread nD τ).loc main_arg1) (ValueIdx.ix2 (0 : Fin 2) e)).toInt ∧ (m ((c : Thread nD τ).loc main_arg1) (ValueIdx.ix2 (0 : Fin 2) e)).toInt < 100000) :
    Hand.o7 m c = refDense1 (refMean1 (Hand.o4 m c) (m ((c : Thread nD τ).loc main_arg1))) (Hand.o4 m c) (m ((c : Thread nD τ).loc main_arg6)) (m ((c : Thread nD τ).loc main_arg8)) (m ((c : Thread nD τ).loc main_arg7)) := by
  rw [Hand.o7_def, final1 (Hand.En1 m) c]
  show refDense1 (V6 m (Hand.outs1 m) c main_v31) (V6 m (Hand.outs1 m) c main_v18) (V6 m (Hand.outs1 m) c main_arg6)
    (V6 m (Hand.outs1 m) c main_arg8) (V6 m (Hand.outs1 m) c main_arg7) = _
  rw [stage1_take m (Hand.outs1 m) c, V6_main_v18 m (Hand.outs1 m) c, V6_main_arg6 m (Hand.outs1 m) c, V6_main_arg8 m (Hand.outs1 m) c,
    V6_main_arg7 m (Hand.outs1 m) c, Hand.at1_4 m c, takeMean1_eq (Hand.o4 m c) (m ((c : Thread nD τ).loc main_arg1)) hsrc]

/-- The third layer's result: the same of the second layer's result. -/
theorem o10_val (hsrc : ∀ e : Fin 1600000, -100000 ≤ (m ((c : Thread nD τ).loc main_arg1) (ValueIdx.ix2 (0 : Fin 2) e)).toInt ∧ (m ((c : Thread nD τ).loc main_arg1) (ValueIdx.ix2 (0 : Fin 2) e)).toInt < 100000) :
    Hand.o10 m c = refDense2 (refMean1 (Hand.o7 m c) (m ((c : Thread nD τ).loc main_arg1))) (Hand.o7 m c) (m ((c : Thread nD τ).loc main_arg9)) (m ((c : Thread nD τ).loc main_arg11)) (m ((c : Thread nD τ).loc main_arg10)) := by
  rw [Hand.o10_def, final2 (Hand.En2 m) c]
  show refDense2 (V9 m (Hand.outs2 m) c main_v45) (V9 m (Hand.outs2 m) c main_v32) (V9 m (Hand.outs2 m) c main_arg9)
    (V9 m (Hand.outs2 m) c main_arg11) (V9 m (Hand.outs2 m) c main_arg10) = _
  rw [stage2_take m (Hand.outs2 m) c, V9_main_v32 m (Hand.outs2 m) c, V9_main_arg9 m (Hand.outs2 m) c, V9_main_arg11 m (Hand.outs2 m) c,
    V9_main_arg10 m (Hand.outs2 m) c, Hand.at2_7 m c, takeMean1_eq (Hand.o7 m c) (m ((c : Thread nD τ).loc main_arg1)) hsrc]

/-- The head's result: the reference's head of the third layer's result. -/
theorem o11_val :
    Hand.o11 m c = refHead (Hand.o10 m c) (m ((c : Thread nD τ).loc main_arg12)) (m ((c : Thread nD τ).loc main_arg13)) (m ((c : Thread nD τ).loc main_arg14)) (m ((c : Thread nD τ).loc main_arg15))
      (m ((c : Thread nD τ).loc main_arg16)) (m ((c : Thread nD τ).loc main_arg17)) (m ((c : Thread nD τ).loc main_arg18)) (m ((c : Thread nD τ).loc main_arg19)) := by
  rw [Hand.o11_def, final3 (Hand.En3 m) c]
  show refHead (V10 m (Hand.outs3 m) c main_v46) (V10 m (Hand.outs3 m) c main_arg12) (V10 m (Hand.outs3 m) c main_arg13)
    (V10 m (Hand.outs3 m) c main_arg14) (V10 m (Hand.outs3 m) c main_arg15) (V10 m (Hand.outs3 m) c main_arg16)
    (V10 m (Hand.outs3 m) c main_arg17) (V10 m (Hand.outs3 m) c main_arg18) (V10 m (Hand.outs3 m) c main_arg19) = _
  rw [V10_main_v46 m (Hand.outs3 m) c, V10_main_arg12 m (Hand.outs3 m) c, V10_main_arg13 m (Hand.outs3 m) c, V10_main_arg14 m (Hand.outs3 m) c,
    V10_main_arg15 m (Hand.outs3 m) c, V10_main_arg16 m (Hand.outs3 m) c, V10_main_arg17 m (Hand.outs3 m) c, V10_main_arg18 m (Hand.outs3 m) c,
    V10_main_arg19 m (Hand.outs3 m) c, Hand.at3_10 m c]

/-- The pooled result: the reference's pooling of the head's result over the graph ids as a column. -/
theorem o12_val :
    Hand.o12 m c = refPool (Hand.o11 m c) (batchCol (m ((c : Thread nD τ).loc main_arg2))) := by
  rw [Hand.o12_def, final4 (Hand.En4 m) c]
  show refPool (V11 m (Hand.outs4 m) c main_v47) (V11 m (Hand.outs4 m) c main_v4) = _
  rw [V11_main_v47 m (Hand.outs4 m) c, V11_main_v4 m (Hand.outs4 m) c, Hand.at4_11 m c]

end Cert.KernelIdeal.Val

end
-- ==== Proof.ValKernelIdeal.Dense0Read.lean ====
/-
  The reference's own value of the first neighbour-mean layer's dense half, read off its operations one by one, is the
  function `refDense0` of the aggregated mean, the layer's input, the two weight matrices and the bias.
-/
import proofs.«418012_j44109314130143_1_alg».proof.Proof.ValKernelIdeal.Dense0
import proofs.«418012_j44109314130143_1_alg».proof.Proof.Gen.ReferenceIdeal.Read

noncomputable section

namespace Cert.KernelIdeal.Val

open Idealize.ShloMosaic Idealize.ShloMosaic.TcCoe

/-- The reference's own value of the layer's dense half is `refDense0` of the aggregated mean, the layer's input, the
    two weight matrices and the bias: the same operations, term for term. -/
theorem refDense0_read (x0 : (⟨Cert.ReferenceIdeal.S100000x32, .f32⟩ : BufTy).Contents (Elt Ideal)) (x1 : (⟨Cert.ReferenceIdeal.S2x1600000, .i32⟩ : BufTy).Contents (Elt Ideal)) (x3 : (⟨Cert.ReferenceIdeal.S32x128, .f32⟩ : BufTy).Contents (Elt Ideal)) (x4 : (⟨Cert.ReferenceIdeal.S128, .f32⟩ : BufTy).Contents (Elt Ideal)) (x5 : (⟨Cert.ReferenceIdeal.S32x128, .f32⟩ : BufTy).Contents (Elt Ideal)) :
    Cert.ReferenceIdeal.Read.val_main_v29 (F := Ideal) x0 x1 x3 x4 x5
      = refDense0 (Cert.ReferenceIdeal.Read.val_main_v22 (F := Ideal) x0 x1) x0 x3 x5 x4 := by
  unfold Cert.ReferenceIdeal.Read.val_main_v29 Cert.ReferenceIdeal.Read.val_main_v28 Cert.ReferenceIdeal.Read.val_main_v26 Cert.ReferenceIdeal.Read.val_main_v23 Cert.ReferenceIdeal.Read.val_main_v25 Cert.ReferenceIdeal.Read.val_main_v24 Cert.ReferenceIdeal.Read.val_main_v27 Cert.ReferenceIdeal.Read.val_main_call0_v0 Cert.ReferenceIdeal.Read.val_main_call0_cst refDense0
  rfl

end Cert.KernelIdeal.Val

end
-- ==== Proof.ValKernelIdeal.HeadRead.lean ====
/-
  The reference's generated values meet the head's chain: the value the reference's last head operation writes is
  `refHead` of the value its third layer's rectification writes and of the eight parameter arrays.  Both sides are
  the same operations in the same order, so the equation holds by unfolding the names, at any float values.
-/
import proofs.«418012_j44109314130143_1_alg».proof.Proof.Gen.ReferenceIdeal.Read
import proofs.«418012_j44109314130143_1_alg».proof.Proof.ValKernelIdeal.HeadRef

noncomputable section

namespace Cert.KernelIdeal.Val

open Idealize.ShloMosaic
open Cert.ReferenceIdeal Cert.ReferenceIdeal.Gen Cert.ReferenceIdeal.Read Idealize.ShloMosaic.StableHlo

/-- At any float values: the reference's result of its last head operation is the head's chain on its third layer's output. -/
theorem refHeadF_read {F : FTy → Type} [FloatOps F] (x0 : (⟨S100000x32, .f32⟩ : BufTy).Contents (Elt F)) (x1 : (⟨S2x1600000, .i32⟩ : BufTy).Contents (Elt F)) (x3 : (⟨S32x128, .f32⟩ : BufTy).Contents (Elt F)) (x4 : (⟨S128, .f32⟩ : BufTy).Contents (Elt F)) (x5 : (⟨S32x128, .f32⟩ : BufTy).Contents (Elt F)) (x6 : (⟨S128x128, .f32⟩ : BufTy).Contents (Elt F)) (x7 : (⟨S128, .f32⟩ : BufTy).Contents (Elt F)) (x8 x9 : (⟨S128x128, .f32⟩ : BufTy).Contents (Elt F)) (x10 : (⟨S128, .f32⟩ : BufTy).Contents (Elt F)) (x11 : (⟨S128x128, .f32⟩ : BufTy).Contents (Elt F)) (x12 : (⟨S128x3, .f32⟩ : BufTy).Contents (Elt F)) (x13 : (⟨S3, .f32⟩ : BufTy).Contents (Elt F)) (x14 : (⟨S2x128, .f32⟩ : BufTy).Contents (Elt F)) (x15 : (⟨S128, .f32⟩ : BufTy).Contents (Elt F)) (x16 : (⟨S128x128, .f32⟩ : BufTy).Contents (Elt F)) (x17 : (⟨S128, .f32⟩ : BufTy).Contents (Elt F)) (x18 : (⟨S128x1, .f32⟩ : BufTy).Contents (Elt F)) (x19 : (⟨S1, .f32⟩ : BufTy).Contents (Elt F)) :
    val_main_v111 (F := F) x0 x1 x3 x4 x5 x6 x7 x8 x9 x10 x11 x12 x13 x14 x15 x16 x17 x18 x19
      = refHeadF (val_main_v81 (F := F) x0 x1 x3 x4 x5 x6 x7 x8 x9 x10 x11) x12 x13 x14 x15 x16 x17 x18 x19 := by
  unfold val_main_v111 val_main_v110 val_main_v109 val_main_v108 val_main_v107 val_main_v106 val_main_v105 val_main_v104 val_main_v103 val_main_v102 val_main_call4_v0 val_main_call4_cst val_main_v101 val_main_v100 val_main_v99 val_main_v98 val_main_v97 val_main_call3_v0 val_main_call3_cst val_main_v96 val_main_v95 val_main_v94 val_main_v93 val_main_v92 val_main_v91 val_main_v90 val_main_v89 val_main_v88 val_main_v87 val_main_v86 val_main_v85 val_main_v84 val_main_v83 val_main_v82
  unfold refHeadF refJoin refL3 refL2 refL1 refPair refCol0 refCol2 refMain
  rfl

/-- At the extended reals. -/
theorem refHead_read (x0 : (⟨S100000x32, .f32⟩ : BufTy).Contents (Elt Ideal)) (x1 : (⟨S2x1600000, .i32⟩ : BufTy).Contents (Elt Ideal)) (x3 : (⟨S32x128, .f32⟩ : BufTy).Contents (Elt Ideal)) (x4 : (⟨S128, .f32⟩ : BufTy).Contents (Elt Ideal)) (x5 : (⟨S32x128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x3, .f32⟩ : BufTy).Contents (Elt Ideal)) (x13 : (⟨S3, .f32⟩ : BufTy).Contents (Elt Ideal)) (x14 : (⟨S2x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x1, .f32⟩ : BufTy).Contents (Elt Ideal)) (x19 : (⟨S1, .f32⟩ : BufTy).Contents (Elt Ideal)) :
    val_main_v111 (F := Ideal) x0 x1 x3 x4 x5 x6 x7 x8 x9 x10 x11 x12 x13 x14 x15 x16 x17 x18 x19
      = refHead (val_main_v81 (F := Ideal) x0 x1 x3 x4 x5 x6 x7 x8 x9 x10 x11) x12 x13 x14 x15 x16 x17 x18 x19 :=
  refHeadF_read (F := Ideal) x0 x1 x3 x4 x5 x6 x7 x8 x9 x10 x11 x12 x13 x14 x15 x16 x17 x18 x19

end Cert.KernelIdeal.Val

end
-- ==== Proof.ValKernelIdeal.TakeEq.lean ====
/-
  The kernel's neighbour means are the reference's: the host stretch before each neighbour-mean layer, restated as one
  term over the arrays it reads, is — under the precondition's range for the source ids — the reference's mean of the
  same arrays.  The one difference between the two programs, the kernel's range mask after the lookup, selects the
  looked-up row at every edge; the rest is the same chain of operations.
-/
import proofs.«418012_j44109314130143_1_alg».proof.Proof.ValKernelIdeal.Host

noncomputable section

namespace Cert.KernelIdeal.Val

open Idealize.ShloMosaic Idealize.SL.Sem
open Cert.KernelIdeal

variable [Cert.ReferenceIdeal.Facts]

/-- The first layer's mean. -/
theorem kerMean0_eq_ref (x : Vec Ideal S100000x32 .f32) (ei : IVec S2x1600000 32)
    (hsrc : ∀ e : Fin 1600000, -100000 ≤ (ei (ValueIdx.ix2 (0 : Fin 2) e)).toInt ∧ (ei (ValueIdx.ix2 (0 : Fin 2) e)).toInt < 100000) :
    kerMean0 (F := Ideal) x ei = refMean0 x ei :=
  (kerMean0_eq_takeMean0 x ei).trans (takeMean0_eq x ei hsrc)

/-- The later layers' mean. -/
theorem kerMean1_eq (h : Vec Ideal S100000x128 .f32) (ei : IVec S2x1600000 32)
    (hsrc : ∀ e : Fin 1600000, -100000 ≤ (ei (ValueIdx.ix2 (0 : Fin 2) e)).toInt ∧ (ei (ValueIdx.ix2 (0 : Fin 2) e)).toInt < 100000) :
    kerMean1 (F := Ideal) h ei = refMean1 h ei :=
  (kerMean1_eq_takeMean1 h ei).trans (takeMean1_eq h ei hsrc)

end Cert.KernelIdeal.Val

end
-- ==== Proof.ValKernelIdeal.TakeRead.lean ====
/-
  The reference's neighbour means as its run reads them: the value the reference writes for the first layer's mean is
  `refMean0` of the feature array and the edge array; for the second and the third layer's, `refMean1` of the layer
  before's output and the edge array.  Each is the run's chain of definitions unfolded: the same operations over the
  same dimension records.
-/
import proofs.«418012_j44109314130143_1_alg».proof.Proof.Gen.ReferenceIdeal.Read
import proofs.«418012_j44109314130143_1_alg».proof.Proof.ValKernelIdeal.TakeEq

noncomputable section

namespace Cert.KernelIdeal.Val

open Idealize.ShloMosaic Idealize.SL.Sem

section Read

open Cert.ReferenceIdeal.Read

variable [Cert.ReferenceIdeal.Facts]

/-- The first layer's mean the reference writes is `refMean0` of the features and the edge array. -/
theorem refMean0_read (x0 : (⟨Cert.ReferenceIdeal.S100000x32, .f32⟩ : BufTy).Contents (Elt Ideal))
    (x1 : (⟨Cert.ReferenceIdeal.S2x1600000, .i32⟩ : BufTy).Contents (Elt Ideal)) :
    val_main_v22 (F := Ideal) x0 x1 = refMean0 x0 x1 := rfl

/-- The second layer's mean is `refMean1` of the first layer's output. -/
theorem refMean1_read1 (x0 : (⟨Cert.ReferenceIdeal.S100000x32, .f32⟩ : BufTy).Contents (Elt Ideal))
    (x1 : (⟨Cert.ReferenceIdeal.S2x1600000, .i32⟩ : BufTy).Contents (Elt Ideal))
    (x3 : (⟨Cert.ReferenceIdeal.S32x128, .f32⟩ : BufTy).Contents (Elt Ideal)) (x4 : (⟨Cert.ReferenceIdeal.S128, .f32⟩ : BufTy).Contents (Elt Ideal))
    (x5 : (⟨Cert.ReferenceIdeal.S32x128, .f32⟩ : BufTy).Contents (Elt Ideal)) :
    val_main_v48 (F := Ideal) x0 x1 x3 x4 x5 = refMean1 (val_main_v29 (F := Ideal) x0 x1 x3 x4 x5) x1 := rfl

/-- The third layer's mean is `refMean1` of the second layer's output: the same operations over the same records. -/
theorem refMean1_read2 (x0 : (⟨Cert.ReferenceIdeal.S100000x32, .f32⟩ : BufTy).Contents (Elt Ideal))
    (x1 : (⟨Cert.ReferenceIdeal.S2x1600000, .i32⟩ : BufTy).Contents (Elt Ideal))
    (x3 : (⟨Cert.ReferenceIdeal.S32x128, .f32⟩ : BufTy).Contents (Elt Ideal)) (x4 : (⟨Cert.ReferenceIdeal.S128, .f32⟩ : BufTy).Contents (Elt Ideal))
    (x5 : (⟨Cert.ReferenceIdeal.S32x128, .f32⟩ : BufTy).Contents (Elt Ideal)) (x6 : (⟨Cert.ReferenceIdeal.S128x128, .f32⟩ : BufTy).Contents (Elt Ideal))
    (x7 : (⟨Cert.ReferenceIdeal.S128, .f32⟩ : BufTy).Contents (Elt Ideal)) (x8 : (⟨Cert.ReferenceIdeal.S128x128, .f32⟩ : BufTy).Contents (Elt Ideal)) :
    val_main_v74 (F := Ideal) x0 x1 x3 x4 x5 x6 x7 x8 = refMean1 (val_main_v55 (F := Ideal) x0 x1 x3 x4 x5 x6 x7 x8) x1 := rfl

/-- THE FIRST LAYER'S MEAN against the reference's run: the kernel's host stretch computes the value the reference
    writes for its first neighbour mean. -/
theorem kerMean0_eq (x : Vec Ideal Cert.KernelIdeal.S100000x32 .f32) (ei : IVec Cert.KernelIdeal.S2x1600000 32)
    (hsrc : ∀ e : Fin 1600000, -100000 ≤ (ei (ValueIdx.ix2 (0 : Fin 2) e)).toInt ∧ (ei (ValueIdx.ix2 (0 : Fin 2) e)).toInt < 100000) :
    kerMean0 (F := Ideal) x ei = val_main_v22 (F := Ideal) x ei :=
  (kerMean0_eq_ref x ei hsrc).trans (refMean0_read x ei).symm

end Read

end Cert.KernelIdeal.Val

end
-- ==== Proof.ValKernelIdeal.PoolRead.lean ====
/-
  The reference's last stage, read off its run: the value it returns is the reference's pool (the function of the
  per-node array and the graph-id column) of its own per-node array and of the broadcast of its graph-id argument; and
  the kernel program's reshape of that argument to a column is the same column.
-/
import proofs.«418012_j44109314130143_1_alg».proof.Proof.Gen.ReferenceIdeal.Read
import proofs.«418012_j44109314130143_1_alg».proof.Proof.ValKernelIdeal.PoolV
import proofs.«418012_j44109314130143_1_alg».proof.Proof.ValKernelIdeal.Host

set_option maxRecDepth 16384

noncomputable section

namespace Cert.KernelIdeal.Val

open Cert.KernelIdeal Cert.KernelIdeal.Gen
open Idealize.ShloMosaic Idealize.ShloMosaic.ValueIdx

/-- The reference's result is its pool of its per-node array by its graph-id column. -/
theorem refPool_read (x0 : (⟨Cert.ReferenceIdeal.S100000x32, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S32x128, .f32⟩ : BufTy).Contents (Elt Ideal)) (x4 : (⟨Cert.ReferenceIdeal.S128, .f32⟩ : BufTy).Contents (Elt Ideal)) (x5 : (⟨Cert.ReferenceIdeal.S32x128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128x3, .f32⟩ : BufTy).Contents (Elt Ideal)) (x13 : (⟨Cert.ReferenceIdeal.S3, .f32⟩ : BufTy).Contents (Elt Ideal)) (x14 : (⟨Cert.ReferenceIdeal.S2x128, .f32⟩ : BufTy).Contents (Elt Ideal)) (x15 : (⟨Cert.ReferenceIdeal.S128, .f32⟩ : BufTy).Contents (Elt Ideal)) (x16 : (⟨Cert.ReferenceIdeal.S128x128, .f32⟩ : BufTy).Contents (Elt Ideal)) (x17 : (⟨Cert.ReferenceIdeal.S128, .f32⟩ : BufTy).Contents (Elt Ideal)) (x18 : (⟨Cert.ReferenceIdeal.S128x1, .f32⟩ : BufTy).Contents (Elt Ideal)) (x19 : (⟨Cert.ReferenceIdeal.S1, .f32⟩ : BufTy).Contents (Elt Ideal)) :
    Cert.ReferenceIdeal.Read.val_main_v123 (F := Ideal) x0 x1 x2 x3 x4 x5 x6 x7 x8 x9 x10 x11 x12 x13 x14 x15 x16 x17 x18 x19
      = refPool (Cert.ReferenceIdeal.Read.val_main_v111 (F := Ideal) x0 x1 x3 x4 x5 x6 x7 x8 x9 x10 x11 x12 x13 x14 x15 x16 x17 x18 x19)
          (Cert.ReferenceIdeal.Read.val_main_v113 (F := Ideal) x2) := by
  unfold Cert.ReferenceIdeal.Read.val_main_v123 Cert.ReferenceIdeal.Read.val_main_v114
  generalize Cert.ReferenceIdeal.Read.val_main_v111 (F := Ideal) x0 x1 x3 x4 x5 x6 x7 x8 x9 x10 x11 x12 x13 x14 x15 x16 x17 x18 x19 = fin
  unfold Cert.ReferenceIdeal.Read.val_main_v122 Cert.ReferenceIdeal.Read.val_main_v121 Cert.ReferenceIdeal.Read.val_main_v120
    Cert.ReferenceIdeal.Read.val_main_v118 Cert.ReferenceIdeal.Read.val_main_v117 Cert.ReferenceIdeal.Read.val_main_v113
    Cert.ReferenceIdeal.Read.val_main_v112 Cert.ReferenceIdeal.Read.val_main_v116 Cert.ReferenceIdeal.Read.val_main_v115
    Cert.ReferenceIdeal.Read.val_main_v119 Cert.ReferenceIdeal.Read.val_main_cst_16 Cert.ReferenceIdeal.Read.val_main_cst_17
    Cert.ReferenceIdeal.Read.val_main_cst_18 Cert.ReferenceIdeal.Read.val_main_cst_19 refPool
  rfl

/-- The kernel program's graph-id column (the reshape of the graph-id argument) is the reference's broadcast of it. -/
theorem ids_reshape (x2 : IVec S100000 32) :
    batchCol x2 = Cert.ReferenceIdeal.Read.val_main_v113 (F := Ideal) x2 := by
  unfold batchCol
  exact ids_reshape_bcast x2 shapeCasts_S100000_S100000x1

end Cert.KernelIdeal.Val

end
-- ==== Proof.ValKernelIdeal.GlueRead.lean ====
/-
  The kernel program's result is the reference's: the pooled result, unfolded region by region into the reference's
  functions of the argument arrays, is term for term the value the reference's operations write for its result, read
  the same way from its last operation back to its first.  The one hypothesis used is the precondition's range of the
  source ids, under which the kernel program's gather-and-scatter mean is the reference's.
-/
import proofs.«418012_j44109314130143_1_alg».proof.Proof.ValKernelIdeal.Glue
import proofs.«418012_j44109314130143_1_alg».proof.Proof.Gen.ReferenceIdeal.Read
import proofs.«418012_j44109314130143_1_alg».proof.Proof.ValKernelIdeal.Dense0Read
import proofs.«418012_j44109314130143_1_alg».proof.Proof.ValKernelIdeal.Dense1Read
import proofs.«418012_j44109314130143_1_alg».proof.Proof.ValKernelIdeal.Dense2Read
import proofs.«418012_j44109314130143_1_alg».proof.Proof.ValKernelIdeal.HeadRead
import proofs.«418012_j44109314130143_1_alg».proof.Proof.ValKernelIdeal.TakeRead
import proofs.«418012_j44109314130143_1_alg».proof.Proof.ValKernelIdeal.PoolRead

set_option maxRecDepth 16384

noncomputable section

namespace Cert.KernelIdeal.Val

open Cert.KernelIdeal Cert.KernelIdeal.Gen
open Idealize.ShloMosaic Idealize.ShloMosaic.TcCoe Idealize.SL.Sem

/-- THE RESULT: under the precondition, what the pooling region leaves in the result array is the value the
    reference's last operation writes, of the same twenty argument arrays. -/
theorem result_eq [Cert.Pre_finite_inputs.Facts] (m : (ℓ : Loc nD τ sig) → Buf (Elt Ideal) ℓ) (hpre : Cert.Pre_KernelIdeal m) (c : Dev nD) :
    Hand.o12 (F := Ideal) m c
      = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  have hsrc := src_range m hpre c
  rw [refPool_read (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)),
    refHead_read (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)),
    refDense2_read (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)),
    refMean1_read2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)),
    refDense1_read (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)),
    refMean1_read1 (m ((c : Thread nD τ).loc main_arg0)) (m ((c : Thread nD τ).loc main_arg1)) (m ((c : Thread nD τ).loc main_arg3)) (m ((c : Thread nD τ).loc main_arg4)) (m ((c : Thread nD τ).loc main_arg5)),
    refDense0_read (m ((c : Thread nD τ).loc main_arg0)) (m ((c : Thread nD τ).loc main_arg1)) (m ((c : Thread nD τ).loc main_arg3)) (m ((c : Thread nD τ).loc main_arg4)) (m ((c : Thread nD τ).loc main_arg5)),
    refMean0_read (m ((c : Thread nD τ).loc main_arg0)) (m ((c : Thread nD τ).loc main_arg1)),
    ← ids_reshape (m ((c : Thread nD τ).loc main_arg2))]
  rw [o12_val m c, o11_val m c, o10_val m c hsrc, o7_val m c hsrc, o4_val m c hsrc]

end Cert.KernelIdeal.Val

end
-- ==== Proof.lean ====
/-
  A three-layer neighbour-mean network (each layer relu(mean · Wl + bl + x · Wr), the mean taken over the incoming
  edges of every node), a small perceptron head on two of the three output columns, and a mean pool over graph ids,
  computed two ways.  The kernel program gathers and scatter-adds on the host and runs five pipelined regions (three
  dense layers, the head, the pool as a one-hot matrix product accumulated over fifty row blocks); the reference is
  plain host operations.  Over the extended reals the two agree whenever every source node id lies in
  [-100000, 100000), the range in which the reference's own lookup is an index of its array: there the kernel's
  range mask on the lookup is all ones, a matrix product into a zero accumulator is the plain sum the host's
  contraction is, the two orders in which a layer adds its three terms are one sum, and a sum of rows selected by a
  one-hot factor is the scatter-add's sum over the rows carrying that id.

  The three frames come from the run of each program's items (host stretches and regions) and, for the reference,
  from its run read back; nothing was rewritten by the ideal pass, so the idealization claim is empty; the
  equivalence pairs the kernel program's run, whose result array is named region by region, with the reference's
  run, whose result term is the same function of the arguments.
-/
import proofs.«418012_j44109314130143_1_alg».proof.Defs
import proofs.«418012_j44109314130143_1_alg».proof.Proof.HandKernel.Run
import proofs.«418012_j44109314130143_1_alg».proof.Proof.HandKernelIdeal.Run
import proofs.«418012_j44109314130143_1_alg».proof.Proof.ValKernelIdeal.GlueRead
import proofs.«418012_j44109314130143_1_alg».proof.Proof.Gen.ReferenceIdeal.Run
import proofs.«418012_j44109314130143_1_alg».proof.Proof.Gen.ReferenceIdeal.Read
import proofs.«418012_j44109314130143_1_alg».proof.Proof.Gen.Pre_finite_inputs

noncomputable section

namespace Cert.Proof

open Idealize.ShloMosaic Idealize.ShloMosaic.TcCoe Idealize.SL.Sem

/-- The word-level program runs to its end from any memory, and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end, with the same pooled array: the kernel program's is
    the pooling region's result, which the region-by-region reading identifies with the reference's term. -/
theorem algebraic : Cert.algebraic_KernelIdeal_ReferenceIdeal := by
  intro m ρ m' ρ' hpre hagree
  refine ⟨fun c => Cert.KernelIdeal.Hand.o12 (F := Ideal) m c, Cert.KernelIdeal.Hand.run_full (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v123_eq, h0, h1, h2, h3, h4, h5, h6, h7, h8, h9, h10, h11, h12, h13, h14, h15, h16, h17, h18, h19]
  exact (Cert.KernelIdeal.Val.result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
